-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v45_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v45_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x1 .f32) (main_arg8 : FVec F S1 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x1 .f32) (main_arg8 : FVec F S1 .f32) (main_arg9 : FVec F S64x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S1x64 : Shape := ⟨2, ![1, 64]⟩
abbrev S1x1 : Shape := ⟨2, ![1, 1]⟩
abbrev S2000 : Shape := ⟨1, ![2000]⟩
abbrev S1x10 : Shape := ⟨2, ![1, 10]⟩

abbrev nBuf : Space → Nat
  | .hbm => 93
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S64x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S1x64, .f32⟩
  | .hbm, ⟨70, _⟩ => ⟨S1x1, .f32⟩
  | .hbm, ⟨71, _⟩ => ⟨S100000x1, .f32⟩
  | .hbm, ⟨72, _⟩ => ⟨S100000x64, .f32⟩
  | .hbm, ⟨73, _⟩ => ⟨S100000x1, .i32⟩
  | .hbm, ⟨74, _⟩ => ⟨S64, .i32⟩
  | .hbm, ⟨75, _⟩ => ⟨S1x64, .i32⟩
  | .hbm, ⟨76, _⟩ => ⟨S100000x64, .i32⟩
  | .hbm, ⟨77, _⟩ => ⟨S100000x64, .i32⟩
  | .hbm, ⟨78, _⟩ => ⟨S100000x64, .i1⟩
  | .hbm, ⟨79, _⟩ => ⟨S100000x64, .bf16⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S64, .f32⟩
  | .hbm, ⟨84, _⟩ => ⟨S100000x1, .i32⟩
  | .hbm, ⟨85, _⟩ => ⟨S64, .f32⟩
  | .hbm, ⟨86, _⟩ => ⟨S_, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64x1, .f32⟩
  | .hbm, ⟨91, _⟩ => ⟨S1x10, .f32⟩
  | .hbm, ⟨92, _⟩ => ⟨S64x10, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x1, .f32⟩
  | .local _ .vmem, ⟨4, _⟩ => ⟨S2000x1, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x64, .f32⟩
  | .local _ .vmem, ⟨17, _⟩ => ⟨S2000x1, .f32⟩
  | .local _ .vmem, ⟨18, _⟩ => ⟨S2000x1, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S1x64, .f32⟩
  | .local _ .vmem, ⟨31, _⟩ => ⟨S1x1, .f32⟩
  | .local _ .vmem, ⟨32, _⟩ => ⟨S2000x1, .f32⟩
  | .local _ .vmem, ⟨33, _⟩ => ⟨S2000x1, .f32⟩
  | .local _ .vmem, ⟨34, _⟩ => ⟨S2000x64, .f32⟩
  | .local _ .vmem, ⟨35, _⟩ => ⟨S2000x64, .f32⟩
  | .local _ .vmem, ⟨36, _⟩ => ⟨S2000x64, .bf16⟩
  | .local _ .vmem, ⟨37, _⟩ => ⟨S2000x64, .bf16⟩
  | .local _ .vmem, ⟨38, _⟩ => ⟨S2000x64, .f32⟩
  | .local _ .vmem, ⟨39, _⟩ => ⟨S2000x64, .f32⟩
  | .local _ .vmem, ⟨40, _⟩ => ⟨S64x1, .f32⟩
  | .local _ .vmem, ⟨41, _⟩ => ⟨S64x10, .f32⟩
  | .local _ .vmem, ⟨42, _⟩ => ⟨S1x10, .f32⟩
  | .local _ .vmem, ⟨43, _⟩ => ⟨S64x10, .f32⟩
  | .local _ .vmem, ⟨44, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_call2_v0 : Ref sig .tc := ⟨.hbm, 87, rfl⟩
abbrev main_call2_v1 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_scratch0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def k5_cond2 (i : grid5.Coords) : BitVec 1 :=
  let arg0 : BitVec 32 := BitVec.ofNat 32 (i 0).val
  let c49_i32 : BitVec 32 := 49#32
  let v14 : BitVec 1 := Scalar.cmpi .eq arg0 c49_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x1_S1x64 : S64x1.ShapeCasts S1x64
  shapeCasts_S1_S1x1 : S1.ShapeCasts S1x1
  reduces_S2000x64_S2000 : S2000x64.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S_S64 : S_.BroadcastsInDim S64 (![] : Fin 0 → Fin S64.rank)
  shapeCasts_S64_S64x1 : S64.ShapeCasts S64x1
  shapeCasts_S10_S1x10 : S10.ShapeCasts S1x10
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  scatter_S64_S100000x1_S100000_n_0_0_1_wf : ScatterDims.WF S64 S100000x1 S100000 [] [0] [0] 1
  dot_S2000x64_S2000x64_S64x64_0_0_1_1_n_n_wf : DotDims.WF S2000x64 S2000x64 S64x64 [0] [0] [1] [1] [] []
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S100000x1.size a
  hwx4_3 : ∀ i : grid4.Coords, EltTy.bits .f32 = 32 ∨ (Rect.block (s := S100000x1) S2000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S100000x64.size a
  hwx4_4 : ∀ i : grid4.Coords, EltTy.bits .f32 = 32 ∨ (Rect.block (s := S100000x64) S2000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .bf16 = 32 ∨ (Rect.block (s := S100000x64) S2000x64.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x1.size a ≤ S64x1.size a
  hwx5_2 : ∀ i : grid5.Coords, EltTy.bits .f32 = 32 ∨ (Rect.block (s := S64x1) S64x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x10.size a ≤ S64x10.size a
  hwx5_3 : ∀ i : grid5.Coords, EltTy.bits .f32 = 32 ∨ (Rect.block (s := S64x10) S64x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x10.size a ≤ S1x10.size a
  hwx5_4 : ∀ i : grid5.Coords, EltTy.bits .f32 = 32 ∨ (Rect.block (s := S1x10) S1x10.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x10.size a ≤ S64x10.size a
  hwx5_5 : ∀ i : grid5.Coords, EltTy.bits .f32 = 32 ∨ (Rect.block (s := S64x10) S64x10.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S2000x64_S2000x64_S64x64_0_0_1_1_n_n : DotDims S2000x64 S2000x64 S64x64 where
  lhsContracting := [0]
  rhsContracting := [0]
  lhsNonContracting := [1]
  rhsNonContracting := [1]
  lhsBatch := []
  rhsBatch := []
  wf := dot_S2000x64_S2000x64_S64x64_0_0_1_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45_0) S2000x1.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v45_1) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v52) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45_1) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v58) S64x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S64x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v59) S1x10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v60) S64x10.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S100000x1 : Shape := ⟨2, ![100000, 1]⟩
abbrev S1600000x64 : Shape := ⟨2, ![1600000, 64]⟩
abbrev S1x64 : Shape := ⟨2, ![1, 64]⟩
abbrev S1x1 : Shape := ⟨2, ![1, 1]⟩
abbrev S1x10 : Shape := ⟨2, ![1, 10]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S64x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S100000x64, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S100000x1, .f32⟩
  | .hbm, ⟨92, _⟩ => ⟨S100000x1, .f32⟩
  | .hbm, ⟨93, _⟩ => ⟨S_, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S64x64, .f32⟩
  | .hbm, ⟨103, _⟩ => ⟨S100000x1, .i32⟩
  | .hbm, ⟨104, _⟩ => ⟨S64x64, .f32⟩
  | .hbm, ⟨105, _⟩ => ⟨S_, .f32⟩
  | .hbm, ⟨106, _⟩ => ⟨S100000, .f32⟩
  | .hbm, ⟨107, _⟩ => ⟨S_, .f32⟩
  | .hbm, ⟨108, _⟩ => ⟨S64, .f32⟩
  | .hbm, ⟨109, _⟩ => ⟨S100000x1, .i32⟩
  | .hbm, ⟨110, _⟩ => ⟨S64, .f32⟩
  | .hbm, ⟨111, _⟩ => ⟨S_, .f32⟩
  | .hbm, ⟨112, _⟩ => ⟨S_, .f32⟩
  | .hbm, ⟨113, _⟩ => ⟨S64, .f32⟩
  | .hbm, ⟨114, _⟩ => ⟨S64, .f32⟩
  | .hbm, ⟨115, _⟩ => ⟨S64x1, .f32⟩
  | .hbm, ⟨116, _⟩ => ⟨S64x64, .f32⟩
  | .hbm, ⟨117, _⟩ => ⟨S64x64, .f32⟩
  | .hbm, ⟨118, _⟩ => ⟨S64x10, .f32⟩
  | .hbm, ⟨119, _⟩ => ⟨S1x10, .f32⟩
  | .hbm, ⟨120, _⟩ => ⟨S64x10, .f32⟩
  | .hbm, ⟨121, _⟩ => ⟨S64x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call2_cst : Ref sig .tc := ⟨.hbm, 58, rfl⟩
abbrev main_call2_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_6 : Ref sig .tc := ⟨.hbm, 65, rfl⟩
abbrev main_v40 : Ref sig .tc := ⟨.hbm, 66, rfl⟩
abbrev main_v41 : Ref sig .tc := ⟨.hbm, 67, rfl⟩
abbrev main_c_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call3_cst : Ref sig .tc := ⟨.hbm, 84, rfl⟩
abbrev main_call3_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_14 : Ref sig .tc := ⟨.hbm, 111, rfl⟩
abbrev main_call4_v0 : Ref sig .tc := ⟨.hbm, 112, rfl⟩
abbrev main_call4_v1 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x10_S64x10_1_0_0_1_n_n_wf : DotDims.WF S64x64 S64x10 S64x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.K.R0.lean ====
/-
  Region 0 of the program (custom call 0: the first layer's projection of a block of node rows, each row scaled by its out-degree factor). Every window's block is a row block of its array (or the whole of a small
  operand); the body loads each input block whole, computes, and stores each output block whole. Stated at a
  parameter `V`: the contents of the TensorCore's buffers when the region is entered.
-/
import proofs.«404283_j8701603742240_1_alg».proof.Proof.Gen.Kernel.Launch
import proofs.«404283_j8701603742240_1_alg».proof.Proof.Gen.Kernel.Skeleton
import proofs.«404283_j8701603742240_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle of output window 3's store: the whole block. -/
abbrev r0_3 : Rect S2000x64 := Rect.unit (s := S2000x64) ![0, 0] S2000x64.size inb_S2000x64_S2000x64_0_0

/-- What the body leaves in output window 3's staging buffer, from the input blocks: its one store. -/
def out0_3 (x0 : Vec F S2000x128 .f32) (x1 : Vec F S128x64 .f32) (x2 : Vec F S2000x1 .f32) : Vec F S2000x64 .f32 :=
  View.canon [⟨r0_3, k0_pay1 (View.ld x0 (Rect.unit (s := S2000x128) ![0, 0] S2000x128.size inb_S2000x128_S2000x128_0_0)) (View.ld x1 (Rect.unit (s := S128x64) ![0, 0] S128x64.size inb_S128x64_S128x64_0_0)) (View.ld x2 (Rect.unit (s := S2000x1) ![0, 0] S2000x1.size inb_S2000x1_S2000x1_0_0))⟩]

/-- The store covers the buffer. -/
theorem cover0_3 (p0 : Vec F S2000x64 .f32) (y : S2000x64.Idx) :
    ∃ pc ∈ ([⟨r0_3, p0⟩] : List (View.Piece (Elt F) S2000x64 .f32)), y ∈ pc.1.set :=
  View.cover_of_tiled [⟨r0_3, p0⟩] S2000x64.size (by rfl) y

set_option maxHeartbeats 4000000 in
/-- The body on whole staging memrefs, the inputs' at contents `x·` and the outputs' at anything, runs to the
    continuation with the inputs' as they were and each output's at `out0_·` of the inputs'. -/
theorem sound_kernel0 (c : Dev nD) (E : Set ℕ) (i : grid0.Coords) (arg1 : Memref sig .tc .vmem S2000x128 .f32) (harg1 : arg1.IsWhole) (arg2 : Memref sig .tc .vmem S128x64 .f32) (harg2 : arg2.IsWhole) (arg3 : Memref sig .tc .vmem S2000x1 .f32) (harg3 : arg3.IsWhole) (arg4 : Memref sig .tc .vmem S2000x64 .f32) (harg4 : arg4.IsWhole)
    (x0 : Vec F S2000x128 .f32) (x1 : Vec F S128x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_scale_kernel i arg1 harg1 arg2 harg2 arg3 harg3 arg4 harg4) K := by
  simp only [cc0__proj_scale_kernel_eq_skeleton]; unfold cc0__proj_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body at point `t`
    each input's buffer at its block and each output's at `out0_·` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of the program (custom call 1: scale the aggregated rows by the in-degree factor, add the bias row, clamp below at zero). Every window's block is a row block of its array (or the whole of a small
  operand); the body loads each input block whole, computes, and stores each output block whole. Stated at a
  parameter `V`: the contents of the TensorCore's buffers when the region is entered.
-/
import proofs.«404283_j8701603742240_1_alg».proof.Proof.Gen.Kernel.Launch
import proofs.«404283_j8701603742240_1_alg».proof.Proof.Gen.Kernel.Skeleton
import proofs.«404283_j8701603742240_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one rectangle of output window 3's store: the whole block. -/
abbrev r1_3 : Rect S2000x64 := Rect.unit (s := S2000x64) ![0, 0] S2000x64.size inb_S2000x64_S2000x64_0_0

/-- What the body leaves in output window 3's staging buffer, from the input blocks: its one store. -/
def out1_3 (x0 : Vec F S2000x64 .f32) (x1 : Vec F S2000x1 .f32) (x2 : Vec F S1x64 .f32) : Vec F S2000x64 .f32 :=
  View.canon [⟨r1_3, k1_pay1 (View.ld x0 (Rect.unit (s := S2000x64) ![0, 0] S2000x64.size inb_S2000x64_S2000x64_0_0)) (View.ld x1 (Rect.unit (s := S2000x1) ![0, 0] S2000x1.size inb_S2000x1_S2000x1_0_0)) (View.ld x2 (Rect.unit (s := S1x64) ![0, 0] S1x64.size inb_S1x64_S1x64_0_0))⟩]

/-- The store covers the buffer. -/
theorem cover1_3 (p0 : Vec F S2000x64 .f32) (y : S2000x64.Idx) :
    ∃ pc ∈ ([⟨r1_3, p0⟩] : List (View.Piece (Elt F) S2000x64 .f32)), y ∈ pc.1.set :=
  View.cover_of_tiled [⟨r1_3, p0⟩] S2000x64.size (by rfl) y

set_option maxHeartbeats 4000000 in
/-- The body on whole staging memrefs, the inputs' at contents `x·` and the outputs' at anything, runs to the
    continuation with the inputs' as they were and each output's at `out1_·` of the inputs'. -/
theorem sound_kernel1 (c : Dev nD) (E : Set ℕ) (i : grid1.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x64 .f32) (harg4 : arg4.IsWhole)
    (x0 : Vec F S2000x64 .f32) (x1 : Vec F S2000x1 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_kernel i arg1 harg1 arg2 harg2 arg3 harg3 arg4 harg4) K := by
  simp only [cc1__bias_relu_kernel_eq_skeleton]; unfold cc1__bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t`
    each input's buffer at its block and each output's at `out1_·` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2 of the program (custom call 2: the second layer's projection of a block of node rows, each row scaled by its out-degree factor). Every window's block is a row block of its array (or the whole of a small
  operand); the body loads each input block whole, computes, and stores each output block whole. Stated at a
  parameter `V`: the contents of the TensorCore's buffers when the region is entered.
-/
import proofs.«404283_j8701603742240_1_alg».proof.Proof.Gen.Kernel.Launch
import proofs.«404283_j8701603742240_1_alg».proof.Proof.Gen.Kernel.Skeleton
import proofs.«404283_j8701603742240_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The one rectangle of output window 3's store: the whole block. -/
abbrev r2_3 : Rect S2000x64 := Rect.unit (s := S2000x64) ![0, 0] S2000x64.size inb_S2000x64_S2000x64_0_0

/-- What the body leaves in output window 3's staging buffer, from the input blocks: its one store. -/
def out2_3 (x0 : Vec F S2000x64 .f32) (x1 : Vec F S64x64 .f32) (x2 : Vec F S2000x1 .f32) : Vec F S2000x64 .f32 :=
  View.canon [⟨r2_3, k2_pay1 (View.ld x0 (Rect.unit (s := S2000x64) ![0, 0] S2000x64.size inb_S2000x64_S2000x64_0_0)) (View.ld x1 (Rect.unit (s := S64x64) ![0, 0] S64x64.size inb_S64x64_S64x64_0_0)) (View.ld x2 (Rect.unit (s := S2000x1) ![0, 0] S2000x1.size inb_S2000x1_S2000x1_0_0))⟩]

/-- The store covers the buffer. -/
theorem cover2_3 (p0 : Vec F S2000x64 .f32) (y : S2000x64.Idx) :
    ∃ pc ∈ ([⟨r2_3, p0⟩] : List (View.Piece (Elt F) S2000x64 .f32)), y ∈ pc.1.set :=
  View.cover_of_tiled [⟨r2_3, p0⟩] S2000x64.size (by rfl) y

set_option maxHeartbeats 4000000 in
/-- The body on whole staging memrefs, the inputs' at contents `x·` and the outputs' at anything, runs to the
    continuation with the inputs' as they were and each output's at `out2_·` of the inputs'. -/
theorem sound_kernel2 (c : Dev nD) (E : Set ℕ) (i : grid2.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .f32) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__proj_scale_kernel i arg1 harg1 arg2 harg2 arg3 harg3 arg4 harg4) K := by
  simp only [cc2__proj_scale_kernel_eq_skeleton]; unfold cc2__proj_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t`
    each input's buffer at its block and each output's at `out2_·` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  Region 3 of the program (custom call 3: scale the aggregated rows by the in-degree factor, add the bias row, clamp below at zero). Every window's block is a row block of its array (or the whole of a small
  operand); the body loads each input block whole, computes, and stores each output block whole. Stated at a
  parameter `V`: the contents of the TensorCore's buffers when the region is entered.
-/
import proofs.«404283_j8701603742240_1_alg».proof.Proof.Gen.Kernel.Launch
import proofs.«404283_j8701603742240_1_alg».proof.Proof.Gen.Kernel.Skeleton
import proofs.«404283_j8701603742240_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where it is not
    fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: where it is not
    fetched the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: where it is not
    fetched the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The one rectangle of output window 3's store: the whole block. -/
abbrev r3_3 : Rect S2000x64 := Rect.unit (s := S2000x64) ![0, 0] S2000x64.size inb_S2000x64_S2000x64_0_0

/-- What the body leaves in output window 3's staging buffer, from the input blocks: its one store. -/
def out3_3 (x0 : Vec F S2000x64 .f32) (x1 : Vec F S2000x1 .f32) (x2 : Vec F S1x64 .f32) : Vec F S2000x64 .f32 :=
  View.canon [⟨r3_3, k3_pay1 (View.ld x0 (Rect.unit (s := S2000x64) ![0, 0] S2000x64.size inb_S2000x64_S2000x64_0_0)) (View.ld x1 (Rect.unit (s := S2000x1) ![0, 0] S2000x1.size inb_S2000x1_S2000x1_0_0)) (View.ld x2 (Rect.unit (s := S1x64) ![0, 0] S1x64.size inb_S1x64_S1x64_0_0))⟩]

/-- The store covers the buffer. -/
theorem cover3_3 (p0 : Vec F S2000x64 .f32) (y : S2000x64.Idx) :
    ∃ pc ∈ ([⟨r3_3, p0⟩] : List (View.Piece (Elt F) S2000x64 .f32)), y ∈ pc.1.set :=
  View.cover_of_tiled [⟨r3_3, p0⟩] S2000x64.size (by rfl) y

set_option maxHeartbeats 4000000 in
/-- The body on whole staging memrefs, the inputs' at contents `x·` and the outputs' at anything, runs to the
    continuation with the inputs' as they were and each output's at `out3_·` of the inputs'. -/
theorem sound_kernel3 (c : Dev nD) (E : Set ℕ) (i : grid3.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x64 .f32) (harg4 : arg4.IsWhole)
    (x0 : Vec F S2000x64 .f32) (x1 : Vec F S2000x1 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__bias_relu_kernel i arg1 harg1 arg2 harg2 arg3 harg3 arg4 harg4) K := by
  simp only [cc3__bias_relu_kernel_eq_skeleton]; unfold cc3__bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this pipeline on core `c`: the arrays as the region finds them; after the body at point `t`
    each input's buffer at its block and each output's at `out3_·` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/-
  Region 4 of the program (custom call 4: the attention gate of a block of node rows and the rows scaled by it). Every window's block is a row block of its array (or the whole of a small
  operand); the body loads each input block whole, computes, and stores each output block whole. Stated at a
  parameter `V`: the contents of the TensorCore's buffers when the region is entered.
-/
import proofs.«404283_j8701603742240_1_alg».proof.Proof.Gen.Kernel.Launch
import proofs.«404283_j8701603742240_1_alg».proof.Proof.Gen.Kernel.Skeleton
import proofs.«404283_j8701603742240_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it is not
    fetched the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: where it is not
    fetched the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: where it is not
    fetched the block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The one rectangle of output window 3's store: the whole block. -/
abbrev r4_3 : Rect S2000x1 := Rect.unit (s := S2000x1) ![0, 0] S2000x1.size inb_S2000x1_S2000x1_0_0

/-- What the body leaves in output window 3's staging buffer, from the input blocks: its one store. -/
def out4_3 (x0 : Vec F S2000x64 .f32) (x1 : Vec F S1x64 .f32) (x2 : Vec F S1x1 .f32) : Vec F S2000x1 .f32 :=
  View.canon [⟨r4_3, k4_pay2 (View.ld x0 (Rect.unit (s := S2000x64) ![0, 0] S2000x64.size inb_S2000x64_S2000x64_0_0)) (View.ld x1 (Rect.unit (s := S1x64) ![0, 0] S1x64.size inb_S1x64_S1x64_0_0)) (View.ld x2 (Rect.unit (s := S1x1) ![0, 0] S1x1.size inb_S1x1_S1x1_0_0))⟩]

/-- The store covers the buffer. -/
theorem cover4_3 (p0 : Vec F S2000x1 .f32) (y : S2000x1.Idx) :
    ∃ pc ∈ ([⟨r4_3, p0⟩] : List (View.Piece (Elt F) S2000x1 .f32)), y ∈ pc.1.set :=
  View.cover_of_tiled [⟨r4_3, p0⟩] S2000x1.size (by rfl) y

/-- The one rectangle of output window 4's store: the whole block. -/
abbrev r4_4 : Rect S2000x64 := Rect.unit (s := S2000x64) ![0, 0] S2000x64.size inb_S2000x64_S2000x64_0_0

/-- What the body leaves in output window 4's staging buffer, from the input blocks: its one store. -/
def out4_4 (x0 : Vec F S2000x64 .f32) (x1 : Vec F S1x64 .f32) (x2 : Vec F S1x1 .f32) : Vec F S2000x64 .f32 :=
  View.canon [⟨r4_4, k4_pay3 (View.ld x0 (Rect.unit (s := S2000x64) ![0, 0] S2000x64.size inb_S2000x64_S2000x64_0_0)) (View.ld x1 (Rect.unit (s := S1x64) ![0, 0] S1x64.size inb_S1x64_S1x64_0_0)) (View.ld x2 (Rect.unit (s := S1x1) ![0, 0] S1x1.size inb_S1x1_S1x1_0_0))⟩]

/-- The store covers the buffer. -/
theorem cover4_4 (p0 : Vec F S2000x64 .f32) (y : S2000x64.Idx) :
    ∃ pc ∈ ([⟨r4_4, p0⟩] : List (View.Piece (Elt F) S2000x64 .f32)), y ∈ pc.1.set :=
  View.cover_of_tiled [⟨r4_4, p0⟩] S2000x64.size (by rfl) y

set_option maxHeartbeats 4000000 in
/-- The body on whole staging memrefs, the inputs' at contents `x·` and the outputs' at anything, runs to the
    continuation with the inputs' as they were and each output's at `out4_·` of the inputs'. -/
theorem sound_kernel4 (c : Dev nD) (E : Set ℕ) (i : grid4.Coords) (arg1 : Memref sig .tc .vmem S2000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S2000x1 .f32) (harg4 : arg4.IsWhole) (arg5 : Memref sig .tc .vmem S2000x64 .f32) (harg5 : arg5.IsWhole)
    (x0 : Vec F S2000x64 .f32) (x1 : Vec F S1x64 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2) ∗ owns (c : Thread nD τ) arg5 fullShare (out4_4 x0 x1 x2)) -∗ K ⟨⟩))
      ⊢ wp frame (wpE (defs₀ (F := F)) Variants.none c none) E (cc4__attn_kernel i arg1 harg1 arg2 harg2 arg3 harg3 arg4 harg4 arg5 harg5) K := by
  simp only [cc4__attn_kernel_eq_skeleton]; unfold cc4__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-- The proof data of this pipeline on core `c`: the arrays as the region finds them; after the body at point `t`
    each input's buffer at its block and each output's at `out4_·` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/-
  Region 5 of the program (custom call 5: pool the node rows by graph and classify). A 64x64 accumulator in scratch
  memory is carried across the 50 grid points: the first point zeroes it, every point adds the product of the
  transposed one-hot block with the row block, and the last point divides by the graph sizes, applies the
  classifier and stores the one output block. Stated at a parameter `V`: the contents of the TensorCore's buffers
  when the region is entered.
-/
import proofs.«404283_j8701603742240_1_alg».proof.Proof.Gen.Kernel.Launch
import proofs.«404283_j8701603742240_1_alg».proof.Proof.Gen.Kernel.Skeleton
import proofs.«404283_j8701603742240_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The last grid point. -/
abbrev t49 : Fin cfg5.N := ⟨49, by decide⟩

/-- The accumulator after point `t`: the first point adds its product to zeros, every later point adds its product
    to what the point before left (beyond the grid nothing is added). -/
def sAt5 (c : Dev nD) : ℕ → Vec F S64x64 .f32
  | 0 => k5_pay2 (iblk5 V c 0 ⟨0, by decide⟩) (iblk5 V c 1 ⟨0, by decide⟩) k5_pay1
  | n + 1 => if h : n + 1 < cfg5.N then k5_pay2 (iblk5 V c 0 ⟨n + 1, h⟩) (iblk5 V c 1 ⟨n + 1, h⟩) (sAt5 c n) else sAt5 c n

theorem sAt5_zero (c : Dev nD) :
    sAt5 V c 0 = k5_pay2 (iblk5 V c 0 ⟨0, by decide⟩) (iblk5 V c 1 ⟨0, by decide⟩) k5_pay1 := rfl

theorem sAt5_succ (c : Dev nD) (t : ℕ) (h : t + 1 < cfg5.N) :
    sAt5 V c (t + 1) = k5_pay2 (iblk5 V c 0 ⟨t + 1, h⟩) (iblk5 V c 1 ⟨t + 1, h⟩) (sAt5 V c t) := by
  rw [sAt5, dif_pos h]

/-- The output block: the classifier on the accumulator after the last point and the last point's small operands. -/
def out5 (c : Dev nD) : Vec F S64x10 .f32 :=
  k5_pay3 (sAt5 V c 49) (iblk5 V c 2 t49) (iblk5 V c 3 t49) (iblk5 V c 4 t49)

theorem out5_eq (c : Dev nD) :
    out5 V c = k5_pay3 (sAt5 V c 49) (iblk5 V c 2 t49) (iblk5 V c 3 t49) (iblk5 V c 4 t49) := rfl

/-- The accumulator: the call's own scratch buffer, whole. -/
abbrev scM5 : Memref sig .tc .vmem S64x64 .f32 := Memref.whole cc5_scratch0

/-- The region invariant before position `n`: the accumulator at anything before the first point, afterwards at
    what the point before left; the other scoped buffers unopened; the generator register at some state. -/
def PhiS5 (c : Dev nD) : ℕ → sProp 𝕄
  | 0 => iprop((∃ d, owns (c : Thread nD τ) scM5 fullShare d) ∗ Pipeline.scopedRestBut spec5 c [cc5_scratch0] ∗ ∃ r, prngReg c r)
  | n + 1 => iprop(owns (c : Thread nD τ) scM5 fullShare (sAt5 V c n) ∗ Pipeline.scopedRestBut spec5 c [cc5_scratch0] ∗ ∃ r, prngReg c r)

/-- The proof data of this pipeline on core `c`: the arrays as the region finds them; after the body at point `t`
    each input's buffer at its block and the output's at `out5` (read at the last point only: elsewhere the window
    is idle); the invariant carries the accumulator; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 V c
  Φ j := PhiS5 V c j.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5 V c := by dsimp only [dat5]

/-! ## The two conditions of the body, over the grid -/

/-- The first `scf.if`'s condition (zero the accumulator), from the grid coordinate. -/
abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val = 0 :=
  (by decide +kernel : ∀ t : Fin grid5.N, cond5_0 (grid5.coords t) ↔ t.val = 0)

/-- The second `scf.if`'s condition (classify and store the output). -/
abbrev cond5_1 (i : grid5.Coords) : Prop := k5_cond2 i = 1#1
/-- It holds at the last point only. -/
theorem hcond5_1 : ∀ t : Fin cfg5.N, cond5_1 (grid5.coords t) ↔ t.val = 49 :=
  (by decide +kernel : ∀ t : Fin grid5.N, cond5_1 (grid5.coords t) ↔ t.val = 49)

/-- The offsets of every whole-buffer access of the body are zero. -/
theorem hz5 : (![0, 0] : Fin 2 → Nat) = fun _ => 0 := funext fun a => by fin_cases a <;> rfl

/-- A store of the whole accumulator, last, covers it. -/
theorem cover5_s (p : Vec F S64x64 .f32) (L : List (View.Piece (Elt F) S64x64 .f32)) (y : S64x64.Idx) :
    ∃ pc ∈ ((⟨Rect.unit (s := S64x64) ![0, 0] S64x64.size inb_S64x64_S64x64_0_0, p⟩ : View.Piece (Elt F) S64x64 .f32) :: L), y ∈ pc.1.set :=
  ⟨_, List.mem_cons_self, View.mem_set_unit_zero hz5 inb_S64x64_S64x64_0_0 y⟩

/-- The store of the whole output block covers it. -/
theorem cover5_o (p : Vec F S64x10 .f32) (L : List (View.Piece (Elt F) S64x10 .f32)) (y : S64x10.Idx) :
    ∃ pc ∈ ((⟨Rect.unit (s := S64x10) ![0, 0] S64x10.size inb_S64x10_S64x10_0_0, p⟩ : View.Piece (Elt F) S64x10 .f32) :: L), y ∈ pc.1.set :=
  ⟨_, List.mem_cons_self, View.mem_set_unit_zero hz5 inb_S64x10_S64x10_0_0 y⟩

set_option maxHeartbeats 4000000 in
/-- The body at the first point: the accumulator, found at anything, is zeroed, read back and left at the first
    product added to zeros; the two row blocks are read and handed back. -/
theorem sound_kernel5_first (c : Dev nD) (E : Set ℕ) (i : grid5.Coords)
    (arg1 : Memref sig .tc .vmem S2000x64 .bf16) (harg1 : arg1.IsWhole) (arg2 : Memref sig .tc .vmem S2000x64 .f32) (harg2 : arg2.IsWhole)
    (arg3 : Memref sig .tc .vmem S64x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole)
    (hc0 : cond5_0 i) (hc1 : ¬cond5_1 i)
    (x0 : Vec F S2000x64 .bf16) (x1 : Vec F S2000x64 .f32) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1
            ∗ owns (c : Thread nD τ) arg7 fullShare (k5_pay2 x0 x1 k5_pay1)) -∗ K ⟨⟩))
      ⊢ wp frame (wpE (defs₀ (F := F)) Variants.none c none) E (cc5__pool_classify_kernel i arg1 harg1 arg2 harg2 arg3 harg3 arg4 harg4 arg5 harg5 arg6 harg6 arg7 harg7) K := by
  simp only [cc5__pool_classify_kernel_eq_skeleton]; unfold cc5__pool_classify_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover5_s _ _)]
  rw [View.canon_cons_unit_zero (S := S64x64) hz5, View.readCov_unit_zero (S := S64x64) _ hz5]
  simp only [View.readAt_eq_ld, View.ld_unit_zero (S := S2000x64) hz5]

set_option maxHeartbeats 4000000 in
/-- The body at a point that is neither the first nor the last: the accumulator, found at `xs`, is left at `xs` plus
    the point's product. -/
theorem sound_kernel5_mid (c : Dev nD) (E : Set ℕ) (i : grid5.Coords)
    (arg1 : Memref sig .tc .vmem S2000x64 .bf16) (harg1 : arg1.IsWhole) (arg2 : Memref sig .tc .vmem S2000x64 .f32) (harg2 : arg2.IsWhole)
    (arg3 : Memref sig .tc .vmem S64x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole)
    (hc0 : ¬cond5_0 i) (hc1 : ¬cond5_1 i)
    (x0 : Vec F S2000x64 .bf16) (x1 : Vec F S2000x64 .f32) (xs : Vec F S64x64 .f32) (K : PUnit → sProp 𝕄) :
    iprop(owns (c : Thread nD τ) arg1 fullShare x0 ∗ owns (c : Thread nD τ) arg2 fullShare x1 ∗ owns (c : Thread nD τ) arg7 fullShare xs
        ∗ (iprop(owns (c : Thread nD τ) arg1 fullShare x0 ∗ owns (c : Thread nD τ) arg2 fullShare x1
            ∗ owns (c : Thread nD τ) arg7 fullShare (k5_pay2 x0 x1 xs)) -∗ K ⟨⟩))
      ⊢ wp frame (wpE (defs₀ (F := F)) Variants.none c none) E (cc5__pool_classify_kernel i arg1 harg1 arg2 harg2 arg3 harg3 arg4 harg4 arg5 harg5 arg6 harg6 arg7 harg7) K := by
  simp only [cc5__pool_classify_kernel_eq_skeleton]; unfold cc5__pool_classify_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover5_s _ _)]
  rw [View.canon_cons_unit_zero (S := S64x64) hz5]
  simp only [View.readAt_eq_ld, View.ld_unit_zero (S := S2000x64) hz5, View.ld_unit_zero (S := S64x64) hz5]

set_option maxHeartbeats 4000000 in
/-- The body at the last point: the accumulator, found at `xs`, is left at `xs` plus the point's product, and the
    output block, found at anything, at the classifier of that sum and the three small operands. -/
theorem sound_kernel5_last (c : Dev nD) (E : Set ℕ) (i : grid5.Coords)
    (arg1 : Memref sig .tc .vmem S2000x64 .bf16) (harg1 : arg1.IsWhole) (arg2 : Memref sig .tc .vmem S2000x64 .f32) (harg2 : arg2.IsWhole)
    (arg3 : Memref sig .tc .vmem S64x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole)
    (hc0 : ¬cond5_0 i) (hc1 : cond5_1 i)
    (x0 : Vec F S2000x64 .bf16) (x1 : Vec F S2000x64 .f32) (x2 : Vec F S64x1 .f32) (x3 : Vec F S64x10 .f32) (x4 : Vec F S1x10 .f32)
    (xs : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k5_pay3 (k5_pay2 x0 x1 xs) x2 x3 x4)
            ∗ owns (c : Thread nD τ) arg7 fullShare (k5_pay2 x0 x1 xs)) -∗ K ⟨⟩))
      ⊢ wp frame (wpE (defs₀ (F := F)) Variants.none c none) E (cc5__pool_classify_kernel i arg1 harg1 arg2 harg2 arg3 harg3 arg4 harg4 arg5 harg5 arg6 harg6 arg7 harg7) K := by
  simp only [cc5__pool_classify_kernel_eq_skeleton]; unfold cc5__pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (cover5_o _ _)]
    rw [View.canon_cons_unit_zero (S := S64x10) hz5, View.readCov_unit_zero (S := S64x64) _ hz5]
    simp only [View.readAt_eq_ld, View.ld_unit_zero (S := S2000x64) hz5, View.ld_unit_zero (S := S64x64) hz5,
      View.ld_unit_zero (S := S64x1) hz5, View.ld_unit_zero (S := S64x10) hz5, View.ld_unit_zero (S := S1x10) hz5]
  iexists _; isplitr
  swap; · iexact HS
  ipureintro
  sl_unfold_words
  rw [View.read_writes_eq_canon _ _ _ (cover5_s _ _)]
  rw [View.canon_cons_unit_zero (S := S64x64) hz5]
  simp only [View.readAt_eq_ld, View.ld_unit_zero (S := S2000x64) hz5, View.ld_unit_zero (S := S64x64) hz5]

/-! ## The input windows' buffers -/

/-- Input window 0's current staging buffer holds its block at every point, fetched there or not: where it is not
    fetched the block index has not moved. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

/-- Input window 1's current staging buffer holds its block at every point, fetched there or not: where it is not
    fetched the block index has not moved. -/
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

/-- Input window 2's current staging buffer holds its block at every point, fetched there or not: where it is not
    fetched the block index has not moved. -/
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

/-- Input window 3's current staging buffer holds its block at every point, fetched there or not: where it is not
    fetched the block index has not moved. -/
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- Input window 4's current staging buffer holds its block at every point, fetched there or not: where it is not
    fetched the block index has not moved. -/
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

/-! ## What the body leaves in each window's buffer

An input window is never idle: its buffer is handed back at its block. The output window is idle, and not written
back, at every point but the last: there the body hands its buffer back as found. At the last point it is live. -/

theorem leaves5_0 (c : Dev nD) (t : Fin cfg5.N) :
    (dat5 V c).leavesExact 0 t = owns (c : Thread nD τ) (st5_0 t) fullShare (iblk5 V c 0 t) := by
  unfold Dat.leavesExact; rw [show cfg5.idle 0 (grid5.coords t) = false from rfl, after5_0]

theorem leaves5_1 (c : Dev nD) (t : Fin cfg5.N) :
    (dat5 V c).leavesExact 1 t = owns (c : Thread nD τ) (st5_1 t) fullShare (iblk5 V c 1 t) := by
  unfold Dat.leavesExact; rw [show cfg5.idle 1 (grid5.coords t) = false from rfl, after5_1]

theorem leaves5_2 (c : Dev nD) (t : Fin cfg5.N) :
    (dat5 V c).leavesExact 2 t = owns (c : Thread nD τ) (st5_2 t) fullShare (iblk5 V c 2 t) := by
  unfold Dat.leavesExact; rw [show cfg5.idle 2 (grid5.coords t) = false from rfl, after5_2]

theorem leaves5_3 (c : Dev nD) (t : Fin cfg5.N) :
    (dat5 V c).leavesExact 3 t = owns (c : Thread nD τ) (st5_3 t) fullShare (iblk5 V c 3 t) := by
  unfold Dat.leavesExact; rw [show cfg5.idle 3 (grid5.coords t) = false from rfl, after5_3]

theorem leaves5_4 (c : Dev nD) (t : Fin cfg5.N) :
    (dat5 V c).leavesExact 4 t = owns (c : Thread nD τ) (st5_4 t) fullShare (iblk5 V c 4 t) := by
  unfold Dat.leavesExact; rw [show cfg5.idle 4 (grid5.coords t) = false from rfl, after5_4]

/-- Off the last point the output window is idle, -/
theorem idleAt5_5 : ∀ t : Fin cfg5.N, ¬cond5_1 (grid5.coords t) → cfg5.idle 5 (grid5.coords t) = true := by decide +kernel
/-- and its block is not written back; -/
theorem noFlush5_5 : ∀ t : Fin cfg5.N, ¬cond5_1 (grid5.coords t) → (cfg5.win 5).flush t = false := by decide +kernel
/-- at the last point it is live. -/
theorem liveAt5_5 : ∀ t : Fin cfg5.N, cond5_1 (grid5.coords t) → cfg5.idle 5 (grid5.coords t) = false := by decide +kernel

theorem leaves5_5_idle (c : Dev nD) (t : Fin cfg5.N) (h : ¬cond5_1 (grid5.coords t)) :
    (dat5 V c).leavesExact 5 t = iprop(∃ d, owns (c : Thread nD τ) (st5_5 t) fullShare ((dat5 V c).before 5 t d)) :=
  Dat.leavesExact_idle (dat5 V c) 5 t (idleAt5_5 t h) (noFlush5_5 t h)

theorem leaves5_5_live (c : Dev nD) (t : Fin cfg5.N) (h : cond5_1 (grid5.coords t)) :
    (dat5 V c).leavesExact 5 t = owns (c : Thread nD τ) (st5_5 t) fullShare (out5 V c) := by
  unfold Dat.leavesExact; rw [liveAt5_5 t h, after5_5]

/-! ## The accumulator along the grid -/

theorem sAt5_first (c : Dev nD) (t : Fin cfg5.N) (h : t.val = 0) :
    sAt5 V c t.val = k5_pay2 (iblk5 V c 0 t) (iblk5 V c 1 t) k5_pay1 := by
  obtain ⟨n, hn⟩ := t
  cases n with
  | zero => rfl
  | succ n => exact absurd h (Nat.succ_ne_zero n)

theorem sAt5_next (c : Dev nD) (t : Fin cfg5.N) (h : t.val ≠ 0) :
    sAt5 V c t.val = k5_pay2 (iblk5 V c 0 t) (iblk5 V c 1 t) (sAt5 V c (t.val - 1)) := by
  obtain ⟨n, hn⟩ := t
  cases n with
  | zero => exact absurd rfl h
  | succ n => exact sAt5_succ V c n hn

/-- The output block from the accumulator the point before the last left. -/
theorem out5_last (c : Dev nD) (t : Fin cfg5.N) (h : t.val = 49) :
    out5 V c = k5_pay3 (k5_pay2 (iblk5 V c 0 t) (iblk5 V c 1 t) (sAt5 V c (t.val - 1))) (iblk5 V c 2 t) (iblk5 V c 3 t) (iblk5 V c 4 t) := by
  obtain rfl : t = t49 := Fin.ext h
  unfold out5; rw [← sAt5_next V c t49 (by decide)]

theorem PhiS5_zero (c : Dev nD) (n : ℕ) (h : n = 0) :
    PhiS5 V c n = iprop((∃ d, owns (c : Thread nD τ) scM5 fullShare d) ∗ Pipeline.scopedRestBut spec5 c [cc5_scratch0] ∗ ∃ r, prngReg c r) := by
  subst h; rfl

theorem PhiS5_succ (c : Dev nD) (n : ℕ) :
    PhiS5 V c (n + 1) = iprop(owns (c : Thread nD τ) scM5 fullShare (sAt5 V c n) ∗ Pipeline.scopedRestBut spec5 c [cc5_scratch0] ∗ ∃ r, prngReg c r) := rfl

theorem PhiS5_pos (c : Dev nD) (n : ℕ) (h : n ≠ 0) :
    PhiS5 V c n = iprop(owns (c : Thread nD τ) scM5 fullShare (sAt5 V c (n - 1)) ∗ Pipeline.scopedRestBut spec5 c [cc5_scratch0] ∗ ∃ r, prngReg c r) := by
  cases n with
  | zero => exact absurd rfl h
  | succ n => rfl

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4000000 in
/-- The body at any point, by the three control cases. The invariant hands the body the accumulator (at anything at
    the first point, else at what the point before left) and takes it back at this point's sum; the other scoped
    buffers, the generator register and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl,
    show (dat5 V c).Φ t.succ = PhiS5 V c (t.val + 1) from rfl, PhiS5_succ,
    show (dat5 V c).Φ t.castSucc = PhiS5 V c t.val from rfl,
    leaves5_0, leaves5_1, leaves5_2, leaves5_3, leaves5_4]
  by_cases hlast : t.val = 49
  · -- the last point: add, then classify and store the output block
    have hz : t.val ≠ 0 := by omega
    have hc0 : ¬cond5_0 (grid5.coords t) := fun h => hz ((hcond5_0 t).mp h)
    have hc1 : cond5_1 (grid5.coords t) := (hcond5_1 t).mpr hlast
    rw [leaves5_5_live V c t hc1, PhiS5_pos V c _ hz, sAt5_next V c t hz, out5_last V c t hlast]
    iintro ⟨⟨HS, Hrest, Hg⟩, Ho, ⟨%d0, H0⟩, ⟨%d1, H1⟩, ⟨%d2, H2⟩, ⟨%d3, H3⟩, ⟨%d4, H4⟩, ⟨%d5, H5⟩⟩
    iapply (sound_kernel5_last c Set.univ _ _ _ _ _ _ _ _ _ _ _ _ _ _ _ hc0 hc1
      (iblk5 V c 0 t) (iblk5 V c 1 t) (iblk5 V c 2 t) (iblk5 V c 3 t) (iblk5 V c 4 t) (sAt5 V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond5_1 (grid5.coords t) := fun h => hlast ((hcond5_1 t).mp h)
    rw [leaves5_5_idle V c t hc1]
    by_cases hz : t.val = 0
    · -- the first point: zero, then add
      have hc0 : cond5_0 (grid5.coords t) := (hcond5_0 t).mpr hz
      rw [PhiS5_zero V c _ hz, sAt5_first V c t hz]
      iintro ⟨⟨⟨%ds, HS⟩, Hrest, Hg⟩, Ho, ⟨%d0, H0⟩, ⟨%d1, H1⟩, ⟨%d2, H2⟩, ⟨%d3, H3⟩, ⟨%d4, H4⟩, ⟨%d5, H5⟩⟩
      iapply (sound_kernel5_first c Set.univ _ _ _ _ _ _ _ _ _ _ _ _ _ _ _ hc0 hc1 (iblk5 V c 0 t) (iblk5 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · -- a point between: add
      have hc0 : ¬cond5_0 (grid5.coords t) := fun h => hz ((hcond5_0 t).mp h)
      rw [PhiS5_pos V c _ hz, sAt5_next V c t hz]
      iintro ⟨⟨HS, Hrest, Hg⟩, Ho, ⟨%d0, H0⟩, ⟨%d1, H1⟩, ⟨%d2, H2⟩, ⟨%d3, H3⟩, ⟨%d4, H4⟩, ⟨%d5, H5⟩⟩
      iapply (sound_kernel5_mid c Set.univ _ _ _ _ _ _ _ _ _ _ _ _ _ _ _ hc0 hc1 (iblk5 V c 0 t) (iblk5 V c 1 t) (sAt5 V c (t.val - 1)) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point: the scoped rest opened at the
    accumulator. -/
theorem Phi5_in (c : Dev nD) : iprop((∃ r, prngReg c r) ∗ (Pipeline.scopedRest spec5 c : sProp 𝕄)) ⊢ (dat5 V c).Φ 0 := by
  rw [show (dat5 V c).Φ 0 = PhiS5 V c 0 from rfl, PhiS5_zero V c 0 rfl, scopedRest5_split]
  simp only [scM5, owns_whole]
  iintro ⟨Hg, HS, Hrest⟩
  isplitl [HS]; · iexact HS
  isplitl [Hrest]; · iexact Hrest
  iexact Hg

/-- After the last point the invariant gives the scoped rest back: the accumulator's contents are forgotten. -/
theorem Phi5_out (c : Dev nD) : (dat5 V c).Φ (Fin.last cfg5.N) ⊢ (iprop((∃ r, prngReg c r) ∗ Pipeline.scopedRest spec5 c) : sProp 𝕄) := by
  rw [show (dat5 V c).Φ (Fin.last cfg5.N) = PhiS5 V c (49 + 1) from rfl, PhiS5_succ, scopedRest5_split]
  simp only [scM5, owns_whole]
  iintro ⟨HS, Hrest, Hg⟩
  isplitl [Hg]; · iexact Hg
  isplitl [HS]; · iexists _; iexact HS
  iexact Hrest

end Cert.Kernel.Hand

end
-- ==== Proof.K.Fold.lean ====
/-
  The contents of the TensorCore's buffers at every boundary between two items of the program — a stretch of host
  operations, or one of the six kernel regions —, as a fold from the launch memory: a host stretch applies its
  operations; a region leaves its output arrays at what its write-backs leave and every other buffer as it was.
  Then: no item writes an argument, so each argument is read back through the fold to its launch contents; and the
  two results are what regions 4 and 5 leave.
-/
import proofs.«404283_j8701603742240_1_alg».proof.Proof.K.R0
import proofs.«404283_j8701603742240_1_alg».proof.Proof.K.R1
import proofs.«404283_j8701603742240_1_alg».proof.Proof.K.R2
import proofs.«404283_j8701603742240_1_alg».proof.Proof.K.R3
import proofs.«404283_j8701603742240_1_alg».proof.Proof.K.R4
import proofs.«404283_j8701603742240_1_alg».proof.Proof.K.R5
import proofs.«404283_j8701603742240_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The fold -/

/-- Core `c`'s buffers at launch. -/
abbrev B0 (c : Dev nD) : Valuation τ sig (Elt F) := fun b => m (c, b)
/-- After the host stretch `hostOps0`. -/
abbrev B1 (c : Dev nD) : Valuation τ sig (Elt F) := StableHlo.after hostOps0 (B0 m c)
/-- After the host stretch `hostOps0_1`. -/
abbrev B2 (c : Dev nD) : Valuation τ sig (Elt F) := StableHlo.after hostOps0_1 (B1 m c)
/-- After the host stretch `hostOps0_2`. -/
abbrev B3 (c : Dev nD) : Valuation τ sig (Elt F) := StableHlo.after hostOps0_2 (B2 m c)
/-- After the host stretch `hostOps0_3`. -/
abbrev B4 (c : Dev nD) : Valuation τ sig (Elt F) := StableHlo.after hostOps0_3 (B3 m c)
/-- After the host stretch `hostOps0_4`. -/
abbrev B5 (c : Dev nD) : Valuation τ sig (Elt F) := StableHlo.after hostOps0_4 (B4 m c)
/-- The buffers region 0 is entered from, read at the TensorCore's references. -/
abbrev A5 : (c : Dev nD) → (b : Ref sig .tc) → Buf (Elt F) ((c : Thread nD τ).loc b) := fun c b => B5 m c b
/-- After region 0: its arrays at what the pipeline leaves, every other buffer as entered. -/
def B6 (c : Dev nD) : Valuation τ sig (Elt F) :=
  Pipeline.withArrays spec0 c (B5 m c) fun w => (dat0 (A5 m) c).arrAt w cfg0.N
theorem B6_arr (c : Dev nD) (w : Fin cfg0.W) :
    B6 m c (Proc.devRef .tc (Pipeline.arrRef spec0 w)) = (dat0 (A5 m) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
/-- The same read at the TensorCore's references. -/
abbrev A6x : (c : Dev nD) → (b : Ref sig .tc) → Buf (Elt F) ((c : Thread nD τ).loc b) := fun c b => B6 m c b
theorem hF0 (c : Dev nD) (w : Fin cfg0.W) : (dat0 (A5 m) c).arrAt w cfg0.N = A6x m c (Pipeline.arrRef spec0 w) :=
  (B6_arr m c w).symm
theorem hrest0 (c : Dev nD) : ∀ b, b ∉ Finset.univ.image (Pipeline.arrRef spec0) → A6x m c b = A5 m c b :=
  fun b hb => B6_of_ne m c b fun w e => hb (Finset.mem_image.mpr ⟨w, Finset.mem_univ _, e⟩)
/-- Region 0 changes only its output `main_v17`: an input window's array is never written. -/
theorem B6_keep (c : Dev nD) (b : Ref sig .tc) (hb : b ∉ ([main_v17] : List (Ref sig .tc))) :
    B6 m c (Proc.devRef .tc b) = B5 m c (Proc.devRef .tc b) := by
  by_cases h : ∃ w, Pipeline.arrRef spec0 w = b
  · obtain ⟨w, rfl⟩ := h
    rw [B6_arr]
    match w with
    | ⟨0, _⟩ => exact ((dat0 (A5 m) c).arrAt_in 0 rfl _).trans (A_eq0 (A5 m) c 0)
    | ⟨1, _⟩ => exact ((dat0 (A5 m) c).arrAt_in 1 rfl _).trans (A_eq0 (A5 m) c 1)
    | ⟨2, _⟩ => exact ((dat0 (A5 m) c).arrAt_in 2 rfl _).trans (A_eq0 (A5 m) c 2)
    | ⟨3, _⟩ => exact absurd (List.Mem.head _) hb
  · exact B6_of_ne m c b fun w e => h ⟨w, e⟩
/-- After the host stretch `hostOps1`. -/
abbrev B7 (c : Dev nD) : Valuation τ sig (Elt F) := StableHlo.after hostOps1 (B6 m c)
/-- The buffers region 1 is entered from, read at the TensorCore's references. -/
abbrev A7 : (c : Dev nD) → (b : Ref sig .tc) → Buf (Elt F) ((c : Thread nD τ).loc b) := fun c b => B7 m c b
/-- After region 1: its arrays at what the pipeline leaves, every other buffer as entered. -/
def B8 (c : Dev nD) : Valuation τ sig (Elt F) :=
  Pipeline.withArrays spec1 c (B7 m c) fun w => (dat1 (A7 m) c).arrAt w cfg1.N
theorem B8_arr (c : Dev nD) (w : Fin cfg1.W) :
    B8 m c (Proc.devRef .tc (Pipeline.arrRef spec1 w)) = (dat1 (A7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
/-- The same read at the TensorCore's references. -/
abbrev A8x : (c : Dev nD) → (b : Ref sig .tc) → Buf (Elt F) ((c : Thread nD τ).loc b) := fun c b => B8 m c b
theorem hF1 (c : Dev nD) (w : Fin cfg1.W) : (dat1 (A7 m) c).arrAt w cfg1.N = A8x m c (Pipeline.arrRef spec1 w) :=
  (B8_arr m c w).symm
theorem hrest1 (c : Dev nD) : ∀ b, b ∉ Finset.univ.image (Pipeline.arrRef spec1) → A8x m c b = A7 m c b :=
  fun b hb => B8_of_ne m c b fun w e => hb (Finset.mem_image.mpr ⟨w, Finset.mem_univ _, e⟩)
/-- Region 1 changes only its output `main_v29`: an input window's array is never written. -/
theorem B8_keep (c : Dev nD) (b : Ref sig .tc) (hb : b ∉ ([main_v29] : List (Ref sig .tc))) :
    B8 m c (Proc.devRef .tc b) = B7 m c (Proc.devRef .tc b) := by
  by_cases h : ∃ w, Pipeline.arrRef spec1 w = b
  · obtain ⟨w, rfl⟩ := h
    rw [B8_arr]
    match w with
    | ⟨0, _⟩ => exact ((dat1 (A7 m) c).arrAt_in 0 rfl _).trans (A_eq1 (A7 m) c 0)
    | ⟨1, _⟩ => exact ((dat1 (A7 m) c).arrAt_in 1 rfl _).trans (A_eq1 (A7 m) c 1)
    | ⟨2, _⟩ => exact ((dat1 (A7 m) c).arrAt_in 2 rfl _).trans (A_eq1 (A7 m) c 2)
    | ⟨3, _⟩ => exact absurd (List.Mem.head _) hb
  · exact B8_of_ne m c b fun w e => h ⟨w, e⟩
/-- The buffers region 2 is entered from, read at the TensorCore's references. -/
abbrev A8 : (c : Dev nD) → (b : Ref sig .tc) → Buf (Elt F) ((c : Thread nD τ).loc b) := fun c b => B8 m c b
/-- After region 2: its arrays at what the pipeline leaves, every other buffer as entered. -/
def B9 (c : Dev nD) : Valuation τ sig (Elt F) :=
  Pipeline.withArrays spec2 c (B8 m c) fun w => (dat2 (A8 m) c).arrAt w cfg2.N
theorem B9_arr (c : Dev nD) (w : Fin cfg2.W) :
    B9 m c (Proc.devRef .tc (Pipeline.arrRef spec2 w)) = (dat2 (A8 m) c).arrAt w cfg2.N := by
  unfold B9; exact Pipeline.withArrays_arr spec2 launch2.win.arr_inj c _ _ w
theorem B9_of_ne (c : Dev nD) (b : Ref sig .tc) (hb : ∀ w, Pipeline.arrRef spec2 w ≠ b) :
    B9 m c (Proc.devRef .tc b) = B8 m c (Proc.devRef .tc b) := by
  unfold B9; exact Pipeline.withArrays_of_ne spec2 c _ _ b hb
/-- The same read at the TensorCore's references. -/
abbrev A9x : (c : Dev nD) → (b : Ref sig .tc) → Buf (Elt F) ((c : Thread nD τ).loc b) := fun c b => B9 m c b
theorem hF2 (c : Dev nD) (w : Fin cfg2.W) : (dat2 (A8 m) c).arrAt w cfg2.N = A9x m c (Pipeline.arrRef spec2 w) :=
  (B9_arr m c w).symm
theorem hrest2 (c : Dev nD) : ∀ b, b ∉ Finset.univ.image (Pipeline.arrRef spec2) → A9x m c b = A8 m c b :=
  fun b hb => B9_of_ne m c b fun w e => hb (Finset.mem_image.mpr ⟨w, Finset.mem_univ _, e⟩)
/-- Region 2 changes only its output `main_v30`: an input window's array is never written. -/
theorem B9_keep (c : Dev nD) (b : Ref sig .tc) (hb : b ∉ ([main_v30] : List (Ref sig .tc))) :
    B9 m c (Proc.devRef .tc b) = B8 m c (Proc.devRef .tc b) := by
  by_cases h : ∃ w, Pipeline.arrRef spec2 w = b
  · obtain ⟨w, rfl⟩ := h
    rw [B9_arr]
    match w with
    | ⟨0, _⟩ => exact ((dat2 (A8 m) c).arrAt_in 0 rfl _).trans (A_eq2 (A8 m) c 0)
    | ⟨1, _⟩ => exact ((dat2 (A8 m) c).arrAt_in 1 rfl _).trans (A_eq2 (A8 m) c 1)
    | ⟨2, _⟩ => exact ((dat2 (A8 m) c).arrAt_in 2 rfl _).trans (A_eq2 (A8 m) c 2)
    | ⟨3, _⟩ => exact absurd (List.Mem.head _) hb
  · exact B9_of_ne m c b fun w e => h ⟨w, e⟩
/-- After the host stretch `hostOps3`. -/
abbrev B10 (c : Dev nD) : Valuation τ sig (Elt F) := StableHlo.after hostOps3 (B9 m c)
/-- The buffers region 3 is entered from, read at the TensorCore's references. -/
abbrev A10 : (c : Dev nD) → (b : Ref sig .tc) → Buf (Elt F) ((c : Thread nD τ).loc b) := fun c b => B10 m c b
/-- After region 3: its arrays at what the pipeline leaves, every other buffer as entered. -/
def B11 (c : Dev nD) : Valuation τ sig (Elt F) :=
  Pipeline.withArrays spec3 c (B10 m c) fun w => (dat3 (A10 m) c).arrAt w cfg3.N
theorem B11_arr (c : Dev nD) (w : Fin cfg3.W) :
    B11 m c (Proc.devRef .tc (Pipeline.arrRef spec3 w)) = (dat3 (A10 m) c).arrAt w cfg3.N := by
  unfold B11; exact Pipeline.withArrays_arr spec3 launch3.win.arr_inj c _ _ w
theorem B11_of_ne (c : Dev nD) (b : Ref sig .tc) (hb : ∀ w, Pipeline.arrRef spec3 w ≠ b) :
    B11 m c (Proc.devRef .tc b) = B10 m c (Proc.devRef .tc b) := by
  unfold B11; exact Pipeline.withArrays_of_ne spec3 c _ _ b hb
/-- The same read at the TensorCore's references. -/
abbrev A11x : (c : Dev nD) → (b : Ref sig .tc) → Buf (Elt F) ((c : Thread nD τ).loc b) := fun c b => B11 m c b
theorem hF3 (c : Dev nD) (w : Fin cfg3.W) : (dat3 (A10 m) c).arrAt w cfg3.N = A11x m c (Pipeline.arrRef spec3 w) :=
  (B11_arr m c w).symm
theorem hrest3 (c : Dev nD) : ∀ b, b ∉ Finset.univ.image (Pipeline.arrRef spec3) → A11x m c b = A10 m c b :=
  fun b hb => B11_of_ne m c b fun w e => hb (Finset.mem_image.mpr ⟨w, Finset.mem_univ _, e⟩)
/-- Region 3 changes only its output `main_v42`: an input window's array is never written. -/
theorem B11_keep (c : Dev nD) (b : Ref sig .tc) (hb : b ∉ ([main_v42] : List (Ref sig .tc))) :
    B11 m c (Proc.devRef .tc b) = B10 m c (Proc.devRef .tc b) := by
  by_cases h : ∃ w, Pipeline.arrRef spec3 w = b
  · obtain ⟨w, rfl⟩ := h
    rw [B11_arr]
    match w with
    | ⟨0, _⟩ => exact ((dat3 (A10 m) c).arrAt_in 0 rfl _).trans (A_eq3 (A10 m) c 0)
    | ⟨1, _⟩ => exact ((dat3 (A10 m) c).arrAt_in 1 rfl _).trans (A_eq3 (A10 m) c 1)
    | ⟨2, _⟩ => exact ((dat3 (A10 m) c).arrAt_in 2 rfl _).trans (A_eq3 (A10 m) c 2)
    | ⟨3, _⟩ => exact absurd (List.Mem.head _) hb
  · exact B11_of_ne m c b fun w e => h ⟨w, e⟩
/-- After the host stretch `hostOps4`. -/
abbrev B12 (c : Dev nD) : Valuation τ sig (Elt F) := StableHlo.after hostOps4 (B11 m c)
/-- The buffers region 4 is entered from, read at the TensorCore's references. -/
abbrev A12 : (c : Dev nD) → (b : Ref sig .tc) → Buf (Elt F) ((c : Thread nD τ).loc b) := fun c b => B12 m c b
/-- After region 4: its arrays at what the pipeline leaves, every other buffer as entered. -/
def B13 (c : Dev nD) : Valuation τ sig (Elt F) :=
  Pipeline.withArrays spec4 c (B12 m c) fun w => (dat4 (A12 m) c).arrAt w cfg4.N
theorem B13_arr (c : Dev nD) (w : Fin cfg4.W) :
    B13 m c (Proc.devRef .tc (Pipeline.arrRef spec4 w)) = (dat4 (A12 m) c).arrAt w cfg4.N := by
  unfold B13; exact Pipeline.withArrays_arr spec4 launch4.win.arr_inj c _ _ w
theorem B13_of_ne (c : Dev nD) (b : Ref sig .tc) (hb : ∀ w, Pipeline.arrRef spec4 w ≠ b) :
    B13 m c (Proc.devRef .tc b) = B12 m c (Proc.devRef .tc b) := by
  unfold B13; exact Pipeline.withArrays_of_ne spec4 c _ _ b hb
/-- The same read at the TensorCore's references. -/
abbrev A13x : (c : Dev nD) → (b : Ref sig .tc) → Buf (Elt F) ((c : Thread nD τ).loc b) := fun c b => B13 m c b
theorem hF4 (c : Dev nD) (w : Fin cfg4.W) : (dat4 (A12 m) c).arrAt w cfg4.N = A13x m c (Pipeline.arrRef spec4 w) :=
  (B13_arr m c w).symm
theorem hrest4 (c : Dev nD) : ∀ b, b ∉ Finset.univ.image (Pipeline.arrRef spec4) → A13x m c b = A12 m c b :=
  fun b hb => B13_of_ne m c b fun w e => hb (Finset.mem_image.mpr ⟨w, Finset.mem_univ _, e⟩)
/-- Region 4 changes only its outputs `main_v45_0`, `main_v45_1`: an input window's array is never written. -/
theorem B13_keep (c : Dev nD) (b : Ref sig .tc) (hb : b ∉ ([main_v45_0, main_v45_1] : List (Ref sig .tc))) :
    B13 m c (Proc.devRef .tc b) = B12 m c (Proc.devRef .tc b) := by
  by_cases h : ∃ w, Pipeline.arrRef spec4 w = b
  · obtain ⟨w, rfl⟩ := h
    rw [B13_arr]
    match w with
    | ⟨0, _⟩ => exact ((dat4 (A12 m) c).arrAt_in 0 rfl _).trans (A_eq4 (A12 m) c 0)
    | ⟨1, _⟩ => exact ((dat4 (A12 m) c).arrAt_in 1 rfl _).trans (A_eq4 (A12 m) c 1)
    | ⟨2, _⟩ => exact ((dat4 (A12 m) c).arrAt_in 2 rfl _).trans (A_eq4 (A12 m) c 2)
    | ⟨3, _⟩ => exact absurd (List.Mem.head _) hb
    | ⟨4, _⟩ => exact absurd (List.Mem.tail _ (List.Mem.head _)) hb
  · exact B13_of_ne m c b fun w e => h ⟨w, e⟩
/-- After the host stretch `hostOps5`. -/
abbrev B14 (c : Dev nD) : Valuation τ sig (Elt F) := StableHlo.after hostOps5 (B13 m c)
/-- After the host stretch `hostOps5_1`. -/
abbrev B15 (c : Dev nD) : Valuation τ sig (Elt F) := StableHlo.after hostOps5_1 (B14 m c)
/-- After the host stretch `hostOps5_2`. -/
abbrev B16 (c : Dev nD) : Valuation τ sig (Elt F) := StableHlo.after hostOps5_2 (B15 m c)
/-- The buffers region 5 is entered from, read at the TensorCore's references. -/
abbrev A16 : (c : Dev nD) → (b : Ref sig .tc) → Buf (Elt F) ((c : Thread nD τ).loc b) := fun c b => B16 m c b
/-- After region 5: its arrays at what the pipeline leaves, every other buffer as entered. -/
def B17 (c : Dev nD) : Valuation τ sig (Elt F) :=
  Pipeline.withArrays spec5 c (B16 m c) fun w => (dat5 (A16 m) c).arrAt w cfg5.N
theorem B17_arr (c : Dev nD) (w : Fin cfg5.W) :
    B17 m c (Proc.devRef .tc (Pipeline.arrRef spec5 w)) = (dat5 (A16 m) c).arrAt w cfg5.N := by
  unfold B17; exact Pipeline.withArrays_arr spec5 launch5.win.arr_inj c _ _ w
theorem B17_of_ne (c : Dev nD) (b : Ref sig .tc) (hb : ∀ w, Pipeline.arrRef spec5 w ≠ b) :
    B17 m c (Proc.devRef .tc b) = B16 m c (Proc.devRef .tc b) := by
  unfold B17; exact Pipeline.withArrays_of_ne spec5 c _ _ b hb
/-- The same read at the TensorCore's references. -/
abbrev A17x : (c : Dev nD) → (b : Ref sig .tc) → Buf (Elt F) ((c : Thread nD τ).loc b) := fun c b => B17 m c b
theorem hF5 (c : Dev nD) (w : Fin cfg5.W) : (dat5 (A16 m) c).arrAt w cfg5.N = A17x m c (Pipeline.arrRef spec5 w) :=
  (B17_arr m c w).symm
theorem hrest5 (c : Dev nD) : ∀ b, b ∉ Finset.univ.image (Pipeline.arrRef spec5) → A17x m c b = A16 m c b :=
  fun b hb => B17_of_ne m c b fun w e => hb (Finset.mem_image.mpr ⟨w, Finset.mem_univ _, e⟩)
/-- Region 5 changes only its output `main_v60`: an input window's array is never written. -/
theorem B17_keep (c : Dev nD) (b : Ref sig .tc) (hb : b ∉ ([main_v60] : List (Ref sig .tc))) :
    B17 m c (Proc.devRef .tc b) = B16 m c (Proc.devRef .tc b) := by
  by_cases h : ∃ w, Pipeline.arrRef spec5 w = b
  · obtain ⟨w, rfl⟩ := h
    rw [B17_arr]
    match w with
    | ⟨0, _⟩ => exact ((dat5 (A16 m) c).arrAt_in 0 rfl _).trans (A_eq5 (A16 m) c 0)
    | ⟨1, _⟩ => exact ((dat5 (A16 m) c).arrAt_in 1 rfl _).trans (A_eq5 (A16 m) c 1)
    | ⟨2, _⟩ => exact ((dat5 (A16 m) c).arrAt_in 2 rfl _).trans (A_eq5 (A16 m) c 2)
    | ⟨3, _⟩ => exact ((dat5 (A16 m) c).arrAt_in 3 rfl _).trans (A_eq5 (A16 m) c 3)
    | ⟨4, _⟩ => exact ((dat5 (A16 m) c).arrAt_in 4 rfl _).trans (A_eq5 (A16 m) c 4)
    | ⟨5, _⟩ => exact absurd (List.Mem.head _) hb
  · exact B17_of_ne m c b fun w e => h ⟨w, e⟩

/-! ## What each host stretch leaves unchanged -/
theorem B1_keep (c : Dev nD) (b : Ref sig .tc) (h : b ∉ hostOps0_W) : B1 m c (Proc.devRef .tc b) = B0 m c (Proc.devRef .tc b) :=
  StableHlo.after_of_writes_sub hostOps0 _ hostOps0_writes h
theorem B2_keep (c : Dev nD) (b : Ref sig .tc) (h : b ∉ hostOps0_1_W) : B2 m c (Proc.devRef .tc b) = B1 m c (Proc.devRef .tc b) :=
  StableHlo.after_of_writes_sub hostOps0_1 _ hostOps0_1_writes h
theorem B3_keep (c : Dev nD) (b : Ref sig .tc) (h : b ∉ hostOps0_2_W) : B3 m c (Proc.devRef .tc b) = B2 m c (Proc.devRef .tc b) :=
  StableHlo.after_of_writes_sub hostOps0_2 _ hostOps0_2_writes h
theorem B4_keep (c : Dev nD) (b : Ref sig .tc) (h : b ∉ hostOps0_3_W) : B4 m c (Proc.devRef .tc b) = B3 m c (Proc.devRef .tc b) :=
  StableHlo.after_of_writes_sub hostOps0_3 _ hostOps0_3_writes h
theorem B5_keep (c : Dev nD) (b : Ref sig .tc) (h : b ∉ hostOps0_4_W) : B5 m c (Proc.devRef .tc b) = B4 m c (Proc.devRef .tc b) :=
  StableHlo.after_of_writes_sub hostOps0_4 _ hostOps0_4_writes h
theorem B7_keep (c : Dev nD) (b : Ref sig .tc) (h : b ∉ hostOps1_W) : B7 m c (Proc.devRef .tc b) = B6 m c (Proc.devRef .tc b) :=
  StableHlo.after_of_writes_sub hostOps1 _ hostOps1_writes h
theorem B10_keep (c : Dev nD) (b : Ref sig .tc) (h : b ∉ hostOps3_W) : B10 m c (Proc.devRef .tc b) = B9 m c (Proc.devRef .tc b) :=
  StableHlo.after_of_writes_sub hostOps3 _ hostOps3_writes h
theorem B12_keep (c : Dev nD) (b : Ref sig .tc) (h : b ∉ hostOps4_W) : B12 m c (Proc.devRef .tc b) = B11 m c (Proc.devRef .tc b) :=
  StableHlo.after_of_writes_sub hostOps4 _ hostOps4_writes h
theorem B14_keep (c : Dev nD) (b : Ref sig .tc) (h : b ∉ hostOps5_W) : B14 m c (Proc.devRef .tc b) = B13 m c (Proc.devRef .tc b) :=
  StableHlo.after_of_writes_sub hostOps5 _ hostOps5_writes h
theorem B15_keep (c : Dev nD) (b : Ref sig .tc) (h : b ∉ hostOps5_1_W) : B15 m c (Proc.devRef .tc b) = B14 m c (Proc.devRef .tc b) :=
  StableHlo.after_of_writes_sub hostOps5_1 _ hostOps5_1_writes h
theorem B16_keep (c : Dev nD) (b : Ref sig .tc) (h : b ∉ hostOps5_2_W) : B16 m c (Proc.devRef .tc b) = B15 m c (Proc.devRef .tc b) :=
  StableHlo.after_of_writes_sub hostOps5_2 _ hostOps5_2_writes h

/-! ## No item writes an argument -/
theorem B17_main_arg0 (c : Dev nD) : B17 m c (Proc.devRef .tc main_arg0) = m ((c : Thread nD τ).loc main_arg0) :=
  (B17_keep m c main_arg0 (by decide)).trans <| (B16_keep m c main_arg0 (by decide)).trans <| (B15_keep m c main_arg0 (by decide)).trans <| (B14_keep m c main_arg0 (by decide)).trans <| (B13_keep m c main_arg0 (by decide)).trans <| (B12_keep m c main_arg0 (by decide)).trans <| (B11_keep m c main_arg0 (by decide)).trans <| (B10_keep m c main_arg0 (by decide)).trans <| (B9_keep m c main_arg0 (by decide)).trans <| (B8_keep m c main_arg0 (by decide)).trans <| (B7_keep m c main_arg0 (by decide)).trans <| (B6_keep m c main_arg0 (by decide)).trans <| (B5_keep m c main_arg0 (by decide)).trans <| (B4_keep m c main_arg0 (by decide)).trans <| (B3_keep m c main_arg0 (by decide)).trans <| (B2_keep m c main_arg0 (by decide)).trans <| (B1_keep m c main_arg0 (by decide)).trans rfl
theorem B17_main_arg1 (c : Dev nD) : B17 m c (Proc.devRef .tc main_arg1) = m ((c : Thread nD τ).loc main_arg1) :=
  (B17_keep m c main_arg1 (by decide)).trans <| (B16_keep m c main_arg1 (by decide)).trans <| (B15_keep m c main_arg1 (by decide)).trans <| (B14_keep m c main_arg1 (by decide)).trans <| (B13_keep m c main_arg1 (by decide)).trans <| (B12_keep m c main_arg1 (by decide)).trans <| (B11_keep m c main_arg1 (by decide)).trans <| (B10_keep m c main_arg1 (by decide)).trans <| (B9_keep m c main_arg1 (by decide)).trans <| (B8_keep m c main_arg1 (by decide)).trans <| (B7_keep m c main_arg1 (by decide)).trans <| (B6_keep m c main_arg1 (by decide)).trans <| (B5_keep m c main_arg1 (by decide)).trans <| (B4_keep m c main_arg1 (by decide)).trans <| (B3_keep m c main_arg1 (by decide)).trans <| (B2_keep m c main_arg1 (by decide)).trans <| (B1_keep m c main_arg1 (by decide)).trans rfl
theorem B17_main_arg2 (c : Dev nD) : B17 m c (Proc.devRef .tc main_arg2) = m ((c : Thread nD τ).loc main_arg2) :=
  (B17_keep m c main_arg2 (by decide)).trans <| (B16_keep m c main_arg2 (by decide)).trans <| (B15_keep m c main_arg2 (by decide)).trans <| (B14_keep m c main_arg2 (by decide)).trans <| (B13_keep m c main_arg2 (by decide)).trans <| (B12_keep m c main_arg2 (by decide)).trans <| (B11_keep m c main_arg2 (by decide)).trans <| (B10_keep m c main_arg2 (by decide)).trans <| (B9_keep m c main_arg2 (by decide)).trans <| (B8_keep m c main_arg2 (by decide)).trans <| (B7_keep m c main_arg2 (by decide)).trans <| (B6_keep m c main_arg2 (by decide)).trans <| (B5_keep m c main_arg2 (by decide)).trans <| (B4_keep m c main_arg2 (by decide)).trans <| (B3_keep m c main_arg2 (by decide)).trans <| (B2_keep m c main_arg2 (by decide)).trans <| (B1_keep m c main_arg2 (by decide)).trans rfl
theorem B17_main_arg3 (c : Dev nD) : B17 m c (Proc.devRef .tc main_arg3) = m ((c : Thread nD τ).loc main_arg3) :=
  (B17_keep m c main_arg3 (by decide)).trans <| (B16_keep m c main_arg3 (by decide)).trans <| (B15_keep m c main_arg3 (by decide)).trans <| (B14_keep m c main_arg3 (by decide)).trans <| (B13_keep m c main_arg3 (by decide)).trans <| (B12_keep m c main_arg3 (by decide)).trans <| (B11_keep m c main_arg3 (by decide)).trans <| (B10_keep m c main_arg3 (by decide)).trans <| (B9_keep m c main_arg3 (by decide)).trans <| (B8_keep m c main_arg3 (by decide)).trans <| (B7_keep m c main_arg3 (by decide)).trans <| (B6_keep m c main_arg3 (by decide)).trans <| (B5_keep m c main_arg3 (by decide)).trans <| (B4_keep m c main_arg3 (by decide)).trans <| (B3_keep m c main_arg3 (by decide)).trans <| (B2_keep m c main_arg3 (by decide)).trans <| (B1_keep m c main_arg3 (by decide)).trans rfl
theorem B17_main_arg4 (c : Dev nD) : B17 m c (Proc.devRef .tc main_arg4) = m ((c : Thread nD τ).loc main_arg4) :=
  (B17_keep m c main_arg4 (by decide)).trans <| (B16_keep m c main_arg4 (by decide)).trans <| (B15_keep m c main_arg4 (by decide)).trans <| (B14_keep m c main_arg4 (by decide)).trans <| (B13_keep m c main_arg4 (by decide)).trans <| (B12_keep m c main_arg4 (by decide)).trans <| (B11_keep m c main_arg4 (by decide)).trans <| (B10_keep m c main_arg4 (by decide)).trans <| (B9_keep m c main_arg4 (by decide)).trans <| (B8_keep m c main_arg4 (by decide)).trans <| (B7_keep m c main_arg4 (by decide)).trans <| (B6_keep m c main_arg4 (by decide)).trans <| (B5_keep m c main_arg4 (by decide)).trans <| (B4_keep m c main_arg4 (by decide)).trans <| (B3_keep m c main_arg4 (by decide)).trans <| (B2_keep m c main_arg4 (by decide)).trans <| (B1_keep m c main_arg4 (by decide)).trans rfl
theorem B17_main_arg5 (c : Dev nD) : B17 m c (Proc.devRef .tc main_arg5) = m ((c : Thread nD τ).loc main_arg5) :=
  (B17_keep m c main_arg5 (by decide)).trans <| (B16_keep m c main_arg5 (by decide)).trans <| (B15_keep m c main_arg5 (by decide)).trans <| (B14_keep m c main_arg5 (by decide)).trans <| (B13_keep m c main_arg5 (by decide)).trans <| (B12_keep m c main_arg5 (by decide)).trans <| (B11_keep m c main_arg5 (by decide)).trans <| (B10_keep m c main_arg5 (by decide)).trans <| (B9_keep m c main_arg5 (by decide)).trans <| (B8_keep m c main_arg5 (by decide)).trans <| (B7_keep m c main_arg5 (by decide)).trans <| (B6_keep m c main_arg5 (by decide)).trans <| (B5_keep m c main_arg5 (by decide)).trans <| (B4_keep m c main_arg5 (by decide)).trans <| (B3_keep m c main_arg5 (by decide)).trans <| (B2_keep m c main_arg5 (by decide)).trans <| (B1_keep m c main_arg5 (by decide)).trans rfl
theorem B17_main_arg6 (c : Dev nD) : B17 m c (Proc.devRef .tc main_arg6) = m ((c : Thread nD τ).loc main_arg6) :=
  (B17_keep m c main_arg6 (by decide)).trans <| (B16_keep m c main_arg6 (by decide)).trans <| (B15_keep m c main_arg6 (by decide)).trans <| (B14_keep m c main_arg6 (by decide)).trans <| (B13_keep m c main_arg6 (by decide)).trans <| (B12_keep m c main_arg6 (by decide)).trans <| (B11_keep m c main_arg6 (by decide)).trans <| (B10_keep m c main_arg6 (by decide)).trans <| (B9_keep m c main_arg6 (by decide)).trans <| (B8_keep m c main_arg6 (by decide)).trans <| (B7_keep m c main_arg6 (by decide)).trans <| (B6_keep m c main_arg6 (by decide)).trans <| (B5_keep m c main_arg6 (by decide)).trans <| (B4_keep m c main_arg6 (by decide)).trans <| (B3_keep m c main_arg6 (by decide)).trans <| (B2_keep m c main_arg6 (by decide)).trans <| (B1_keep m c main_arg6 (by decide)).trans rfl
theorem B17_main_arg7 (c : Dev nD) : B17 m c (Proc.devRef .tc main_arg7) = m ((c : Thread nD τ).loc main_arg7) :=
  (B17_keep m c main_arg7 (by decide)).trans <| (B16_keep m c main_arg7 (by decide)).trans <| (B15_keep m c main_arg7 (by decide)).trans <| (B14_keep m c main_arg7 (by decide)).trans <| (B13_keep m c main_arg7 (by decide)).trans <| (B12_keep m c main_arg7 (by decide)).trans <| (B11_keep m c main_arg7 (by decide)).trans <| (B10_keep m c main_arg7 (by decide)).trans <| (B9_keep m c main_arg7 (by decide)).trans <| (B8_keep m c main_arg7 (by decide)).trans <| (B7_keep m c main_arg7 (by decide)).trans <| (B6_keep m c main_arg7 (by decide)).trans <| (B5_keep m c main_arg7 (by decide)).trans <| (B4_keep m c main_arg7 (by decide)).trans <| (B3_keep m c main_arg7 (by decide)).trans <| (B2_keep m c main_arg7 (by decide)).trans <| (B1_keep m c main_arg7 (by decide)).trans rfl
theorem B17_main_arg8 (c : Dev nD) : B17 m c (Proc.devRef .tc main_arg8) = m ((c : Thread nD τ).loc main_arg8) :=
  (B17_keep m c main_arg8 (by decide)).trans <| (B16_keep m c main_arg8 (by decide)).trans <| (B15_keep m c main_arg8 (by decide)).trans <| (B14_keep m c main_arg8 (by decide)).trans <| (B13_keep m c main_arg8 (by decide)).trans <| (B12_keep m c main_arg8 (by decide)).trans <| (B11_keep m c main_arg8 (by decide)).trans <| (B10_keep m c main_arg8 (by decide)).trans <| (B9_keep m c main_arg8 (by decide)).trans <| (B8_keep m c main_arg8 (by decide)).trans <| (B7_keep m c main_arg8 (by decide)).trans <| (B6_keep m c main_arg8 (by decide)).trans <| (B5_keep m c main_arg8 (by decide)).trans <| (B4_keep m c main_arg8 (by decide)).trans <| (B3_keep m c main_arg8 (by decide)).trans <| (B2_keep m c main_arg8 (by decide)).trans <| (B1_keep m c main_arg8 (by decide)).trans rfl
theorem B17_main_arg9 (c : Dev nD) : B17 m c (Proc.devRef .tc main_arg9) = m ((c : Thread nD τ).loc main_arg9) :=
  (B17_keep m c main_arg9 (by decide)).trans <| (B16_keep m c main_arg9 (by decide)).trans <| (B15_keep m c main_arg9 (by decide)).trans <| (B14_keep m c main_arg9 (by decide)).trans <| (B13_keep m c main_arg9 (by decide)).trans <| (B12_keep m c main_arg9 (by decide)).trans <| (B11_keep m c main_arg9 (by decide)).trans <| (B10_keep m c main_arg9 (by decide)).trans <| (B9_keep m c main_arg9 (by decide)).trans <| (B8_keep m c main_arg9 (by decide)).trans <| (B7_keep m c main_arg9 (by decide)).trans <| (B6_keep m c main_arg9 (by decide)).trans <| (B5_keep m c main_arg9 (by decide)).trans <| (B4_keep m c main_arg9 (by decide)).trans <| (B3_keep m c main_arg9 (by decide)).trans <| (B2_keep m c main_arg9 (by decide)).trans <| (B1_keep m c main_arg9 (by decide)).trans rfl
theorem B17_main_arg10 (c : Dev nD) : B17 m c (Proc.devRef .tc main_arg10) = m ((c : Thread nD τ).loc main_arg10) :=
  (B17_keep m c main_arg10 (by decide)).trans <| (B16_keep m c main_arg10 (by decide)).trans <| (B15_keep m c main_arg10 (by decide)).trans <| (B14_keep m c main_arg10 (by decide)).trans <| (B13_keep m c main_arg10 (by decide)).trans <| (B12_keep m c main_arg10 (by decide)).trans <| (B11_keep m c main_arg10 (by decide)).trans <| (B10_keep m c main_arg10 (by decide)).trans <| (B9_keep m c main_arg10 (by decide)).trans <| (B8_keep m c main_arg10 (by decide)).trans <| (B7_keep m c main_arg10 (by decide)).trans <| (B6_keep m c main_arg10 (by decide)).trans <| (B5_keep m c main_arg10 (by decide)).trans <| (B4_keep m c main_arg10 (by decide)).trans <| (B3_keep m c main_arg10 (by decide)).trans <| (B2_keep m c main_arg10 (by decide)).trans <| (B1_keep m c main_arg10 (by decide)).trans rfl

/-! ## The results -/

/-- The classifier's output is what region 5 leaves in its output array. -/
theorem B17_main_v60 (c : Dev nD) : B17 m c (Proc.devRef .tc main_v60) = (dat5 (A16 m) c).arrAt 5 cfg5.N := B17_arr m c 5
/-- The attention gate is what region 4 leaves in its first output array: nothing later writes it. -/
theorem B17_main_v45_0 (c : Dev nD) : B17 m c (Proc.devRef .tc main_v45_0) = (dat4 (A12 m) c).arrAt 3 cfg4.N :=
  (B17_keep m c main_v45_0 (by decide)).trans <| (B16_keep m c main_v45_0 (by decide)).trans <| (B15_keep m c main_v45_0 (by decide)).trans <| (B14_keep m c main_v45_0 (by decide)).trans (B13_arr m c 3)

/-! ## The proof data family -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (A5 m) c
  | ⟨1, _⟩ => fun c => dat1 (A7 m) c
  | ⟨2, _⟩ => fun c => dat2 (A8 m) c
  | ⟨3, _⟩ => fun c => dat3 (A10 m) c
  | ⟨4, _⟩ => fun c => dat4 (A12 m) c
  | ⟨5, _⟩ => fun c => dat5 (A16 m) c

end Cert.Kernel.Hand

end
-- ==== Proof.K.Segs.lean ====
/-
  The program as a list of segments — a host segment per stretch of host operations, a region per kernel call — over
  the thread state "every unscoped buffer at the boundary's contents, the generator register at some state, nothing
  owed", and its run: every weakly fair execution terminates, nothing faulting, and every unscoped buffer ends at the
  last boundary's contents. The frame and the two results are read off that.
-/
import proofs.«404283_j8701603742240_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev Rest (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- The last thread state without the dues: every unscoped buffer at the last boundary's contents, the generator
    register at some state. -/
abbrev Tend (c : Dev nD) : sProp 𝕄 := iprop(StableHlo.held (c : Thread nD τ) (Pipeline.ucRefs τ sig) (B17 m c) ∗ ∃ r, prngReg c r)

/-! ## The regions as segments -/

set_option backward.isDefEq.respectTransparency.types false in
/-- Region 0 over the thread state: entered from every unscoped buffer at `B5`, left at `B6`. Its arrays are split
    out of the unscoped buffers and put back at the exit contents; the generator register go into the body's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (A5 m) c).loose
  hwaits := Pipeline.hwaits_of_owed_zero _ _ _ _ L lv 0 fun _ _ => rfl
  pre c := iprop(StableHlo.held (c : Thread nD τ) (Pipeline.ucRefs τ sig) (B5 m c) ∗ Rest c)
  post c := iprop(StableHlo.held (c : Thread nD τ) (Pipeline.ucRefs τ sig) (B6 m c) ∗ Rest c)
  X c := iprop(∃ r, prngReg c r)
  Y c := iprop(∃ r, prngReg c r)
  Z c := Pipeline.unscopedRest (Ix := Unit) (Name := ℕ) (U := UR sig nD τ) (Lvl := ℕ) spec0 c (A5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (A5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (A5 m c) (A6x m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B7`, left at `B8`. Its arrays are split
    out of the unscoped buffers and put back at the exit contents; the generator register go into the body's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (A7 m) c).loose
  hwaits := Pipeline.hwaits_of_owed_zero _ _ _ _ L lv 1 fun _ _ => rfl
  pre c := iprop(StableHlo.held (c : Thread nD τ) (Pipeline.ucRefs τ sig) (B7 m c) ∗ Rest c)
  post c := iprop(StableHlo.held (c : Thread nD τ) (Pipeline.ucRefs τ sig) (B8 m c) ∗ Rest c)
  X c := iprop(∃ r, prngReg c r)
  Y c := iprop(∃ r, prngReg c r)
  Z c := Pipeline.unscopedRest (Ix := Unit) (Name := ℕ) (U := UR sig nD τ) (Lvl := ℕ) spec1 c (A7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (A7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (A7 m c) (A8x m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B8`, left at `B9`. Its arrays are split
    out of the unscoped buffers and put back at the exit contents; the generator register go into the body's invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (A8 m) c).loose
  hwaits := Pipeline.hwaits_of_owed_zero _ _ _ _ L lv 2 fun _ _ => rfl
  pre c := iprop(StableHlo.held (c : Thread nD τ) (Pipeline.ucRefs τ sig) (B8 m c) ∗ Rest c)
  post c := iprop(StableHlo.held (c : Thread nD τ) (Pipeline.ucRefs τ sig) (B9 m c) ∗ Rest c)
  X c := iprop(∃ r, prngReg c r)
  Y c := iprop(∃ r, prngReg c r)
  Z c := Pipeline.unscopedRest (Ix := Unit) (Name := ℕ) (U := UR sig nD τ) (Lvl := ℕ) spec2 c (A8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (A8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (A8 m c) (A9x m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B10`, left at `B11`. Its arrays are split
    out of the unscoped buffers and put back at the exit contents; the generator register go into the body's invariant and come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (A10 m) c).loose
  hwaits := Pipeline.hwaits_of_owed_zero _ _ _ _ L lv 3 fun _ _ => rfl
  pre c := iprop(StableHlo.held (c : Thread nD τ) (Pipeline.ucRefs τ sig) (B10 m c) ∗ Rest c)
  post c := iprop(StableHlo.held (c : Thread nD τ) (Pipeline.ucRefs τ sig) (B11 m c) ∗ Rest c)
  X c := iprop(∃ r, prngReg c r)
  Y c := iprop(∃ r, prngReg c r)
  Z c := Pipeline.unscopedRest (Ix := Unit) (Name := ℕ) (U := UR sig nD τ) (Lvl := ℕ) spec3 c (A10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (A10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (A10 m c) (A11x m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `B12`, left at `B13`. Its arrays are split
    out of the unscoped buffers and put back at the exit contents; the generator register go into the body's invariant and come back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (A12 m) c).loose
  hwaits := Pipeline.hwaits_of_owed_zero _ _ _ _ L lv 4 fun _ _ => rfl
  pre c := iprop(StableHlo.held (c : Thread nD τ) (Pipeline.ucRefs τ sig) (B12 m c) ∗ Rest c)
  post c := iprop(StableHlo.held (c : Thread nD τ) (Pipeline.ucRefs τ sig) (B13 m c) ∗ Rest c)
  X c := iprop(∃ r, prngReg c r)
  Y c := iprop(∃ r, prngReg c r)
  Z c := Pipeline.unscopedRest (Ix := Unit) (Name := ℕ) (U := UR sig nD τ) (Lvl := ℕ) spec4 c (A12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (A12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (A12 m c) (A13x m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `B16`, left at `B17`. Its arrays are split
    out of the unscoped buffers and put back at the exit contents; the generator register and the scoped buffers, the
    accumulator among them, go into the body's invariant and come back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (A16 m) c).loose
  hwaits := Pipeline.hwaits_of_owed_zero _ _ _ _ L lv 5 fun _ _ => rfl
  pre c := iprop(StableHlo.held (c : Thread nD τ) (Pipeline.ucRefs τ sig) (B16 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (A16 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (A16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (A16 m) c).Φ 0 from rfl]
    iintro ⟨Hp, -, Hr⟩
    iapply (Phi5_in (A16 m) c)
    isplitl [Hp]; · iexact Hp
    iexact Hr
  hout c := by
    rw [Pipeline.ownSems0_none, show (pdats m 5 c).Φ (Fin.last _) = (dat5 (A16 m) c).Φ (Fin.last cfg5.N) from rfl]
    iintro HPhi
    ihave H := (Phi5_out (A16 m) c) $$ HPhi
    icases H with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (A16 m c) (A17x m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

/-- The program's 17 segments in order. -/
abbrev segsH : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .region (reg0 m),
    .host (hseg hostOps1 hostOps1_sub hostOps1_fresh (B6 m)),
    .region (reg1 m),
    .region (reg2 m),
    .host (hseg hostOps3 hostOps3_sub hostOps3_fresh (B9 m)),
    .region (reg3 m),
    .host (hseg hostOps4 hostOps4_sub hostOps4_fresh (B11 m)),
    .region (reg4 m),
    .host (hseg hostOps5 hostOps5_sub hostOps5_fresh (B13 m)),
    .host (hseg hostOps5_1 hostOps5_1_sub hostOps5_1_fresh (B14 m)),
    .host (hseg hostOps5_2 hostOps5_2_sub hostOps5_2_fresh (B15 m)),
    .region (reg5 m) ]

/-- The program IS the run of the segments. -/
theorem main_runH (c : Dev nD) : main (F := F) c = Pipeline.Seg.run (segsH m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program on the TensorCores
    terminates, nothing faulting, and in the final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B17 m c b) :=
  Pipeline.θ_run_regions_kit (pcfgs (F := F)) adm (pdats m) () cellOf_inj emb₁ defs₀ 𝒱₀ L lv m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tend m)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B17 m c b)
    (hfin := fun c s' => by
      iintro ⟨⟨Hh, -⟩, HSI⟩
      unfold StableHlo.held
      imodintro
      iapply (pointsTo_read_all (Pipeline.ucRefs τ sig) (fun b => (((c : Thread nD τ)).1, b)) (B17 m c) s')
      isplitl [Hh] <;> iassumption)
    (hQ := fun s h c => h c)

/-- THE FRAME: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (B17_main_arg0 m c),
     (h c _ (mem_uc main_arg1 (by decide))).trans (B17_main_arg1 m c),
     (h c _ (mem_uc main_arg2 (by decide))).trans (B17_main_arg2 m c),
     (h c _ (mem_uc main_arg3 (by decide))).trans (B17_main_arg3 m c),
     (h c _ (mem_uc main_arg4 (by decide))).trans (B17_main_arg4 m c),
     (h c _ (mem_uc main_arg5 (by decide))).trans (B17_main_arg5 m c),
     (h c _ (mem_uc main_arg6 (by decide))).trans (B17_main_arg6 m c),
     (h c _ (mem_uc main_arg7 (by decide))).trans (B17_main_arg7 m c),
     (h c _ (mem_uc main_arg8 (by decide))).trans (B17_main_arg8 m c),
     (h c _ (mem_uc main_arg9 (by decide))).trans (B17_main_arg9 m c),
     (h c _ (mem_uc main_arg10 (by decide))).trans (B17_main_arg10 m c)⟩) (run_all m ρ)

end Cert.Kernel.Hand

end
-- ==== Proof.KI.R0.lean ====
/-
  Region 0 of the program (custom call 0: the first layer's projection of a block of node rows, each row scaled by its out-degree factor). Every window's block is a row block of its array (or the whole of a small
  operand); the body loads each input block whole, computes, and stores each output block whole. Stated at a
  parameter `V`: the contents of the TensorCore's buffers when the region is entered.
-/
import proofs.«404283_j8701603742240_1_alg».proof.Proof.Gen.KernelIdeal.Launch
import proofs.«404283_j8701603742240_1_alg».proof.Proof.Gen.KernelIdeal.Skeleton
import proofs.«404283_j8701603742240_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one rectangle of output window 3's store: the whole block. -/
abbrev r0_3 : Rect S2000x64 := Rect.unit (s := S2000x64) ![0, 0] S2000x64.size inb_S2000x64_S2000x64_0_0

/-- What the body leaves in output window 3's staging buffer, from the input blocks: its one store. -/
def out0_3 (x0 : Vec F S2000x128 .f32) (x1 : Vec F S128x64 .f32) (x2 : Vec F S2000x1 .f32) : Vec F S2000x64 .f32 :=
  View.canon [⟨r0_3, k0_pay1 (View.ld x0 (Rect.unit (s := S2000x128) ![0, 0] S2000x128.size inb_S2000x128_S2000x128_0_0)) (View.ld x1 (Rect.unit (s := S128x64) ![0, 0] S128x64.size inb_S128x64_S128x64_0_0)) (View.ld x2 (Rect.unit (s := S2000x1) ![0, 0] S2000x1.size inb_S2000x1_S2000x1_0_0))⟩]

/-- The store covers the buffer. -/
theorem cover0_3 (p0 : Vec F S2000x64 .f32) (y : S2000x64.Idx) :
    ∃ pc ∈ ([⟨r0_3, p0⟩] : List (View.Piece (Elt F) S2000x64 .f32)), y ∈ pc.1.set :=
  View.cover_of_tiled [⟨r0_3, p0⟩] S2000x64.size (by rfl) y

set_option maxHeartbeats 4000000 in
/-- The body on whole staging memrefs, the inputs' at contents `x·` and the outputs' at anything, runs to the
    continuation with the inputs' as they were and each output's at `out0_·` of the inputs'. -/
theorem sound_kernel0 (c : Dev nD) (E : Set ℕ) (i : grid0.Coords) (arg1 : Memref sig .tc .vmem S2000x128 .f32) (harg1 : arg1.IsWhole) (arg2 : Memref sig .tc .vmem S128x64 .f32) (harg2 : arg2.IsWhole) (arg3 : Memref sig .tc .vmem S2000x1 .f32) (harg3 : arg3.IsWhole) (arg4 : Memref sig .tc .vmem S2000x64 .f32) (harg4 : arg4.IsWhole)
    (x0 : Vec F S2000x128 .f32) (x1 : Vec F S128x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_scale_kernel i arg1 harg1 arg2 harg2 arg3 harg3 arg4 harg4) K := by
  simp only [cc0__proj_scale_kernel_eq_skeleton]; unfold cc0__proj_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body at point `t`
    each input's buffer at its block and each output's at `out0_·` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of the program (custom call 1: scale the aggregated rows by the in-degree factor, add the bias row, clamp below at zero). Every window's block is a row block of its array (or the whole of a small
  operand); the body loads each input block whole, computes, and stores each output block whole. Stated at a
  parameter `V`: the contents of the TensorCore's buffers when the region is entered.
-/
import proofs.«404283_j8701603742240_1_alg».proof.Proof.Gen.KernelIdeal.Launch
import proofs.«404283_j8701603742240_1_alg».proof.Proof.Gen.KernelIdeal.Skeleton
import proofs.«404283_j8701603742240_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one rectangle of output window 3's store: the whole block. -/
abbrev r1_3 : Rect S2000x64 := Rect.unit (s := S2000x64) ![0, 0] S2000x64.size inb_S2000x64_S2000x64_0_0

/-- What the body leaves in output window 3's staging buffer, from the input blocks: its one store. -/
def out1_3 (x0 : Vec F S2000x64 .f32) (x1 : Vec F S2000x1 .f32) (x2 : Vec F S1x64 .f32) : Vec F S2000x64 .f32 :=
  View.canon [⟨r1_3, k1_pay1 (View.ld x0 (Rect.unit (s := S2000x64) ![0, 0] S2000x64.size inb_S2000x64_S2000x64_0_0)) (View.ld x1 (Rect.unit (s := S2000x1) ![0, 0] S2000x1.size inb_S2000x1_S2000x1_0_0)) (View.ld x2 (Rect.unit (s := S1x64) ![0, 0] S1x64.size inb_S1x64_S1x64_0_0))⟩]

/-- The store covers the buffer. -/
theorem cover1_3 (p0 : Vec F S2000x64 .f32) (y : S2000x64.Idx) :
    ∃ pc ∈ ([⟨r1_3, p0⟩] : List (View.Piece (Elt F) S2000x64 .f32)), y ∈ pc.1.set :=
  View.cover_of_tiled [⟨r1_3, p0⟩] S2000x64.size (by rfl) y

set_option maxHeartbeats 4000000 in
/-- The body on whole staging memrefs, the inputs' at contents `x·` and the outputs' at anything, runs to the
    continuation with the inputs' as they were and each output's at `out1_·` of the inputs'. -/
theorem sound_kernel1 (c : Dev nD) (E : Set ℕ) (i : grid1.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x64 .f32) (harg4 : arg4.IsWhole)
    (x0 : Vec F S2000x64 .f32) (x1 : Vec F S2000x1 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_kernel i arg1 harg1 arg2 harg2 arg3 harg3 arg4 harg4) K := by
  simp only [cc1__bias_relu_kernel_eq_skeleton]; unfold cc1__bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t`
    each input's buffer at its block and each output's at `out1_·` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 of the program (custom call 2: the second layer's projection of a block of node rows, each row scaled by its out-degree factor). Every window's block is a row block of its array (or the whole of a small
  operand); the body loads each input block whole, computes, and stores each output block whole. Stated at a
  parameter `V`: the contents of the TensorCore's buffers when the region is entered.
-/
import proofs.«404283_j8701603742240_1_alg».proof.Proof.Gen.KernelIdeal.Launch
import proofs.«404283_j8701603742240_1_alg».proof.Proof.Gen.KernelIdeal.Skeleton
import proofs.«404283_j8701603742240_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The one rectangle of output window 3's store: the whole block. -/
abbrev r2_3 : Rect S2000x64 := Rect.unit (s := S2000x64) ![0, 0] S2000x64.size inb_S2000x64_S2000x64_0_0

/-- What the body leaves in output window 3's staging buffer, from the input blocks: its one store. -/
def out2_3 (x0 : Vec F S2000x64 .f32) (x1 : Vec F S64x64 .f32) (x2 : Vec F S2000x1 .f32) : Vec F S2000x64 .f32 :=
  View.canon [⟨r2_3, k2_pay1 (View.ld x0 (Rect.unit (s := S2000x64) ![0, 0] S2000x64.size inb_S2000x64_S2000x64_0_0)) (View.ld x1 (Rect.unit (s := S64x64) ![0, 0] S64x64.size inb_S64x64_S64x64_0_0)) (View.ld x2 (Rect.unit (s := S2000x1) ![0, 0] S2000x1.size inb_S2000x1_S2000x1_0_0))⟩]

/-- The store covers the buffer. -/
theorem cover2_3 (p0 : Vec F S2000x64 .f32) (y : S2000x64.Idx) :
    ∃ pc ∈ ([⟨r2_3, p0⟩] : List (View.Piece (Elt F) S2000x64 .f32)), y ∈ pc.1.set :=
  View.cover_of_tiled [⟨r2_3, p0⟩] S2000x64.size (by rfl) y

set_option maxHeartbeats 4000000 in
/-- The body on whole staging memrefs, the inputs' at contents `x·` and the outputs' at anything, runs to the
    continuation with the inputs' as they were and each output's at `out2_·` of the inputs'. -/
theorem sound_kernel2 (c : Dev nD) (E : Set ℕ) (i : grid2.Coords) (arg1 : Memref sig .tc .vmem S2000x64 .f32) (harg1 : arg1.IsWhole) (arg2 : Memref sig .tc .vmem S64x64 .f32) (harg2 : arg2.IsWhole) (arg3 : Memref sig .tc .vmem S2000x1 .f32) (harg3 : arg3.IsWhole) (arg4 : Memref sig .tc .vmem S2000x64 .f32) (harg4 : arg4.IsWhole)
    (x0 : Vec F S2000x64 .f32) (x1 : Vec F S64x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__proj_scale_kernel i arg1 harg1 arg2 harg2 arg3 harg3 arg4 harg4) K := by
  simp only [cc2__proj_scale_kernel_eq_skeleton]; unfold cc2__proj_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t`
    each input's buffer at its block and each output's at `out2_·` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Region 3 of the program (custom call 3: scale the aggregated rows by the in-degree factor, add the bias row, clamp below at zero). Every window's block is a row block of its array (or the whole of a small
  operand); the body loads each input block whole, computes, and stores each output block whole. Stated at a
  parameter `V`: the contents of the TensorCore's buffers when the region is entered.
-/
import proofs.«404283_j8701603742240_1_alg».proof.Proof.Gen.KernelIdeal.Launch
import proofs.«404283_j8701603742240_1_alg».proof.Proof.Gen.KernelIdeal.Skeleton
import proofs.«404283_j8701603742240_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: where it is not
    fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: where it is not
    fetched the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: where it is not
    fetched the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The one rectangle of output window 3's store: the whole block. -/
abbrev r3_3 : Rect S2000x64 := Rect.unit (s := S2000x64) ![0, 0] S2000x64.size inb_S2000x64_S2000x64_0_0

/-- What the body leaves in output window 3's staging buffer, from the input blocks: its one store. -/
def out3_3 (x0 : Vec F S2000x64 .f32) (x1 : Vec F S2000x1 .f32) (x2 : Vec F S1x64 .f32) : Vec F S2000x64 .f32 :=
  View.canon [⟨r3_3, k3_pay1 (View.ld x0 (Rect.unit (s := S2000x64) ![0, 0] S2000x64.size inb_S2000x64_S2000x64_0_0)) (View.ld x1 (Rect.unit (s := S2000x1) ![0, 0] S2000x1.size inb_S2000x1_S2000x1_0_0)) (View.ld x2 (Rect.unit (s := S1x64) ![0, 0] S1x64.size inb_S1x64_S1x64_0_0))⟩]

/-- The store covers the buffer. -/
theorem cover3_3 (p0 : Vec F S2000x64 .f32) (y : S2000x64.Idx) :
    ∃ pc ∈ ([⟨r3_3, p0⟩] : List (View.Piece (Elt F) S2000x64 .f32)), y ∈ pc.1.set :=
  View.cover_of_tiled [⟨r3_3, p0⟩] S2000x64.size (by rfl) y

set_option maxHeartbeats 4000000 in
/-- The body on whole staging memrefs, the inputs' at contents `x·` and the outputs' at anything, runs to the
    continuation with the inputs' as they were and each output's at `out3_·` of the inputs'. -/
theorem sound_kernel3 (c : Dev nD) (E : Set ℕ) (i : grid3.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x64 .f32) (harg4 : arg4.IsWhole)
    (x0 : Vec F S2000x64 .f32) (x1 : Vec F S2000x1 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__bias_relu_kernel i arg1 harg1 arg2 harg2 arg3 harg3 arg4 harg4) K := by
  simp only [cc3__bias_relu_kernel_eq_skeleton]; unfold cc3__bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this pipeline on core `c`: the arrays as the region finds them; after the body at point `t`
    each input's buffer at its block and each output's at `out3_·` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/-
  Region 4 of the program (custom call 4: the attention gate of a block of node rows and the rows scaled by it). Every window's block is a row block of its array (or the whole of a small
  operand); the body loads each input block whole, computes, and stores each output block whole. Stated at a
  parameter `V`: the contents of the TensorCore's buffers when the region is entered.
-/
import proofs.«404283_j8701603742240_1_alg».proof.Proof.Gen.KernelIdeal.Launch
import proofs.«404283_j8701603742240_1_alg».proof.Proof.Gen.KernelIdeal.Skeleton
import proofs.«404283_j8701603742240_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it is not
    fetched the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: where it is not
    fetched the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: where it is not
    fetched the block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The one rectangle of output window 3's store: the whole block. -/
abbrev r4_3 : Rect S2000x1 := Rect.unit (s := S2000x1) ![0, 0] S2000x1.size inb_S2000x1_S2000x1_0_0

/-- What the body leaves in output window 3's staging buffer, from the input blocks: its one store. -/
def out4_3 (x0 : Vec F S2000x64 .f32) (x1 : Vec F S1x64 .f32) (x2 : Vec F S1x1 .f32) : Vec F S2000x1 .f32 :=
  View.canon [⟨r4_3, k4_pay2 (View.ld x0 (Rect.unit (s := S2000x64) ![0, 0] S2000x64.size inb_S2000x64_S2000x64_0_0)) (View.ld x1 (Rect.unit (s := S1x64) ![0, 0] S1x64.size inb_S1x64_S1x64_0_0)) (View.ld x2 (Rect.unit (s := S1x1) ![0, 0] S1x1.size inb_S1x1_S1x1_0_0))⟩]

/-- The store covers the buffer. -/
theorem cover4_3 (p0 : Vec F S2000x1 .f32) (y : S2000x1.Idx) :
    ∃ pc ∈ ([⟨r4_3, p0⟩] : List (View.Piece (Elt F) S2000x1 .f32)), y ∈ pc.1.set :=
  View.cover_of_tiled [⟨r4_3, p0⟩] S2000x1.size (by rfl) y

/-- The one rectangle of output window 4's store: the whole block. -/
abbrev r4_4 : Rect S2000x64 := Rect.unit (s := S2000x64) ![0, 0] S2000x64.size inb_S2000x64_S2000x64_0_0

/-- What the body leaves in output window 4's staging buffer, from the input blocks: its one store. -/
def out4_4 (x0 : Vec F S2000x64 .f32) (x1 : Vec F S1x64 .f32) (x2 : Vec F S1x1 .f32) : Vec F S2000x64 .f32 :=
  View.canon [⟨r4_4, k4_pay3 (View.ld x0 (Rect.unit (s := S2000x64) ![0, 0] S2000x64.size inb_S2000x64_S2000x64_0_0)) (View.ld x1 (Rect.unit (s := S1x64) ![0, 0] S1x64.size inb_S1x64_S1x64_0_0)) (View.ld x2 (Rect.unit (s := S1x1) ![0, 0] S1x1.size inb_S1x1_S1x1_0_0))⟩]

/-- The store covers the buffer. -/
theorem cover4_4 (p0 : Vec F S2000x64 .f32) (y : S2000x64.Idx) :
    ∃ pc ∈ ([⟨r4_4, p0⟩] : List (View.Piece (Elt F) S2000x64 .f32)), y ∈ pc.1.set :=
  View.cover_of_tiled [⟨r4_4, p0⟩] S2000x64.size (by rfl) y

set_option maxHeartbeats 4000000 in
/-- The body on whole staging memrefs, the inputs' at contents `x·` and the outputs' at anything, runs to the
    continuation with the inputs' as they were and each output's at `out4_·` of the inputs'. -/
theorem sound_kernel4 (c : Dev nD) (E : Set ℕ) (i : grid4.Coords) (arg1 : Memref sig .tc .vmem S2000x64 .f32) (harg1 : arg1.IsWhole) (arg2 : Memref sig .tc .vmem S1x64 .f32) (harg2 : arg2.IsWhole) (arg3 : Memref sig .tc .vmem S1x1 .f32) (harg3 : arg3.IsWhole) (arg4 : Memref sig .tc .vmem S2000x1 .f32) (harg4 : arg4.IsWhole) (arg5 : Memref sig .tc .vmem S2000x64 .f32) (harg5 : arg5.IsWhole)
    (x0 : Vec F S2000x64 .f32) (x1 : Vec F S1x64 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2) ∗ owns (c : Thread nD τ) arg5 fullShare (out4_4 x0 x1 x2)) -∗ K ⟨⟩))
      ⊢ wp frame (wpE (defs₀ (F := F)) Variants.none c none) E (cc4__attn_kernel i arg1 harg1 arg2 harg2 arg3 harg3 arg4 harg4 arg5 harg5) K := by
  simp only [cc4__attn_kernel_eq_skeleton]; unfold cc4__attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-- The proof data of this pipeline on core `c`: the arrays as the region finds them; after the body at point `t`
    each input's buffer at its block and each output's at `out4_·` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/-
  Region 5 of the program (custom call 5: pool the node rows by graph and classify). A 64x64 accumulator in scratch
  memory is carried across the 50 grid points: the first point zeroes it, every point adds the product of the
  transposed one-hot block with the row block, and the last point divides by the graph sizes, applies the
  classifier and stores the one output block. Stated at a parameter `V`: the contents of the TensorCore's buffers
  when the region is entered.
-/
import proofs.«404283_j8701603742240_1_alg».proof.Proof.Gen.KernelIdeal.Launch
import proofs.«404283_j8701603742240_1_alg».proof.Proof.Gen.KernelIdeal.Skeleton
import proofs.«404283_j8701603742240_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The last grid point. -/
abbrev t49 : Fin cfg5.N := ⟨49, by decide⟩

/-- The accumulator after point `t`: the first point adds its product to zeros, every later point adds its product
    to what the point before left (beyond the grid nothing is added). -/
def sAt5 (c : Dev nD) : ℕ → Vec F S64x64 .f32
  | 0 => k5_pay2 (iblk5 V c 0 ⟨0, by decide⟩) (iblk5 V c 1 ⟨0, by decide⟩) k5_pay1
  | n + 1 => if h : n + 1 < cfg5.N then k5_pay2 (iblk5 V c 0 ⟨n + 1, h⟩) (iblk5 V c 1 ⟨n + 1, h⟩) (sAt5 c n) else sAt5 c n

theorem sAt5_zero (c : Dev nD) :
    sAt5 V c 0 = k5_pay2 (iblk5 V c 0 ⟨0, by decide⟩) (iblk5 V c 1 ⟨0, by decide⟩) k5_pay1 := rfl

theorem sAt5_succ (c : Dev nD) (t : ℕ) (h : t + 1 < cfg5.N) :
    sAt5 V c (t + 1) = k5_pay2 (iblk5 V c 0 ⟨t + 1, h⟩) (iblk5 V c 1 ⟨t + 1, h⟩) (sAt5 V c t) := by
  rw [sAt5, dif_pos h]

/-- The output block: the classifier on the accumulator after the last point and the last point's small operands. -/
def out5 (c : Dev nD) : Vec F S64x10 .f32 :=
  k5_pay3 (sAt5 V c 49) (iblk5 V c 2 t49) (iblk5 V c 3 t49) (iblk5 V c 4 t49)

theorem out5_eq (c : Dev nD) :
    out5 V c = k5_pay3 (sAt5 V c 49) (iblk5 V c 2 t49) (iblk5 V c 3 t49) (iblk5 V c 4 t49) := rfl

/-- The accumulator: the call's own scratch buffer, whole. -/
abbrev scM5 : Memref sig .tc .vmem S64x64 .f32 := Memref.whole cc5_scratch0

/-- The region invariant before position `n`: the accumulator at anything before the first point, afterwards at
    what the point before left; the other scoped buffers unopened; the generator register at some state. -/
def PhiS5 (c : Dev nD) : ℕ → sProp 𝕄
  | 0 => iprop((∃ d, owns (c : Thread nD τ) scM5 fullShare d) ∗ Pipeline.scopedRestBut spec5 c [cc5_scratch0] ∗ ∃ r, prngReg c r)
  | n + 1 => iprop(owns (c : Thread nD τ) scM5 fullShare (sAt5 V c n) ∗ Pipeline.scopedRestBut spec5 c [cc5_scratch0] ∗ ∃ r, prngReg c r)

/-- The proof data of this pipeline on core `c`: the arrays as the region finds them; after the body at point `t`
    each input's buffer at its block and the output's at `out5` (read at the last point only: elsewhere the window
    is idle); the invariant carries the accumulator; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 V c
  Φ j := PhiS5 V c j.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5 V c := by dsimp only [dat5]

/-! ## The two conditions of the body, over the grid -/

/-- The first `scf.if`'s condition (zero the accumulator), from the grid coordinate. -/
abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val = 0 :=
  (by decide +kernel : ∀ t : Fin grid5.N, cond5_0 (grid5.coords t) ↔ t.val = 0)

/-- The second `scf.if`'s condition (classify and store the output). -/
abbrev cond5_1 (i : grid5.Coords) : Prop := k5_cond2 i = 1#1
/-- It holds at the last point only. -/
theorem hcond5_1 : ∀ t : Fin cfg5.N, cond5_1 (grid5.coords t) ↔ t.val = 49 :=
  (by decide +kernel : ∀ t : Fin grid5.N, cond5_1 (grid5.coords t) ↔ t.val = 49)

/-- The offsets of every whole-buffer access of the body are zero. -/
theorem hz5 : (![0, 0] : Fin 2 → Nat) = fun _ => 0 := funext fun a => by fin_cases a <;> rfl

/-- A store of the whole accumulator, last, covers it. -/
theorem cover5_s (p : Vec F S64x64 .f32) (L : List (View.Piece (Elt F) S64x64 .f32)) (y : S64x64.Idx) :
    ∃ pc ∈ ((⟨Rect.unit (s := S64x64) ![0, 0] S64x64.size inb_S64x64_S64x64_0_0, p⟩ : View.Piece (Elt F) S64x64 .f32) :: L), y ∈ pc.1.set :=
  ⟨_, List.mem_cons_self, View.mem_set_unit_zero hz5 inb_S64x64_S64x64_0_0 y⟩

/-- The store of the whole output block covers it. -/
theorem cover5_o (p : Vec F S64x10 .f32) (L : List (View.Piece (Elt F) S64x10 .f32)) (y : S64x10.Idx) :
    ∃ pc ∈ ((⟨Rect.unit (s := S64x10) ![0, 0] S64x10.size inb_S64x10_S64x10_0_0, p⟩ : View.Piece (Elt F) S64x10 .f32) :: L), y ∈ pc.1.set :=
  ⟨_, List.mem_cons_self, View.mem_set_unit_zero hz5 inb_S64x10_S64x10_0_0 y⟩

set_option maxHeartbeats 4000000 in
/-- The body at the first point: the accumulator, found at anything, is zeroed, read back and left at the first
    product added to zeros; the two row blocks are read and handed back. -/
theorem sound_kernel5_first (c : Dev nD) (E : Set ℕ) (i : grid5.Coords)
    (arg1 : Memref sig .tc .vmem S2000x64 .bf16) (harg1 : arg1.IsWhole) (arg2 : Memref sig .tc .vmem S2000x64 .f32) (harg2 : arg2.IsWhole)
    (arg3 : Memref sig .tc .vmem S64x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole)
    (hc0 : cond5_0 i) (hc1 : ¬cond5_1 i)
    (x0 : Vec F S2000x64 .bf16) (x1 : Vec F S2000x64 .f32) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1
            ∗ owns (c : Thread nD τ) arg7 fullShare (k5_pay2 x0 x1 k5_pay1)) -∗ K ⟨⟩))
      ⊢ wp frame (wpE (defs₀ (F := F)) Variants.none c none) E (cc5__pool_classify_kernel i arg1 harg1 arg2 harg2 arg3 harg3 arg4 harg4 arg5 harg5 arg6 harg6 arg7 harg7) K := by
  simp only [cc5__pool_classify_kernel_eq_skeleton]; unfold cc5__pool_classify_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover5_s _ _)]
  rw [View.canon_cons_unit_zero (S := S64x64) hz5, View.readCov_unit_zero (S := S64x64) _ hz5]
  simp only [View.readAt_eq_ld, View.ld_unit_zero (S := S2000x64) hz5]

set_option maxHeartbeats 4000000 in
/-- The body at a point that is neither the first nor the last: the accumulator, found at `xs`, is left at `xs` plus
    the point's product. -/
theorem sound_kernel5_mid (c : Dev nD) (E : Set ℕ) (i : grid5.Coords)
    (arg1 : Memref sig .tc .vmem S2000x64 .bf16) (harg1 : arg1.IsWhole) (arg2 : Memref sig .tc .vmem S2000x64 .f32) (harg2 : arg2.IsWhole)
    (arg3 : Memref sig .tc .vmem S64x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole)
    (hc0 : ¬cond5_0 i) (hc1 : ¬cond5_1 i)
    (x0 : Vec F S2000x64 .bf16) (x1 : Vec F S2000x64 .f32) (xs : Vec F S64x64 .f32) (K : PUnit → sProp 𝕄) :
    iprop(owns (c : Thread nD τ) arg1 fullShare x0 ∗ owns (c : Thread nD τ) arg2 fullShare x1 ∗ owns (c : Thread nD τ) arg7 fullShare xs
        ∗ (iprop(owns (c : Thread nD τ) arg1 fullShare x0 ∗ owns (c : Thread nD τ) arg2 fullShare x1
            ∗ owns (c : Thread nD τ) arg7 fullShare (k5_pay2 x0 x1 xs)) -∗ K ⟨⟩))
      ⊢ wp frame (wpE (defs₀ (F := F)) Variants.none c none) E (cc5__pool_classify_kernel i arg1 harg1 arg2 harg2 arg3 harg3 arg4 harg4 arg5 harg5 arg6 harg6 arg7 harg7) K := by
  simp only [cc5__pool_classify_kernel_eq_skeleton]; unfold cc5__pool_classify_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover5_s _ _)]
  rw [View.canon_cons_unit_zero (S := S64x64) hz5]
  simp only [View.readAt_eq_ld, View.ld_unit_zero (S := S2000x64) hz5, View.ld_unit_zero (S := S64x64) hz5]

set_option maxHeartbeats 4000000 in
/-- The body at the last point: the accumulator, found at `xs`, is left at `xs` plus the point's product, and the
    output block, found at anything, at the classifier of that sum and the three small operands. -/
theorem sound_kernel5_last (c : Dev nD) (E : Set ℕ) (i : grid5.Coords)
    (arg1 : Memref sig .tc .vmem S2000x64 .bf16) (harg1 : arg1.IsWhole) (arg2 : Memref sig .tc .vmem S2000x64 .f32) (harg2 : arg2.IsWhole)
    (arg3 : Memref sig .tc .vmem S64x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole)
    (hc0 : ¬cond5_0 i) (hc1 : cond5_1 i)
    (x0 : Vec F S2000x64 .bf16) (x1 : Vec F S2000x64 .f32) (x2 : Vec F S64x1 .f32) (x3 : Vec F S64x10 .f32) (x4 : Vec F S1x10 .f32)
    (xs : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k5_pay3 (k5_pay2 x0 x1 xs) x2 x3 x4)
            ∗ owns (c : Thread nD τ) arg7 fullShare (k5_pay2 x0 x1 xs)) -∗ K ⟨⟩))
      ⊢ wp frame (wpE (defs₀ (F := F)) Variants.none c none) E (cc5__pool_classify_kernel i arg1 harg1 arg2 harg2 arg3 harg3 arg4 harg4 arg5 harg5 arg6 harg6 arg7 harg7) K := by
  simp only [cc5__pool_classify_kernel_eq_skeleton]; unfold cc5__pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (cover5_o _ _)]
    rw [View.canon_cons_unit_zero (S := S64x10) hz5, View.readCov_unit_zero (S := S64x64) _ hz5]
    simp only [View.readAt_eq_ld, View.ld_unit_zero (S := S2000x64) hz5, View.ld_unit_zero (S := S64x64) hz5,
      View.ld_unit_zero (S := S64x1) hz5, View.ld_unit_zero (S := S64x10) hz5, View.ld_unit_zero (S := S1x10) hz5]
  iexists _; isplitr
  swap; · iexact HS
  ipureintro
  sl_unfold_words
  rw [View.read_writes_eq_canon _ _ _ (cover5_s _ _)]
  rw [View.canon_cons_unit_zero (S := S64x64) hz5]
  simp only [View.readAt_eq_ld, View.ld_unit_zero (S := S2000x64) hz5, View.ld_unit_zero (S := S64x64) hz5]

/-! ## The input windows' buffers -/

/-- Input window 0's current staging buffer holds its block at every point, fetched there or not: where it is not
    fetched the block index has not moved. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

/-- Input window 1's current staging buffer holds its block at every point, fetched there or not: where it is not
    fetched the block index has not moved. -/
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

/-- Input window 2's current staging buffer holds its block at every point, fetched there or not: where it is not
    fetched the block index has not moved. -/
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

/-- Input window 3's current staging buffer holds its block at every point, fetched there or not: where it is not
    fetched the block index has not moved. -/
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- Input window 4's current staging buffer holds its block at every point, fetched there or not: where it is not
    fetched the block index has not moved. -/
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

/-! ## What the body leaves in each window's buffer

An input window is never idle: its buffer is handed back at its block. The output window is idle, and not written
back, at every point but the last: there the body hands its buffer back as found. At the last point it is live. -/

theorem leaves5_0 (c : Dev nD) (t : Fin cfg5.N) :
    (dat5 V c).leavesExact 0 t = owns (c : Thread nD τ) (st5_0 t) fullShare (iblk5 V c 0 t) := by
  unfold Dat.leavesExact; rw [show cfg5.idle 0 (grid5.coords t) = false from rfl, after5_0]

theorem leaves5_1 (c : Dev nD) (t : Fin cfg5.N) :
    (dat5 V c).leavesExact 1 t = owns (c : Thread nD τ) (st5_1 t) fullShare (iblk5 V c 1 t) := by
  unfold Dat.leavesExact; rw [show cfg5.idle 1 (grid5.coords t) = false from rfl, after5_1]

theorem leaves5_2 (c : Dev nD) (t : Fin cfg5.N) :
    (dat5 V c).leavesExact 2 t = owns (c : Thread nD τ) (st5_2 t) fullShare (iblk5 V c 2 t) := by
  unfold Dat.leavesExact; rw [show cfg5.idle 2 (grid5.coords t) = false from rfl, after5_2]

theorem leaves5_3 (c : Dev nD) (t : Fin cfg5.N) :
    (dat5 V c).leavesExact 3 t = owns (c : Thread nD τ) (st5_3 t) fullShare (iblk5 V c 3 t) := by
  unfold Dat.leavesExact; rw [show cfg5.idle 3 (grid5.coords t) = false from rfl, after5_3]

theorem leaves5_4 (c : Dev nD) (t : Fin cfg5.N) :
    (dat5 V c).leavesExact 4 t = owns (c : Thread nD τ) (st5_4 t) fullShare (iblk5 V c 4 t) := by
  unfold Dat.leavesExact; rw [show cfg5.idle 4 (grid5.coords t) = false from rfl, after5_4]

/-- Off the last point the output window is idle, -/
theorem idleAt5_5 : ∀ t : Fin cfg5.N, ¬cond5_1 (grid5.coords t) → cfg5.idle 5 (grid5.coords t) = true := by decide +kernel
/-- and its block is not written back; -/
theorem noFlush5_5 : ∀ t : Fin cfg5.N, ¬cond5_1 (grid5.coords t) → (cfg5.win 5).flush t = false := by decide +kernel
/-- at the last point it is live. -/
theorem liveAt5_5 : ∀ t : Fin cfg5.N, cond5_1 (grid5.coords t) → cfg5.idle 5 (grid5.coords t) = false := by decide +kernel

theorem leaves5_5_idle (c : Dev nD) (t : Fin cfg5.N) (h : ¬cond5_1 (grid5.coords t)) :
    (dat5 V c).leavesExact 5 t = iprop(∃ d, owns (c : Thread nD τ) (st5_5 t) fullShare ((dat5 V c).before 5 t d)) :=
  Dat.leavesExact_idle (dat5 V c) 5 t (idleAt5_5 t h) (noFlush5_5 t h)

theorem leaves5_5_live (c : Dev nD) (t : Fin cfg5.N) (h : cond5_1 (grid5.coords t)) :
    (dat5 V c).leavesExact 5 t = owns (c : Thread nD τ) (st5_5 t) fullShare (out5 V c) := by
  unfold Dat.leavesExact; rw [liveAt5_5 t h, after5_5]

/-! ## The accumulator along the grid -/

theorem sAt5_first (c : Dev nD) (t : Fin cfg5.N) (h : t.val = 0) :
    sAt5 V c t.val = k5_pay2 (iblk5 V c 0 t) (iblk5 V c 1 t) k5_pay1 := by
  obtain ⟨n, hn⟩ := t
  cases n with
  | zero => rfl
  | succ n => exact absurd h (Nat.succ_ne_zero n)

theorem sAt5_next (c : Dev nD) (t : Fin cfg5.N) (h : t.val ≠ 0) :
    sAt5 V c t.val = k5_pay2 (iblk5 V c 0 t) (iblk5 V c 1 t) (sAt5 V c (t.val - 1)) := by
  obtain ⟨n, hn⟩ := t
  cases n with
  | zero => exact absurd rfl h
  | succ n => exact sAt5_succ V c n hn

/-- The output block from the accumulator the point before the last left. -/
theorem out5_last (c : Dev nD) (t : Fin cfg5.N) (h : t.val = 49) :
    out5 V c = k5_pay3 (k5_pay2 (iblk5 V c 0 t) (iblk5 V c 1 t) (sAt5 V c (t.val - 1))) (iblk5 V c 2 t) (iblk5 V c 3 t) (iblk5 V c 4 t) := by
  obtain rfl : t = t49 := Fin.ext h
  unfold out5; rw [← sAt5_next V c t49 (by decide)]

theorem PhiS5_zero (c : Dev nD) (n : ℕ) (h : n = 0) :
    PhiS5 V c n = iprop((∃ d, owns (c : Thread nD τ) scM5 fullShare d) ∗ Pipeline.scopedRestBut spec5 c [cc5_scratch0] ∗ ∃ r, prngReg c r) := by
  subst h; rfl

theorem PhiS5_succ (c : Dev nD) (n : ℕ) :
    PhiS5 V c (n + 1) = iprop(owns (c : Thread nD τ) scM5 fullShare (sAt5 V c n) ∗ Pipeline.scopedRestBut spec5 c [cc5_scratch0] ∗ ∃ r, prngReg c r) := rfl

theorem PhiS5_pos (c : Dev nD) (n : ℕ) (h : n ≠ 0) :
    PhiS5 V c n = iprop(owns (c : Thread nD τ) scM5 fullShare (sAt5 V c (n - 1)) ∗ Pipeline.scopedRestBut spec5 c [cc5_scratch0] ∗ ∃ r, prngReg c r) := by
  cases n with
  | zero => exact absurd rfl h
  | succ n => rfl

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4000000 in
/-- The body at any point, by the three control cases. The invariant hands the body the accumulator (at anything at
    the first point, else at what the point before left) and takes it back at this point's sum; the other scoped
    buffers, the generator register and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl,
    show (dat5 V c).Φ t.succ = PhiS5 V c (t.val + 1) from rfl, PhiS5_succ,
    show (dat5 V c).Φ t.castSucc = PhiS5 V c t.val from rfl,
    leaves5_0, leaves5_1, leaves5_2, leaves5_3, leaves5_4]
  by_cases hlast : t.val = 49
  · -- the last point: add, then classify and store the output block
    have hz : t.val ≠ 0 := by omega
    have hc0 : ¬cond5_0 (grid5.coords t) := fun h => hz ((hcond5_0 t).mp h)
    have hc1 : cond5_1 (grid5.coords t) := (hcond5_1 t).mpr hlast
    rw [leaves5_5_live V c t hc1, PhiS5_pos V c _ hz, sAt5_next V c t hz, out5_last V c t hlast]
    iintro ⟨⟨HS, Hrest, Hg⟩, Ho, ⟨%d0, H0⟩, ⟨%d1, H1⟩, ⟨%d2, H2⟩, ⟨%d3, H3⟩, ⟨%d4, H4⟩, ⟨%d5, H5⟩⟩
    iapply (sound_kernel5_last c Set.univ _ _ _ _ _ _ _ _ _ _ _ _ _ _ _ hc0 hc1
      (iblk5 V c 0 t) (iblk5 V c 1 t) (iblk5 V c 2 t) (iblk5 V c 3 t) (iblk5 V c 4 t) (sAt5 V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond5_1 (grid5.coords t) := fun h => hlast ((hcond5_1 t).mp h)
    rw [leaves5_5_idle V c t hc1]
    by_cases hz : t.val = 0
    · -- the first point: zero, then add
      have hc0 : cond5_0 (grid5.coords t) := (hcond5_0 t).mpr hz
      rw [PhiS5_zero V c _ hz, sAt5_first V c t hz]
      iintro ⟨⟨⟨%ds, HS⟩, Hrest, Hg⟩, Ho, ⟨%d0, H0⟩, ⟨%d1, H1⟩, ⟨%d2, H2⟩, ⟨%d3, H3⟩, ⟨%d4, H4⟩, ⟨%d5, H5⟩⟩
      iapply (sound_kernel5_first c Set.univ _ _ _ _ _ _ _ _ _ _ _ _ _ _ _ hc0 hc1 (iblk5 V c 0 t) (iblk5 V c 1 t) _)
      isplitl [H0]; · iexact H0
      isplitl [H1]; · iexact H1
      isplitl [HS]; · iexists _; iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · -- a point between: add
      have hc0 : ¬cond5_0 (grid5.coords t) := fun h => hz ((hcond5_0 t).mp h)
      rw [PhiS5_pos V c _ hz, sAt5_next V c t hz]
      iintro ⟨⟨HS, Hrest, Hg⟩, Ho, ⟨%d0, H0⟩, ⟨%d1, H1⟩, ⟨%d2, H2⟩, ⟨%d3, H3⟩, ⟨%d4, H4⟩, ⟨%d5, H5⟩⟩
      iapply (sound_kernel5_mid c Set.univ _ _ _ _ _ _ _ _ _ _ _ _ _ _ _ hc0 hc1 (iblk5 V c 0 t) (iblk5 V c 1 t) (sAt5 V c (t.val - 1)) _)
      isplitl [H0]; · iexact H0
      isplitl [H1]; · iexact H1
      isplitl [HS]; · iexact HS
      iintro ⟨H0, H1, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point: the scoped rest opened at the
    accumulator. -/
theorem Phi5_in (c : Dev nD) : iprop((∃ r, prngReg c r) ∗ (Pipeline.scopedRest spec5 c : sProp 𝕄)) ⊢ (dat5 V c).Φ 0 := by
  rw [show (dat5 V c).Φ 0 = PhiS5 V c 0 from rfl, PhiS5_zero V c 0 rfl, scopedRest5_split]
  simp only [scM5, owns_whole]
  iintro ⟨Hg, HS, Hrest⟩
  isplitl [HS]; · iexact HS
  isplitl [Hrest]; · iexact Hrest
  iexact Hg

/-- After the last point the invariant gives the scoped rest back: the accumulator's contents are forgotten. -/
theorem Phi5_out (c : Dev nD) : (dat5 V c).Φ (Fin.last cfg5.N) ⊢ (iprop((∃ r, prngReg c r) ∗ Pipeline.scopedRest spec5 c) : sProp 𝕄) := by
  rw [show (dat5 V c).Φ (Fin.last cfg5.N) = PhiS5 V c (49 + 1) from rfl, PhiS5_succ, scopedRest5_split]
  simp only [scM5, owns_whole]
  iintro ⟨HS, Hrest, Hg⟩
  isplitl [Hg]; · iexact Hg
  isplitl [HS]; · iexists _; iexact HS
  iexact Hrest

end Cert.KernelIdeal.Hand

end
-- ==== Proof.KI.Fold.lean ====
/-
  The contents of the TensorCore's buffers at every boundary between two items of the program — a stretch of host
  operations, or one of the six kernel regions —, as a fold from the launch memory: a host stretch applies its
  operations; a region leaves its output arrays at what its write-backs leave and every other buffer as it was.
  Then: no item writes an argument, so each argument is read back through the fold to its launch contents; and the
  two results are what regions 4 and 5 leave.
-/
import proofs.«404283_j8701603742240_1_alg».proof.Proof.KI.R0
import proofs.«404283_j8701603742240_1_alg».proof.Proof.KI.R1
import proofs.«404283_j8701603742240_1_alg».proof.Proof.KI.R2
import proofs.«404283_j8701603742240_1_alg».proof.Proof.KI.R3
import proofs.«404283_j8701603742240_1_alg».proof.Proof.KI.R4
import proofs.«404283_j8701603742240_1_alg».proof.Proof.KI.R5
import proofs.«404283_j8701603742240_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The fold -/

/-- Core `c`'s buffers at launch. -/
abbrev B0 (c : Dev nD) : Valuation τ sig (Elt F) := fun b => m (c, b)
/-- After the host stretch `hostOps0`. -/
abbrev B1 (c : Dev nD) : Valuation τ sig (Elt F) := StableHlo.after hostOps0 (B0 m c)
/-- After the host stretch `hostOps0_1`. -/
abbrev B2 (c : Dev nD) : Valuation τ sig (Elt F) := StableHlo.after hostOps0_1 (B1 m c)
/-- After the host stretch `hostOps0_2`. -/
abbrev B3 (c : Dev nD) : Valuation τ sig (Elt F) := StableHlo.after hostOps0_2 (B2 m c)
/-- After the host stretch `hostOps0_3`. -/
abbrev B4 (c : Dev nD) : Valuation τ sig (Elt F) := StableHlo.after hostOps0_3 (B3 m c)
/-- After the host stretch `hostOps0_4`. -/
abbrev B5 (c : Dev nD) : Valuation τ sig (Elt F) := StableHlo.after hostOps0_4 (B4 m c)
/-- The buffers region 0 is entered from, read at the TensorCore's references. -/
abbrev A5 : (c : Dev nD) → (b : Ref sig .tc) → Buf (Elt F) ((c : Thread nD τ).loc b) := fun c b => B5 m c b
/-- After region 0: its arrays at what the pipeline leaves, every other buffer as entered. -/
def B6 (c : Dev nD) : Valuation τ sig (Elt F) :=
  Pipeline.withArrays spec0 c (B5 m c) fun w => (dat0 (A5 m) c).arrAt w cfg0.N
theorem B6_arr (c : Dev nD) (w : Fin cfg0.W) :
    B6 m c (Proc.devRef .tc (Pipeline.arrRef spec0 w)) = (dat0 (A5 m) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
/-- The same read at the TensorCore's references. -/
abbrev A6x : (c : Dev nD) → (b : Ref sig .tc) → Buf (Elt F) ((c : Thread nD τ).loc b) := fun c b => B6 m c b
theorem hF0 (c : Dev nD) (w : Fin cfg0.W) : (dat0 (A5 m) c).arrAt w cfg0.N = A6x m c (Pipeline.arrRef spec0 w) :=
  (B6_arr m c w).symm
theorem hrest0 (c : Dev nD) : ∀ b, b ∉ Finset.univ.image (Pipeline.arrRef spec0) → A6x m c b = A5 m c b :=
  fun b hb => B6_of_ne m c b fun w e => hb (Finset.mem_image.mpr ⟨w, Finset.mem_univ _, e⟩)
/-- Region 0 changes only its output `main_v17`: an input window's array is never written. -/
theorem B6_keep (c : Dev nD) (b : Ref sig .tc) (hb : b ∉ ([main_v17] : List (Ref sig .tc))) :
    B6 m c (Proc.devRef .tc b) = B5 m c (Proc.devRef .tc b) := by
  by_cases h : ∃ w, Pipeline.arrRef spec0 w = b
  · obtain ⟨w, rfl⟩ := h
    rw [B6_arr]
    match w with
    | ⟨0, _⟩ => exact ((dat0 (A5 m) c).arrAt_in 0 rfl _).trans (A_eq0 (A5 m) c 0)
    | ⟨1, _⟩ => exact ((dat0 (A5 m) c).arrAt_in 1 rfl _).trans (A_eq0 (A5 m) c 1)
    | ⟨2, _⟩ => exact ((dat0 (A5 m) c).arrAt_in 2 rfl _).trans (A_eq0 (A5 m) c 2)
    | ⟨3, _⟩ => exact absurd (List.Mem.head _) hb
  · exact B6_of_ne m c b fun w e => h ⟨w, e⟩
/-- After the host stretch `hostOps1`. -/
abbrev B7 (c : Dev nD) : Valuation τ sig (Elt F) := StableHlo.after hostOps1 (B6 m c)
/-- The buffers region 1 is entered from, read at the TensorCore's references. -/
abbrev A7 : (c : Dev nD) → (b : Ref sig .tc) → Buf (Elt F) ((c : Thread nD τ).loc b) := fun c b => B7 m c b
/-- After region 1: its arrays at what the pipeline leaves, every other buffer as entered. -/
def B8 (c : Dev nD) : Valuation τ sig (Elt F) :=
  Pipeline.withArrays spec1 c (B7 m c) fun w => (dat1 (A7 m) c).arrAt w cfg1.N
theorem B8_arr (c : Dev nD) (w : Fin cfg1.W) :
    B8 m c (Proc.devRef .tc (Pipeline.arrRef spec1 w)) = (dat1 (A7 m) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
/-- The same read at the TensorCore's references. -/
abbrev A8x : (c : Dev nD) → (b : Ref sig .tc) → Buf (Elt F) ((c : Thread nD τ).loc b) := fun c b => B8 m c b
theorem hF1 (c : Dev nD) (w : Fin cfg1.W) : (dat1 (A7 m) c).arrAt w cfg1.N = A8x m c (Pipeline.arrRef spec1 w) :=
  (B8_arr m c w).symm
theorem hrest1 (c : Dev nD) : ∀ b, b ∉ Finset.univ.image (Pipeline.arrRef spec1) → A8x m c b = A7 m c b :=
  fun b hb => B8_of_ne m c b fun w e => hb (Finset.mem_image.mpr ⟨w, Finset.mem_univ _, e⟩)
/-- Region 1 changes only its output `main_v29`: an input window's array is never written. -/
theorem B8_keep (c : Dev nD) (b : Ref sig .tc) (hb : b ∉ ([main_v29] : List (Ref sig .tc))) :
    B8 m c (Proc.devRef .tc b) = B7 m c (Proc.devRef .tc b) := by
  by_cases h : ∃ w, Pipeline.arrRef spec1 w = b
  · obtain ⟨w, rfl⟩ := h
    rw [B8_arr]
    match w with
    | ⟨0, _⟩ => exact ((dat1 (A7 m) c).arrAt_in 0 rfl _).trans (A_eq1 (A7 m) c 0)
    | ⟨1, _⟩ => exact ((dat1 (A7 m) c).arrAt_in 1 rfl _).trans (A_eq1 (A7 m) c 1)
    | ⟨2, _⟩ => exact ((dat1 (A7 m) c).arrAt_in 2 rfl _).trans (A_eq1 (A7 m) c 2)
    | ⟨3, _⟩ => exact absurd (List.Mem.head _) hb
  · exact B8_of_ne m c b fun w e => h ⟨w, e⟩
/-- The buffers region 2 is entered from, read at the TensorCore's references. -/
abbrev A8 : (c : Dev nD) → (b : Ref sig .tc) → Buf (Elt F) ((c : Thread nD τ).loc b) := fun c b => B8 m c b
/-- After region 2: its arrays at what the pipeline leaves, every other buffer as entered. -/
def B9 (c : Dev nD) : Valuation τ sig (Elt F) :=
  Pipeline.withArrays spec2 c (B8 m c) fun w => (dat2 (A8 m) c).arrAt w cfg2.N
theorem B9_arr (c : Dev nD) (w : Fin cfg2.W) :
    B9 m c (Proc.devRef .tc (Pipeline.arrRef spec2 w)) = (dat2 (A8 m) c).arrAt w cfg2.N := by
  unfold B9; exact Pipeline.withArrays_arr spec2 launch2.win.arr_inj c _ _ w
theorem B9_of_ne (c : Dev nD) (b : Ref sig .tc) (hb : ∀ w, Pipeline.arrRef spec2 w ≠ b) :
    B9 m c (Proc.devRef .tc b) = B8 m c (Proc.devRef .tc b) := by
  unfold B9; exact Pipeline.withArrays_of_ne spec2 c _ _ b hb
/-- The same read at the TensorCore's references. -/
abbrev A9x : (c : Dev nD) → (b : Ref sig .tc) → Buf (Elt F) ((c : Thread nD τ).loc b) := fun c b => B9 m c b
theorem hF2 (c : Dev nD) (w : Fin cfg2.W) : (dat2 (A8 m) c).arrAt w cfg2.N = A9x m c (Pipeline.arrRef spec2 w) :=
  (B9_arr m c w).symm
theorem hrest2 (c : Dev nD) : ∀ b, b ∉ Finset.univ.image (Pipeline.arrRef spec2) → A9x m c b = A8 m c b :=
  fun b hb => B9_of_ne m c b fun w e => hb (Finset.mem_image.mpr ⟨w, Finset.mem_univ _, e⟩)
/-- Region 2 changes only its output `main_v30`: an input window's array is never written. -/
theorem B9_keep (c : Dev nD) (b : Ref sig .tc) (hb : b ∉ ([main_v30] : List (Ref sig .tc))) :
    B9 m c (Proc.devRef .tc b) = B8 m c (Proc.devRef .tc b) := by
  by_cases h : ∃ w, Pipeline.arrRef spec2 w = b
  · obtain ⟨w, rfl⟩ := h
    rw [B9_arr]
    match w with
    | ⟨0, _⟩ => exact ((dat2 (A8 m) c).arrAt_in 0 rfl _).trans (A_eq2 (A8 m) c 0)
    | ⟨1, _⟩ => exact ((dat2 (A8 m) c).arrAt_in 1 rfl _).trans (A_eq2 (A8 m) c 1)
    | ⟨2, _⟩ => exact ((dat2 (A8 m) c).arrAt_in 2 rfl _).trans (A_eq2 (A8 m) c 2)
    | ⟨3, _⟩ => exact absurd (List.Mem.head _) hb
  · exact B9_of_ne m c b fun w e => h ⟨w, e⟩
/-- After the host stretch `hostOps3`. -/
abbrev B10 (c : Dev nD) : Valuation τ sig (Elt F) := StableHlo.after hostOps3 (B9 m c)
/-- The buffers region 3 is entered from, read at the TensorCore's references. -/
abbrev A10 : (c : Dev nD) → (b : Ref sig .tc) → Buf (Elt F) ((c : Thread nD τ).loc b) := fun c b => B10 m c b
/-- After region 3: its arrays at what the pipeline leaves, every other buffer as entered. -/
def B11 (c : Dev nD) : Valuation τ sig (Elt F) :=
  Pipeline.withArrays spec3 c (B10 m c) fun w => (dat3 (A10 m) c).arrAt w cfg3.N
theorem B11_arr (c : Dev nD) (w : Fin cfg3.W) :
    B11 m c (Proc.devRef .tc (Pipeline.arrRef spec3 w)) = (dat3 (A10 m) c).arrAt w cfg3.N := by
  unfold B11; exact Pipeline.withArrays_arr spec3 launch3.win.arr_inj c _ _ w
theorem B11_of_ne (c : Dev nD) (b : Ref sig .tc) (hb : ∀ w, Pipeline.arrRef spec3 w ≠ b) :
    B11 m c (Proc.devRef .tc b) = B10 m c (Proc.devRef .tc b) := by
  unfold B11; exact Pipeline.withArrays_of_ne spec3 c _ _ b hb
/-- The same read at the TensorCore's references. -/
abbrev A11x : (c : Dev nD) → (b : Ref sig .tc) → Buf (Elt F) ((c : Thread nD τ).loc b) := fun c b => B11 m c b
theorem hF3 (c : Dev nD) (w : Fin cfg3.W) : (dat3 (A10 m) c).arrAt w cfg3.N = A11x m c (Pipeline.arrRef spec3 w) :=
  (B11_arr m c w).symm
theorem hrest3 (c : Dev nD) : ∀ b, b ∉ Finset.univ.image (Pipeline.arrRef spec3) → A11x m c b = A10 m c b :=
  fun b hb => B11_of_ne m c b fun w e => hb (Finset.mem_image.mpr ⟨w, Finset.mem_univ _, e⟩)
/-- Region 3 changes only its output `main_v42`: an input window's array is never written. -/
theorem B11_keep (c : Dev nD) (b : Ref sig .tc) (hb : b ∉ ([main_v42] : List (Ref sig .tc))) :
    B11 m c (Proc.devRef .tc b) = B10 m c (Proc.devRef .tc b) := by
  by_cases h : ∃ w, Pipeline.arrRef spec3 w = b
  · obtain ⟨w, rfl⟩ := h
    rw [B11_arr]
    match w with
    | ⟨0, _⟩ => exact ((dat3 (A10 m) c).arrAt_in 0 rfl _).trans (A_eq3 (A10 m) c 0)
    | ⟨1, _⟩ => exact ((dat3 (A10 m) c).arrAt_in 1 rfl _).trans (A_eq3 (A10 m) c 1)
    | ⟨2, _⟩ => exact ((dat3 (A10 m) c).arrAt_in 2 rfl _).trans (A_eq3 (A10 m) c 2)
    | ⟨3, _⟩ => exact absurd (List.Mem.head _) hb
  · exact B11_of_ne m c b fun w e => h ⟨w, e⟩
/-- After the host stretch `hostOps4`. -/
abbrev B12 (c : Dev nD) : Valuation τ sig (Elt F) := StableHlo.after hostOps4 (B11 m c)
/-- The buffers region 4 is entered from, read at the TensorCore's references. -/
abbrev A12 : (c : Dev nD) → (b : Ref sig .tc) → Buf (Elt F) ((c : Thread nD τ).loc b) := fun c b => B12 m c b
/-- After region 4: its arrays at what the pipeline leaves, every other buffer as entered. -/
def B13 (c : Dev nD) : Valuation τ sig (Elt F) :=
  Pipeline.withArrays spec4 c (B12 m c) fun w => (dat4 (A12 m) c).arrAt w cfg4.N
theorem B13_arr (c : Dev nD) (w : Fin cfg4.W) :
    B13 m c (Proc.devRef .tc (Pipeline.arrRef spec4 w)) = (dat4 (A12 m) c).arrAt w cfg4.N := by
  unfold B13; exact Pipeline.withArrays_arr spec4 launch4.win.arr_inj c _ _ w
theorem B13_of_ne (c : Dev nD) (b : Ref sig .tc) (hb : ∀ w, Pipeline.arrRef spec4 w ≠ b) :
    B13 m c (Proc.devRef .tc b) = B12 m c (Proc.devRef .tc b) := by
  unfold B13; exact Pipeline.withArrays_of_ne spec4 c _ _ b hb
/-- The same read at the TensorCore's references. -/
abbrev A13x : (c : Dev nD) → (b : Ref sig .tc) → Buf (Elt F) ((c : Thread nD τ).loc b) := fun c b => B13 m c b
theorem hF4 (c : Dev nD) (w : Fin cfg4.W) : (dat4 (A12 m) c).arrAt w cfg4.N = A13x m c (Pipeline.arrRef spec4 w) :=
  (B13_arr m c w).symm
theorem hrest4 (c : Dev nD) : ∀ b, b ∉ Finset.univ.image (Pipeline.arrRef spec4) → A13x m c b = A12 m c b :=
  fun b hb => B13_of_ne m c b fun w e => hb (Finset.mem_image.mpr ⟨w, Finset.mem_univ _, e⟩)
/-- Region 4 changes only its outputs `main_v45_0`, `main_v45_1`: an input window's array is never written. -/
theorem B13_keep (c : Dev nD) (b : Ref sig .tc) (hb : b ∉ ([main_v45_0, main_v45_1] : List (Ref sig .tc))) :
    B13 m c (Proc.devRef .tc b) = B12 m c (Proc.devRef .tc b) := by
  by_cases h : ∃ w, Pipeline.arrRef spec4 w = b
  · obtain ⟨w, rfl⟩ := h
    rw [B13_arr]
    match w with
    | ⟨0, _⟩ => exact ((dat4 (A12 m) c).arrAt_in 0 rfl _).trans (A_eq4 (A12 m) c 0)
    | ⟨1, _⟩ => exact ((dat4 (A12 m) c).arrAt_in 1 rfl _).trans (A_eq4 (A12 m) c 1)
    | ⟨2, _⟩ => exact ((dat4 (A12 m) c).arrAt_in 2 rfl _).trans (A_eq4 (A12 m) c 2)
    | ⟨3, _⟩ => exact absurd (List.Mem.head _) hb
    | ⟨4, _⟩ => exact absurd (List.Mem.tail _ (List.Mem.head _)) hb
  · exact B13_of_ne m c b fun w e => h ⟨w, e⟩
/-- After the host stretch `hostOps5`. -/
abbrev B14 (c : Dev nD) : Valuation τ sig (Elt F) := StableHlo.after hostOps5 (B13 m c)
/-- After the host stretch `hostOps5_1`. -/
abbrev B15 (c : Dev nD) : Valuation τ sig (Elt F) := StableHlo.after hostOps5_1 (B14 m c)
/-- After the host stretch `hostOps5_2`. -/
abbrev B16 (c : Dev nD) : Valuation τ sig (Elt F) := StableHlo.after hostOps5_2 (B15 m c)
/-- The buffers region 5 is entered from, read at the TensorCore's references. -/
abbrev A16 : (c : Dev nD) → (b : Ref sig .tc) → Buf (Elt F) ((c : Thread nD τ).loc b) := fun c b => B16 m c b
/-- After region 5: its arrays at what the pipeline leaves, every other buffer as entered. -/
def B17 (c : Dev nD) : Valuation τ sig (Elt F) :=
  Pipeline.withArrays spec5 c (B16 m c) fun w => (dat5 (A16 m) c).arrAt w cfg5.N
theorem B17_arr (c : Dev nD) (w : Fin cfg5.W) :
    B17 m c (Proc.devRef .tc (Pipeline.arrRef spec5 w)) = (dat5 (A16 m) c).arrAt w cfg5.N := by
  unfold B17; exact Pipeline.withArrays_arr spec5 launch5.win.arr_inj c _ _ w
theorem B17_of_ne (c : Dev nD) (b : Ref sig .tc) (hb : ∀ w, Pipeline.arrRef spec5 w ≠ b) :
    B17 m c (Proc.devRef .tc b) = B16 m c (Proc.devRef .tc b) := by
  unfold B17; exact Pipeline.withArrays_of_ne spec5 c _ _ b hb
/-- The same read at the TensorCore's references. -/
abbrev A17x : (c : Dev nD) → (b : Ref sig .tc) → Buf (Elt F) ((c : Thread nD τ).loc b) := fun c b => B17 m c b
theorem hF5 (c : Dev nD) (w : Fin cfg5.W) : (dat5 (A16 m) c).arrAt w cfg5.N = A17x m c (Pipeline.arrRef spec5 w) :=
  (B17_arr m c w).symm
theorem hrest5 (c : Dev nD) : ∀ b, b ∉ Finset.univ.image (Pipeline.arrRef spec5) → A17x m c b = A16 m c b :=
  fun b hb => B17_of_ne m c b fun w e => hb (Finset.mem_image.mpr ⟨w, Finset.mem_univ _, e⟩)
/-- Region 5 changes only its output `main_v60`: an input window's array is never written. -/
theorem B17_keep (c : Dev nD) (b : Ref sig .tc) (hb : b ∉ ([main_v60] : List (Ref sig .tc))) :
    B17 m c (Proc.devRef .tc b) = B16 m c (Proc.devRef .tc b) := by
  by_cases h : ∃ w, Pipeline.arrRef spec5 w = b
  · obtain ⟨w, rfl⟩ := h
    rw [B17_arr]
    match w with
    | ⟨0, _⟩ => exact ((dat5 (A16 m) c).arrAt_in 0 rfl _).trans (A_eq5 (A16 m) c 0)
    | ⟨1, _⟩ => exact ((dat5 (A16 m) c).arrAt_in 1 rfl _).trans (A_eq5 (A16 m) c 1)
    | ⟨2, _⟩ => exact ((dat5 (A16 m) c).arrAt_in 2 rfl _).trans (A_eq5 (A16 m) c 2)
    | ⟨3, _⟩ => exact ((dat5 (A16 m) c).arrAt_in 3 rfl _).trans (A_eq5 (A16 m) c 3)
    | ⟨4, _⟩ => exact ((dat5 (A16 m) c).arrAt_in 4 rfl _).trans (A_eq5 (A16 m) c 4)
    | ⟨5, _⟩ => exact absurd (List.Mem.head _) hb
  · exact B17_of_ne m c b fun w e => h ⟨w, e⟩

/-! ## What each host stretch leaves unchanged -/
theorem B1_keep (c : Dev nD) (b : Ref sig .tc) (h : b ∉ hostOps0_W) : B1 m c (Proc.devRef .tc b) = B0 m c (Proc.devRef .tc b) :=
  StableHlo.after_of_writes_sub hostOps0 _ hostOps0_writes h
theorem B2_keep (c : Dev nD) (b : Ref sig .tc) (h : b ∉ hostOps0_1_W) : B2 m c (Proc.devRef .tc b) = B1 m c (Proc.devRef .tc b) :=
  StableHlo.after_of_writes_sub hostOps0_1 _ hostOps0_1_writes h
theorem B3_keep (c : Dev nD) (b : Ref sig .tc) (h : b ∉ hostOps0_2_W) : B3 m c (Proc.devRef .tc b) = B2 m c (Proc.devRef .tc b) :=
  StableHlo.after_of_writes_sub hostOps0_2 _ hostOps0_2_writes h
theorem B4_keep (c : Dev nD) (b : Ref sig .tc) (h : b ∉ hostOps0_3_W) : B4 m c (Proc.devRef .tc b) = B3 m c (Proc.devRef .tc b) :=
  StableHlo.after_of_writes_sub hostOps0_3 _ hostOps0_3_writes h
theorem B5_keep (c : Dev nD) (b : Ref sig .tc) (h : b ∉ hostOps0_4_W) : B5 m c (Proc.devRef .tc b) = B4 m c (Proc.devRef .tc b) :=
  StableHlo.after_of_writes_sub hostOps0_4 _ hostOps0_4_writes h
theorem B7_keep (c : Dev nD) (b : Ref sig .tc) (h : b ∉ hostOps1_W) : B7 m c (Proc.devRef .tc b) = B6 m c (Proc.devRef .tc b) :=
  StableHlo.after_of_writes_sub hostOps1 _ hostOps1_writes h
theorem B10_keep (c : Dev nD) (b : Ref sig .tc) (h : b ∉ hostOps3_W) : B10 m c (Proc.devRef .tc b) = B9 m c (Proc.devRef .tc b) :=
  StableHlo.after_of_writes_sub hostOps3 _ hostOps3_writes h
theorem B12_keep (c : Dev nD) (b : Ref sig .tc) (h : b ∉ hostOps4_W) : B12 m c (Proc.devRef .tc b) = B11 m c (Proc.devRef .tc b) :=
  StableHlo.after_of_writes_sub hostOps4 _ hostOps4_writes h
theorem B14_keep (c : Dev nD) (b : Ref sig .tc) (h : b ∉ hostOps5_W) : B14 m c (Proc.devRef .tc b) = B13 m c (Proc.devRef .tc b) :=
  StableHlo.after_of_writes_sub hostOps5 _ hostOps5_writes h
theorem B15_keep (c : Dev nD) (b : Ref sig .tc) (h : b ∉ hostOps5_1_W) : B15 m c (Proc.devRef .tc b) = B14 m c (Proc.devRef .tc b) :=
  StableHlo.after_of_writes_sub hostOps5_1 _ hostOps5_1_writes h
theorem B16_keep (c : Dev nD) (b : Ref sig .tc) (h : b ∉ hostOps5_2_W) : B16 m c (Proc.devRef .tc b) = B15 m c (Proc.devRef .tc b) :=
  StableHlo.after_of_writes_sub hostOps5_2 _ hostOps5_2_writes h

/-! ## No item writes an argument -/
theorem B17_main_arg0 (c : Dev nD) : B17 m c (Proc.devRef .tc main_arg0) = m ((c : Thread nD τ).loc main_arg0) :=
  (B17_keep m c main_arg0 (by decide)).trans <| (B16_keep m c main_arg0 (by decide)).trans <| (B15_keep m c main_arg0 (by decide)).trans <| (B14_keep m c main_arg0 (by decide)).trans <| (B13_keep m c main_arg0 (by decide)).trans <| (B12_keep m c main_arg0 (by decide)).trans <| (B11_keep m c main_arg0 (by decide)).trans <| (B10_keep m c main_arg0 (by decide)).trans <| (B9_keep m c main_arg0 (by decide)).trans <| (B8_keep m c main_arg0 (by decide)).trans <| (B7_keep m c main_arg0 (by decide)).trans <| (B6_keep m c main_arg0 (by decide)).trans <| (B5_keep m c main_arg0 (by decide)).trans <| (B4_keep m c main_arg0 (by decide)).trans <| (B3_keep m c main_arg0 (by decide)).trans <| (B2_keep m c main_arg0 (by decide)).trans <| (B1_keep m c main_arg0 (by decide)).trans rfl
theorem B17_main_arg1 (c : Dev nD) : B17 m c (Proc.devRef .tc main_arg1) = m ((c : Thread nD τ).loc main_arg1) :=
  (B17_keep m c main_arg1 (by decide)).trans <| (B16_keep m c main_arg1 (by decide)).trans <| (B15_keep m c main_arg1 (by decide)).trans <| (B14_keep m c main_arg1 (by decide)).trans <| (B13_keep m c main_arg1 (by decide)).trans <| (B12_keep m c main_arg1 (by decide)).trans <| (B11_keep m c main_arg1 (by decide)).trans <| (B10_keep m c main_arg1 (by decide)).trans <| (B9_keep m c main_arg1 (by decide)).trans <| (B8_keep m c main_arg1 (by decide)).trans <| (B7_keep m c main_arg1 (by decide)).trans <| (B6_keep m c main_arg1 (by decide)).trans <| (B5_keep m c main_arg1 (by decide)).trans <| (B4_keep m c main_arg1 (by decide)).trans <| (B3_keep m c main_arg1 (by decide)).trans <| (B2_keep m c main_arg1 (by decide)).trans <| (B1_keep m c main_arg1 (by decide)).trans rfl
theorem B17_main_arg2 (c : Dev nD) : B17 m c (Proc.devRef .tc main_arg2) = m ((c : Thread nD τ).loc main_arg2) :=
  (B17_keep m c main_arg2 (by decide)).trans <| (B16_keep m c main_arg2 (by decide)).trans <| (B15_keep m c main_arg2 (by decide)).trans <| (B14_keep m c main_arg2 (by decide)).trans <| (B13_keep m c main_arg2 (by decide)).trans <| (B12_keep m c main_arg2 (by decide)).trans <| (B11_keep m c main_arg2 (by decide)).trans <| (B10_keep m c main_arg2 (by decide)).trans <| (B9_keep m c main_arg2 (by decide)).trans <| (B8_keep m c main_arg2 (by decide)).trans <| (B7_keep m c main_arg2 (by decide)).trans <| (B6_keep m c main_arg2 (by decide)).trans <| (B5_keep m c main_arg2 (by decide)).trans <| (B4_keep m c main_arg2 (by decide)).trans <| (B3_keep m c main_arg2 (by decide)).trans <| (B2_keep m c main_arg2 (by decide)).trans <| (B1_keep m c main_arg2 (by decide)).trans rfl
theorem B17_main_arg3 (c : Dev nD) : B17 m c (Proc.devRef .tc main_arg3) = m ((c : Thread nD τ).loc main_arg3) :=
  (B17_keep m c main_arg3 (by decide)).trans <| (B16_keep m c main_arg3 (by decide)).trans <| (B15_keep m c main_arg3 (by decide)).trans <| (B14_keep m c main_arg3 (by decide)).trans <| (B13_keep m c main_arg3 (by decide)).trans <| (B12_keep m c main_arg3 (by decide)).trans <| (B11_keep m c main_arg3 (by decide)).trans <| (B10_keep m c main_arg3 (by decide)).trans <| (B9_keep m c main_arg3 (by decide)).trans <| (B8_keep m c main_arg3 (by decide)).trans <| (B7_keep m c main_arg3 (by decide)).trans <| (B6_keep m c main_arg3 (by decide)).trans <| (B5_keep m c main_arg3 (by decide)).trans <| (B4_keep m c main_arg3 (by decide)).trans <| (B3_keep m c main_arg3 (by decide)).trans <| (B2_keep m c main_arg3 (by decide)).trans <| (B1_keep m c main_arg3 (by decide)).trans rfl
theorem B17_main_arg4 (c : Dev nD) : B17 m c (Proc.devRef .tc main_arg4) = m ((c : Thread nD τ).loc main_arg4) :=
  (B17_keep m c main_arg4 (by decide)).trans <| (B16_keep m c main_arg4 (by decide)).trans <| (B15_keep m c main_arg4 (by decide)).trans <| (B14_keep m c main_arg4 (by decide)).trans <| (B13_keep m c main_arg4 (by decide)).trans <| (B12_keep m c main_arg4 (by decide)).trans <| (B11_keep m c main_arg4 (by decide)).trans <| (B10_keep m c main_arg4 (by decide)).trans <| (B9_keep m c main_arg4 (by decide)).trans <| (B8_keep m c main_arg4 (by decide)).trans <| (B7_keep m c main_arg4 (by decide)).trans <| (B6_keep m c main_arg4 (by decide)).trans <| (B5_keep m c main_arg4 (by decide)).trans <| (B4_keep m c main_arg4 (by decide)).trans <| (B3_keep m c main_arg4 (by decide)).trans <| (B2_keep m c main_arg4 (by decide)).trans <| (B1_keep m c main_arg4 (by decide)).trans rfl
theorem B17_main_arg5 (c : Dev nD) : B17 m c (Proc.devRef .tc main_arg5) = m ((c : Thread nD τ).loc main_arg5) :=
  (B17_keep m c main_arg5 (by decide)).trans <| (B16_keep m c main_arg5 (by decide)).trans <| (B15_keep m c main_arg5 (by decide)).trans <| (B14_keep m c main_arg5 (by decide)).trans <| (B13_keep m c main_arg5 (by decide)).trans <| (B12_keep m c main_arg5 (by decide)).trans <| (B11_keep m c main_arg5 (by decide)).trans <| (B10_keep m c main_arg5 (by decide)).trans <| (B9_keep m c main_arg5 (by decide)).trans <| (B8_keep m c main_arg5 (by decide)).trans <| (B7_keep m c main_arg5 (by decide)).trans <| (B6_keep m c main_arg5 (by decide)).trans <| (B5_keep m c main_arg5 (by decide)).trans <| (B4_keep m c main_arg5 (by decide)).trans <| (B3_keep m c main_arg5 (by decide)).trans <| (B2_keep m c main_arg5 (by decide)).trans <| (B1_keep m c main_arg5 (by decide)).trans rfl
theorem B17_main_arg6 (c : Dev nD) : B17 m c (Proc.devRef .tc main_arg6) = m ((c : Thread nD τ).loc main_arg6) :=
  (B17_keep m c main_arg6 (by decide)).trans <| (B16_keep m c main_arg6 (by decide)).trans <| (B15_keep m c main_arg6 (by decide)).trans <| (B14_keep m c main_arg6 (by decide)).trans <| (B13_keep m c main_arg6 (by decide)).trans <| (B12_keep m c main_arg6 (by decide)).trans <| (B11_keep m c main_arg6 (by decide)).trans <| (B10_keep m c main_arg6 (by decide)).trans <| (B9_keep m c main_arg6 (by decide)).trans <| (B8_keep m c main_arg6 (by decide)).trans <| (B7_keep m c main_arg6 (by decide)).trans <| (B6_keep m c main_arg6 (by decide)).trans <| (B5_keep m c main_arg6 (by decide)).trans <| (B4_keep m c main_arg6 (by decide)).trans <| (B3_keep m c main_arg6 (by decide)).trans <| (B2_keep m c main_arg6 (by decide)).trans <| (B1_keep m c main_arg6 (by decide)).trans rfl
theorem B17_main_arg7 (c : Dev nD) : B17 m c (Proc.devRef .tc main_arg7) = m ((c : Thread nD τ).loc main_arg7) :=
  (B17_keep m c main_arg7 (by decide)).trans <| (B16_keep m c main_arg7 (by decide)).trans <| (B15_keep m c main_arg7 (by decide)).trans <| (B14_keep m c main_arg7 (by decide)).trans <| (B13_keep m c main_arg7 (by decide)).trans <| (B12_keep m c main_arg7 (by decide)).trans <| (B11_keep m c main_arg7 (by decide)).trans <| (B10_keep m c main_arg7 (by decide)).trans <| (B9_keep m c main_arg7 (by decide)).trans <| (B8_keep m c main_arg7 (by decide)).trans <| (B7_keep m c main_arg7 (by decide)).trans <| (B6_keep m c main_arg7 (by decide)).trans <| (B5_keep m c main_arg7 (by decide)).trans <| (B4_keep m c main_arg7 (by decide)).trans <| (B3_keep m c main_arg7 (by decide)).trans <| (B2_keep m c main_arg7 (by decide)).trans <| (B1_keep m c main_arg7 (by decide)).trans rfl
theorem B17_main_arg8 (c : Dev nD) : B17 m c (Proc.devRef .tc main_arg8) = m ((c : Thread nD τ).loc main_arg8) :=
  (B17_keep m c main_arg8 (by decide)).trans <| (B16_keep m c main_arg8 (by decide)).trans <| (B15_keep m c main_arg8 (by decide)).trans <| (B14_keep m c main_arg8 (by decide)).trans <| (B13_keep m c main_arg8 (by decide)).trans <| (B12_keep m c main_arg8 (by decide)).trans <| (B11_keep m c main_arg8 (by decide)).trans <| (B10_keep m c main_arg8 (by decide)).trans <| (B9_keep m c main_arg8 (by decide)).trans <| (B8_keep m c main_arg8 (by decide)).trans <| (B7_keep m c main_arg8 (by decide)).trans <| (B6_keep m c main_arg8 (by decide)).trans <| (B5_keep m c main_arg8 (by decide)).trans <| (B4_keep m c main_arg8 (by decide)).trans <| (B3_keep m c main_arg8 (by decide)).trans <| (B2_keep m c main_arg8 (by decide)).trans <| (B1_keep m c main_arg8 (by decide)).trans rfl
theorem B17_main_arg9 (c : Dev nD) : B17 m c (Proc.devRef .tc main_arg9) = m ((c : Thread nD τ).loc main_arg9) :=
  (B17_keep m c main_arg9 (by decide)).trans <| (B16_keep m c main_arg9 (by decide)).trans <| (B15_keep m c main_arg9 (by decide)).trans <| (B14_keep m c main_arg9 (by decide)).trans <| (B13_keep m c main_arg9 (by decide)).trans <| (B12_keep m c main_arg9 (by decide)).trans <| (B11_keep m c main_arg9 (by decide)).trans <| (B10_keep m c main_arg9 (by decide)).trans <| (B9_keep m c main_arg9 (by decide)).trans <| (B8_keep m c main_arg9 (by decide)).trans <| (B7_keep m c main_arg9 (by decide)).trans <| (B6_keep m c main_arg9 (by decide)).trans <| (B5_keep m c main_arg9 (by decide)).trans <| (B4_keep m c main_arg9 (by decide)).trans <| (B3_keep m c main_arg9 (by decide)).trans <| (B2_keep m c main_arg9 (by decide)).trans <| (B1_keep m c main_arg9 (by decide)).trans rfl
theorem B17_main_arg10 (c : Dev nD) : B17 m c (Proc.devRef .tc main_arg10) = m ((c : Thread nD τ).loc main_arg10) :=
  (B17_keep m c main_arg10 (by decide)).trans <| (B16_keep m c main_arg10 (by decide)).trans <| (B15_keep m c main_arg10 (by decide)).trans <| (B14_keep m c main_arg10 (by decide)).trans <| (B13_keep m c main_arg10 (by decide)).trans <| (B12_keep m c main_arg10 (by decide)).trans <| (B11_keep m c main_arg10 (by decide)).trans <| (B10_keep m c main_arg10 (by decide)).trans <| (B9_keep m c main_arg10 (by decide)).trans <| (B8_keep m c main_arg10 (by decide)).trans <| (B7_keep m c main_arg10 (by decide)).trans <| (B6_keep m c main_arg10 (by decide)).trans <| (B5_keep m c main_arg10 (by decide)).trans <| (B4_keep m c main_arg10 (by decide)).trans <| (B3_keep m c main_arg10 (by decide)).trans <| (B2_keep m c main_arg10 (by decide)).trans <| (B1_keep m c main_arg10 (by decide)).trans rfl

/-! ## The results -/

/-- The classifier's output is what region 5 leaves in its output array. -/
theorem B17_main_v60 (c : Dev nD) : B17 m c (Proc.devRef .tc main_v60) = (dat5 (A16 m) c).arrAt 5 cfg5.N := B17_arr m c 5
/-- The attention gate is what region 4 leaves in its first output array: nothing later writes it. -/
theorem B17_main_v45_0 (c : Dev nD) : B17 m c (Proc.devRef .tc main_v45_0) = (dat4 (A12 m) c).arrAt 3 cfg4.N :=
  (B17_keep m c main_v45_0 (by decide)).trans <| (B16_keep m c main_v45_0 (by decide)).trans <| (B15_keep m c main_v45_0 (by decide)).trans <| (B14_keep m c main_v45_0 (by decide)).trans (B13_arr m c 3)

/-! ## The proof data family -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (A5 m) c
  | ⟨1, _⟩ => fun c => dat1 (A7 m) c
  | ⟨2, _⟩ => fun c => dat2 (A8 m) c
  | ⟨3, _⟩ => fun c => dat3 (A10 m) c
  | ⟨4, _⟩ => fun c => dat4 (A12 m) c
  | ⟨5, _⟩ => fun c => dat5 (A16 m) c

end Cert.KernelIdeal.Hand

end
-- ==== Proof.KI.Segs.lean ====
/-
  The program as a list of segments — a host segment per stretch of host operations, a region per kernel call — over
  the thread state "every unscoped buffer at the boundary's contents, the generator register at some state, nothing
  owed", and its run: every weakly fair execution terminates, nothing faulting, and every unscoped buffer ends at the
  last boundary's contents. The frame and the two results are read off that.
-/
import proofs.«404283_j8701603742240_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev Rest (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- The last thread state without the dues: every unscoped buffer at the last boundary's contents, the generator
    register at some state. -/
abbrev Tend (c : Dev nD) : sProp 𝕄 := iprop(StableHlo.held (c : Thread nD τ) (Pipeline.ucRefs τ sig) (B17 m c) ∗ ∃ r, prngReg c r)

/-! ## The regions as segments -/

set_option backward.isDefEq.respectTransparency.types false in
/-- Region 0 over the thread state: entered from every unscoped buffer at `B5`, left at `B6`. Its arrays are split
    out of the unscoped buffers and put back at the exit contents; the generator register go into the body's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (A5 m) c).loose
  hwaits := Pipeline.hwaits_of_owed_zero _ _ _ _ L lv 0 fun _ _ => rfl
  pre c := iprop(StableHlo.held (c : Thread nD τ) (Pipeline.ucRefs τ sig) (B5 m c) ∗ Rest c)
  post c := iprop(StableHlo.held (c : Thread nD τ) (Pipeline.ucRefs τ sig) (B6 m c) ∗ Rest c)
  X c := iprop(∃ r, prngReg c r)
  Y c := iprop(∃ r, prngReg c r)
  Z c := Pipeline.unscopedRest (Ix := Unit) (Name := ℕ) (U := UR sig nD τ) (Lvl := ℕ) spec0 c (A5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (A5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (A5 m c) (A6x m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B7`, left at `B8`. Its arrays are split
    out of the unscoped buffers and put back at the exit contents; the generator register go into the body's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (A7 m) c).loose
  hwaits := Pipeline.hwaits_of_owed_zero _ _ _ _ L lv 1 fun _ _ => rfl
  pre c := iprop(StableHlo.held (c : Thread nD τ) (Pipeline.ucRefs τ sig) (B7 m c) ∗ Rest c)
  post c := iprop(StableHlo.held (c : Thread nD τ) (Pipeline.ucRefs τ sig) (B8 m c) ∗ Rest c)
  X c := iprop(∃ r, prngReg c r)
  Y c := iprop(∃ r, prngReg c r)
  Z c := Pipeline.unscopedRest (Ix := Unit) (Name := ℕ) (U := UR sig nD τ) (Lvl := ℕ) spec1 c (A7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (A7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (A7 m c) (A8x m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B8`, left at `B9`. Its arrays are split
    out of the unscoped buffers and put back at the exit contents; the generator register go into the body's invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (A8 m) c).loose
  hwaits := Pipeline.hwaits_of_owed_zero _ _ _ _ L lv 2 fun _ _ => rfl
  pre c := iprop(StableHlo.held (c : Thread nD τ) (Pipeline.ucRefs τ sig) (B8 m c) ∗ Rest c)
  post c := iprop(StableHlo.held (c : Thread nD τ) (Pipeline.ucRefs τ sig) (B9 m c) ∗ Rest c)
  X c := iprop(∃ r, prngReg c r)
  Y c := iprop(∃ r, prngReg c r)
  Z c := Pipeline.unscopedRest (Ix := Unit) (Name := ℕ) (U := UR sig nD τ) (Lvl := ℕ) spec2 c (A8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (A8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (A8 m c) (A9x m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B10`, left at `B11`. Its arrays are split
    out of the unscoped buffers and put back at the exit contents; the generator register go into the body's invariant and come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (A10 m) c).loose
  hwaits := Pipeline.hwaits_of_owed_zero _ _ _ _ L lv 3 fun _ _ => rfl
  pre c := iprop(StableHlo.held (c : Thread nD τ) (Pipeline.ucRefs τ sig) (B10 m c) ∗ Rest c)
  post c := iprop(StableHlo.held (c : Thread nD τ) (Pipeline.ucRefs τ sig) (B11 m c) ∗ Rest c)
  X c := iprop(∃ r, prngReg c r)
  Y c := iprop(∃ r, prngReg c r)
  Z c := Pipeline.unscopedRest (Ix := Unit) (Name := ℕ) (U := UR sig nD τ) (Lvl := ℕ) spec3 c (A10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (A10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (A10 m c) (A11x m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `B12`, left at `B13`. Its arrays are split
    out of the unscoped buffers and put back at the exit contents; the generator register go into the body's invariant and come back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (A12 m) c).loose
  hwaits := Pipeline.hwaits_of_owed_zero _ _ _ _ L lv 4 fun _ _ => rfl
  pre c := iprop(StableHlo.held (c : Thread nD τ) (Pipeline.ucRefs τ sig) (B12 m c) ∗ Rest c)
  post c := iprop(StableHlo.held (c : Thread nD τ) (Pipeline.ucRefs τ sig) (B13 m c) ∗ Rest c)
  X c := iprop(∃ r, prngReg c r)
  Y c := iprop(∃ r, prngReg c r)
  Z c := Pipeline.unscopedRest (Ix := Unit) (Name := ℕ) (U := UR sig nD τ) (Lvl := ℕ) spec4 c (A12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (A12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (A12 m c) (A13x m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `B16`, left at `B17`. Its arrays are split
    out of the unscoped buffers and put back at the exit contents; the generator register and the scoped buffers, the
    accumulator among them, go into the body's invariant and come back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (A16 m) c).loose
  hwaits := Pipeline.hwaits_of_owed_zero _ _ _ _ L lv 5 fun _ _ => rfl
  pre c := iprop(StableHlo.held (c : Thread nD τ) (Pipeline.ucRefs τ sig) (B16 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (A16 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (A16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (A16 m) c).Φ 0 from rfl]
    iintro ⟨Hp, -, Hr⟩
    iapply (Phi5_in (A16 m) c)
    isplitl [Hp]; · iexact Hp
    iexact Hr
  hout c := by
    rw [Pipeline.ownSems0_none, show (pdats m 5 c).Φ (Fin.last _) = (dat5 (A16 m) c).Φ (Fin.last cfg5.N) from rfl]
    iintro HPhi
    ihave H := (Phi5_out (A16 m) c) $$ HPhi
    icases H with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (A16 m c) (A17x m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

/-- The program's 17 segments in order. -/
abbrev segsH : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .region (reg0 m),
    .host (hseg hostOps1 hostOps1_sub hostOps1_fresh (B6 m)),
    .region (reg1 m),
    .region (reg2 m),
    .host (hseg hostOps3 hostOps3_sub hostOps3_fresh (B9 m)),
    .region (reg3 m),
    .host (hseg hostOps4 hostOps4_sub hostOps4_fresh (B11 m)),
    .region (reg4 m),
    .host (hseg hostOps5 hostOps5_sub hostOps5_fresh (B13 m)),
    .host (hseg hostOps5_1 hostOps5_1_sub hostOps5_1_fresh (B14 m)),
    .host (hseg hostOps5_2 hostOps5_2_sub hostOps5_2_fresh (B15 m)),
    .region (reg5 m) ]

/-- The program IS the run of the segments. -/
theorem main_runH (c : Dev nD) : main (F := F) c = Pipeline.Seg.run (segsH m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program on the TensorCores
    terminates, nothing faulting, and in the final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B17 m c b) :=
  Pipeline.θ_run_regions_kit (pcfgs (F := F)) adm (pdats m) () cellOf_inj emb₁ defs₀ 𝒱₀ L lv m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tend m)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B17 m c b)
    (hfin := fun c s' => by
      iintro ⟨⟨Hh, -⟩, HSI⟩
      unfold StableHlo.held
      imodintro
      iapply (pointsTo_read_all (Pipeline.ucRefs τ sig) (fun b => (((c : Thread nD τ)).1, b)) (B17 m c) s')
      isplitl [Hh] <;> iassumption)
    (hQ := fun s h c => h c)

/-- THE FRAME: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (B17_main_arg0 m c),
     (h c _ (mem_uc main_arg1 (by decide))).trans (B17_main_arg1 m c),
     (h c _ (mem_uc main_arg2 (by decide))).trans (B17_main_arg2 m c),
     (h c _ (mem_uc main_arg3 (by decide))).trans (B17_main_arg3 m c),
     (h c _ (mem_uc main_arg4 (by decide))).trans (B17_main_arg4 m c),
     (h c _ (mem_uc main_arg5 (by decide))).trans (B17_main_arg5 m c),
     (h c _ (mem_uc main_arg6 (by decide))).trans (B17_main_arg6 m c),
     (h c _ (mem_uc main_arg7 (by decide))).trans (B17_main_arg7 m c),
     (h c _ (mem_uc main_arg8 (by decide))).trans (B17_main_arg8 m c),
     (h c _ (mem_uc main_arg9 (by decide))).trans (B17_main_arg9 m c),
     (h c _ (mem_uc main_arg10 (by decide))).trans (B17_main_arg10 m c)⟩) (run_all m ρ)

end Cert.KernelIdeal.Hand

end
-- ==== Proof.Spec.lean ====
/-
  The layers of the graph network as functions of whole arrays, over the extended reals, index by index.
  A node table has 100000 rows; a hidden row has 64 entries; there are 64 graphs and 10 classes.
  Both programs are compared with these: the kernel's regions block by block, the reference operation by operation.
-/
import Idealize.ShloMosaic.PureOps.Ideal
import Idealize.ShloMosaic.Lib.ValueIdx

noncomputable section

namespace Cert.Spec

open Idealize.ShloMosaic Idealize.ShloMosaic.ValueIdx

/-- A table of extended reals with `a` rows and `b` columns. -/
abbrev M (a b : Nat) : Type := (⟨2, ![a, b]⟩ : Shape).Idx → EReal
/-- A vector of `a` extended reals. -/
abbrev V1 (a : Nat) : Type := (⟨1, ![a]⟩ : Shape).Idx → EReal

/-- A vector as a one-column table. -/
def col {a : Nat} (v : V1 a) : M a 1 := fun i => v (ix1 (i 0))
/-- A vector as a one-row table. -/
def row {b : Nat} (v : V1 b) : M 1 b := fun i => v (ix1 (i 1))
/-- A one-column table as a one-row table. -/
def rowT {b : Nat} (v : M b 1) : M 1 b := fun i => v (ix2 (i 1) (0 : Fin 1))
/-- A one-entry vector as a one-by-one table. -/
def one11 (v : V1 1) : M 1 1 := fun _ => v (ix1 (0 : Fin 1))

/-- The first layer's projection: row `n` of `x` times the weights, scaled by the row's factor `s n`. -/
def projScale128 (x : M 100000 128) (w : M 128 64) (s : M 100000 1) : M 100000 64 :=
  fun i => (∑ k : Fin 128, x (ix2 (i 0) k) * w (ix2 k (i 1))) * s (ix2 (i 0) (0 : Fin 1))
/-- The second layer's projection. -/
def projScale64 (x : M 100000 64) (w : M 64 64) (s : M 100000 1) : M 100000 64 :=
  fun i => (∑ k : Fin 64, x (ix2 (i 0) k) * w (ix2 k (i 1))) * s (ix2 (i 0) (0 : Fin 1))
/-- Scale each aggregated row by its factor, add the bias row, clamp below at zero. -/
def biasRelu (m : M 100000 64) (s : M 100000 1) (b : M 1 64) : M 100000 64 :=
  fun i => max (m i * s (ix2 (i 0) (0 : Fin 1)) + b (ix2 (0 : Fin 1) (i 1))) 0
/-- The attention gate of a row: the logistic function of its product with the gate's weights plus the gate's bias. -/
def gateW (h : M 100000 64) (w : M 1 64) (b : M 1 1) : M 100000 1 :=
  fun i => Ideal.logistic ((∑ k : Fin 64, h (ix2 (i 0) k) * w (ix2 (0 : Fin 1) k)) + b (ix2 (0 : Fin 1) (0 : Fin 1)))
/-- Each row scaled by its gate. -/
def gated (h : M 100000 64) (g : M 100000 1) : M 100000 64 :=
  fun i => h i * g (ix2 (i 0) (0 : Fin 1))
/-- The per-graph sums `S` divided by the graph's node count, times the classifier's weights, plus its bias row. -/
def classify (S : M 64 64) (cnt : M 64 1) (cw : M 64 10) (cb : M 1 10) : M 64 10 :=
  fun i => (∑ d : Fin 64, Ideal.div (S (ix2 (i 0) d)) (cnt (ix2 (i 0) (0 : Fin 1))) * cw (ix2 d (i 1))) + cb (ix2 (0 : Fin 1) (i 1))
/-- The per-graph sums through a membership table `oh` (node `n` against graph `g`): the sum over all nodes of the
    membership times the node's row. -/
def poolSum (oh : M 100000 64) (hg : M 100000 64) : M 64 64 :=
  fun i => ∑ n : Fin 100000, oh (ix2 n (i 0)) * hg (ix2 n (i 1))

end Cert.Spec

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.KI.Val0.lean ====
/-
  Region 0, read as one function of whole arrays: after its 50 points the output array holds, at row n and
  column q, the sum over k of the node table's entry (n, k) times the weight table's entry (k, q), times the
  row's factor. Point t works on rows 2000 t … 2000 t + 1999: it multiplies that block of rows by the whole
  weight table into a zero accumulator (narrowing to sixteen bits is the identity over the extended reals),
  spreads the rows' factor column along the 64 lanes, multiplies entry by entry and writes the block back.
  The 50 row blocks tile the 100000 rows, so every entry of the array is some point's.
-/
import proofs.«404283_j8701603742240_1_alg».proof.Proof.KI.R0
import proofs.«404283_j8701603742240_1_alg».proof.Proof.Spec
import proofs.«404283_j8701603742240_1_alg».proof.Proof.LibDot
import proofs.«404283_j8701603742240_1_alg».proof.Proof.LibRowsCols
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The zero offsets of a whole-block rectangle, however they are spelt. -/
theorem zeroOffsets0 : (![0, 0] : Fin 2 → Nat) = fun _ => 0 := funext fun a => by fin_cases a <;> rfl

/-- The product's dimension record contracts the left operand's columns against the right operand's rows. -/
theorem rowsCols0 : Cert.Lib.Dot.IsRowsCols dot_S2000x128_S128x64_S2000x64_1_0_0_1_n_n :=
  ⟨rfl, rfl, rfl, rfl, rfl, rfl⟩

/-- The body's payload at row `r`, column `q` of its block: the row of the first operand times the column of
    the weights, summed over the 128 shared coordinates, times the row's factor. -/
theorem pay0_apply (x0 : Vec Ideal S2000x128 .f32) (x1 : Vec Ideal S128x64 .f32) (x2 : Vec Ideal S2000x1 .f32)
    (r : Fin 2000) (q : Fin 64) :
    k0_pay1 x0 x1 x2 (ix2 r q) = (∑ k : Fin 128, x0 (ix2 r k) * x1 (ix2 k q)) * x2 (ix2 r (0 : Fin 1)) := by
  unfold k0_pay1
  rw [mulf_apply]
  refine congrArg₂ (· * ·) ?_ ?_
  · exact Cert.Lib.Dot.matmul0_rc dot_S2000x128_S128x64_S2000x64_1_0_0_1_n_n rowsCols0 _ _ r q
  · rw [shapeCast_self]
    exact Idealize.ShloMosaic.RowsCols.broadcastTo_a1_ab_apply x2 broadcasts_S2000x1_S2000x64 r q

/-! ## Where a point's blocks sit in their arrays -/

/-- The printed index maps over the 50 points: the two row-blocked inputs and the output sit at block row `t`,
    block column 0; the weight table is one block. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Point `t`'s block of the node table is its rows 2000 t … 2000 t + 1999. -/
theorem iblk0_0_apply (c : Dev nD) (t : Fin cfg0.N) (x : S2000x128.Idx) (k : S100000x128.Idx)
    (hk0 : (k 0).val = t.val * 2000 + (x 0).val) (hk1 : (k 1).val = (x 1).val) :
    (iblk0 (F := Ideal) V c 0 t : Vec Ideal S2000x128 .f32) x = (V c main_arg0 : S100000x128.Idx → Elt Ideal .f32) k := by
  obtain ⟨e0, e1, -⟩ := blockIdx0 t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- Every point's block of the weight table is the table. -/
theorem iblk0_1_apply (c : Dev nD) (t : Fin cfg0.N) (x : S128x64.Idx) :
    (iblk0 (F := Ideal) V c 1 t : Vec Ideal S128x64 .f32) x = (V c main_arg3 : S128x64.Idx → Elt Ideal .f32) x := by
  obtain ⟨-, -, e0, e1, -⟩ := blockIdx0 t
  unfold iblk0
  rw [View.read_apply]
  show V c main_arg3 _ = V c main_arg3 _
  congr 1
  funext a
  apply Fin.ext
  match a with
  | ⟨0, _⟩ => show win0_1.index t 0 * 128 + 1 * (x 0).val = (x 0).val; rw [e0]; omega
  | ⟨1, _⟩ => show win0_1.index t 1 * 64 + 1 * (x 1).val = (x 1).val; rw [e1]; omega

/-- Point `t`'s block of the factor column is its rows 2000 t … 2000 t + 1999. -/
theorem iblk0_2_apply (c : Dev nD) (t : Fin cfg0.N) (x : S2000x1.Idx) (k : S100000x1.Idx)
    (hk0 : (k 0).val = t.val * 2000 + (x 0).val) (hk1 : (k 1).val = (x 1).val) :
    (iblk0 (F := Ideal) V c 2 t : Vec Ideal S2000x1 .f32) x = (V c main_v14 : S100000x1.Idx → Elt Ideal .f32) k := by
  obtain ⟨-, -, -, -, e0, e1, -⟩ := blockIdx0 t
  unfold iblk0
  rw [View.read_apply]
  show V c main_v14 _ = V c main_v14 _
  congr 1
  funext a
  apply Fin.ext
  match a with
  | ⟨0, _⟩ => show win0_2.index t 0 * 2000 + 1 * (x 0).val = (k 0).val; rw [e0, hk0]; omega
  | ⟨1, _⟩ => show win0_2.index t 1 * 1 + 1 * (x 1).val = (k 1).val; rw [e1, hk1]; omega

/-! ## What a point writes back, and the array after the last point -/

/-- The projection of whole arrays, read at an entry. -/
theorem projScale128_apply (A : Cert.Spec.M 100000 128) (W : Cert.Spec.M 128 64) (S : Cert.Spec.M 100000 1)
    (i : S100000x64.Idx) :
    Cert.Spec.projScale128 A W S i
      = (∑ k : Fin 128, A (ix2 (i 0) k) * W (ix2 k (i 1))) * S (ix2 (i 0) (0 : Fin 1)) := rfl

/-- WHAT POINT `t` WRITES BACK is block `t` of the projection of the whole arrays: at row `r`, column `q` of the
    block, the payload is the sum over the shared coordinate of the block's row times the weights' column, times
    the block's factor; the block's row `r` is the array's row 2000 t + r, which is where the output's rectangle
    puts (r, q). -/
theorem flushed0_3_eq (c : Dev nD) (t : Fin cfg0.N) :
    (dat0 (F := Ideal) V c).flushed 3 t
      = ((cfg0.win 3).blk t).view.read (Elt Ideal)
          (Cert.Spec.projScale128 (V c main_arg0) (V c main_arg3) (V c main_v14)) := by
  show (cfg0.win 3).cut (grid0.coords t) ((dat0 (F := Ideal) V c).after 3 t) = _
  rw [after0_3]
  unfold out0_3
  rw [View.canon_unit_zero zeroOffsets0]
  simp only [View.ld_unit_zero (S := S2000x128) zeroOffsets0, View.ld_unit_zero (S := S128x64) zeroOffsets0,
    View.ld_unit_zero (S := S2000x1) zeroOffsets0]
  obtain ⟨-, -, -, -, -, -, e0, e1⟩ := blockIdx0 t
  funext j
  obtain ⟨r, q, rfl⟩ : ∃ (r : Fin 2000) (q : Fin 64), j = ix2 r q := ⟨j 0, j 1, eq_ix2 j⟩
  refine (pay0_apply _ _ _ r q).trans ?_
  -- where the output's rectangle puts (r, q)
  have p0 : ((((cfg0.win 3).blk t).view.emb (ix2 r q) : S100000x64.Idx) 0).val = t.val * 2000 + r.val := by
    show win0_3.index t 0 * 2000 + 1 * r.val = _; rw [e0]; omega
  have p1 : ((((cfg0.win 3).blk t).view.emb (ix2 r q) : S100000x64.Idx) 1).val = q.val := by
    show win0_3.index t 1 * 64 + 1 * q.val = _; rw [e1]; omega
  refine Eq.trans ?_ (projScale128_apply _ _ _ (((cfg0.win 3).blk t).view.emb (ix2 r q))).symm
  refine congrArg₂ (· * ·) (Finset.sum_congr rfl fun k _ => congrArg₂ (· * ·) ?_ ?_) ?_
  · exact iblk0_0_apply V c t (ix2 r k) _ p0 rfl
  · refine (iblk0_1_apply V c t (ix2 k q)).trans (congrArg _ ?_)
    funext a; apply Fin.ext
    match a with
    | ⟨0, _⟩ => rfl
    | ⟨1, _⟩ => exact p1.symm
  · exact iblk0_2_apply V c t (ix2 r (0 : Fin 1)) _ p0 rfl

/-- An entry of the output array is in point `t`'s block iff each coordinate is in the block's range on its axis. -/
theorem mem_blk0_3 (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v17).slice (win0_3.rect t)).set ↔ _
  rw [View.set_slice_whole, Rect.mem_set_unit]
  exact Iff.rfl

/-- Every entry of the output array is in the block of the point its row falls to: row `n` is point `n / 2000`'s. -/
theorem cover0_3_arr (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hlt : (i 0).val / 2000 < cfg0.N := by rw [show cfg0.N = 50 from N_0]; omega
  obtain ⟨-, -, -, -, -, -, e0, e1⟩ := blockIdx0 ⟨(i 0).val / 2000, hlt⟩
  refine ⟨⟨(i 0).val / 2000, hlt⟩, flush0_3 _, ?_⟩
  rw [mem_blk0_3]
  intro a
  match a with
  | ⟨0, _⟩ =>
    show win0_3.index ⟨(i 0).val / 2000, hlt⟩ 0 * 2000 ≤ (i 0).val
      ∧ (i 0).val < win0_3.index ⟨(i 0).val / 2000, hlt⟩ 0 * 2000 + 2000
    rw [e0]
    show (i 0).val / 2000 * 2000 ≤ (i 0).val ∧ (i 0).val < (i 0).val / 2000 * 2000 + 2000
    omega
  | ⟨1, _⟩ =>
    show win0_3.index ⟨(i 0).val / 2000, hlt⟩ 1 * 64 ≤ (i 1).val
      ∧ (i 1).val < win0_3.index ⟨(i 0).val / 2000, hlt⟩ 1 * 64 + 64
    rw [e1]
    omega

/-- THE OUTPUT ARRAY after the region's 50 points: the first layer's projection of the whole arrays. -/
theorem arr0_3 (c : Dev nD) :
    ((dat0 (F := Ideal) V c).arrAt 3 cfg0.N : Vec Ideal S100000x64 .f32)
      = Cert.Spec.projScale128 (V c main_arg0) (V c main_arg3) (V c main_v14) :=
  (dat0 (F := Ideal) V c).arrAt_eq_of_cover 3
    (Cert.Spec.projScale128 (V c main_arg0) (V c main_arg3) (V c main_v14))
    (fun t _ => flushed0_3_eq V c t) cover0_3_arr

end Cert.KernelIdeal.Hand

end
-- ==== Proof.KI.Val1.lean ====
/-
  What region 1 leaves in its output array. Each of the 50 points takes 2000 aggregated rows, multiplies every row by
  that row's factor (a one-entry column spread across the 64 lanes), adds the bias row (spread down the 2000 sublanes)
  and clamps below at zero. The 50 row blocks tile the 100000 rows, so the array ends holding that function of the
  three whole input arrays at every index.
-/
import proofs.«404283_j8701603742240_1_alg».proof.Proof.KI.R1
import proofs.«404283_j8701603742240_1_alg».proof.Proof.Spec
import proofs.«404283_j8701603742240_1_alg».proof.Proof.LibRowsCols
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- A `[1, b]` row spread down `a` sublanes reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The body's stored value at row `p`, lane `q` of the block: the aggregated entry times the row's factor, plus the
    bias entry of that lane, clamped below at zero. -/
theorem k1_pay1_apply (x0 : Vec Ideal S2000x64 .f32) (x1 : Vec Ideal S2000x1 .f32) (x2 : Vec Ideal S1x64 .f32)
    (p : Fin 2000) (q : Fin 64) :
    k1_pay1 (F := Ideal) x0 x1 x2 (ix2 p q)
      = max (x0 (ix2 p q) * x1 (ix2 p (0 : Fin 1)) + x2 (ix2 (0 : Fin 1) q)) 0 := by
  unfold k1_pay1
  show max ((shapeCast S2000x64 x0 shapeCasts_S2000x64_S2000x64) (ix2 p q)
        * (broadcastTo S2000x64 (shapeCast S2000x1 x1 shapeCasts_S2000x1_S2000x1) broadcasts_S2000x1_S2000x64) (ix2 p q)
      + (broadcastTo S2000x64 (shapeCast S1x64 x2 shapeCasts_S1x64_S1x64) broadcasts_S1x64_S2000x64) (ix2 p q))
      (Ideal.ofBits .f32 0x00000000#32) = _
  rw [shapeCast_self, shapeCast_self, shapeCast_self, Ideal.ofBits_zero_f32]
  refine congrArg (fun z => max z 0) ?_
  refine congrArg₂ (· + ·) (congrArg (x0 (ix2 p q) * ·) ?_) ?_
  · exact RowsCols.broadcastTo_a1_ab_apply x1 broadcasts_S2000x1_S2000x64 p q
  · exact broadcastTo_1b_ab_apply x2 broadcasts_S1x64_S2000x64 p q

/-- The printed index maps over the 50 points: windows 0, 1 and the output sit at row block `t`, lane block 0; the
    bias row's window does not move. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One point of one block against the whole arrays: if the block entries the body reads at row `p`, lane `q` are the
    arrays' entries at array index `i` (the aggregated entry at `i`, the factor of `i`'s row, the bias of `i`'s lane),
    then what the body stores there is the layer's value at `i`. -/
theorem biasRelu_point (A0 : Cert.Spec.M 100000 64) (A1 : Cert.Spec.M 100000 1) (A2 : Cert.Spec.M 1 64)
    (x0 : Vec Ideal S2000x64 .f32) (x1 : Vec Ideal S2000x1 .f32) (x2 : Vec Ideal S1x64 .f32)
    (p : Fin 2000) (q : Fin 64) (i : S100000x64.Idx)
    (h0 : x0 (ix2 p q) = A0 i) (h1 : x1 (ix2 p (0 : Fin 1)) = A1 (ix2 (i 0) (0 : Fin 1)))
    (h2 : x2 (ix2 (0 : Fin 1) q) = A2 (ix2 (0 : Fin 1) (i 1))) :
    k1_pay1 (F := Ideal) x0 x1 x2 (ix2 p q) = Cert.Spec.biasRelu A0 A1 A2 i := by
  rw [k1_pay1_apply, h0, h1, h2]
  rfl

variable (V : (c : Dev nD) → (b : Ref sig .tc) → Buf (Elt Ideal) ((c : Thread nD τ).loc b))

theorem zero_offsets2 : (![0, 0] : Fin 2 → Nat) = fun _ => 0 := funext fun a => by fin_cases a <;> rfl

/-- What point `t` writes back is block `t` of the layer's value on the three whole input arrays. -/
theorem flushed1_3_eq (c : Dev nD) (t : Fin cfg1.N) :
    (dat1 (F := Ideal) V c).flushed 3 t
      = ((cfg1.win 3).blk t).view.read (Elt Ideal) (Cert.Spec.biasRelu (V c main_v27) (V c main_v16) (V c main_v28)) := by
  show (cfg1.win 3).cut (grid1.coords t) ((dat1 (F := Ideal) V c).after 3 t) = _
  rw [after1_3]
  unfold out1_3
  rw [View.canon_unit_zero zero_offsets2]
  simp only [View.ld_unit_zero (S := S2000x64) zero_offsets2, View.ld_unit_zero (S := S2000x1) zero_offsets2,
    View.ld_unit_zero (S := S1x64) zero_offsets2]
  obtain ⟨e00, e01, e10, e11, e20, e21, e30, e31⟩ := idx_facts1 t
  funext j
  obtain ⟨p, q, rfl⟩ : ∃ (p : Fin 2000) (q : Fin 64), j = ix2 p q := ⟨j 0, j 1, eq_ix2 j⟩
  show k1_pay1 (F := Ideal) (iblk1 V c 0 t) (iblk1 V c 1 t) (iblk1 V c 2 t) (ix2 p q)
    = Cert.Spec.biasRelu (V c main_v27) (V c main_v16) (V c main_v28) (((cfg1.win 3).blk t).view.emb (ix2 p q))
  refine biasRelu_point (V c main_v27) (V c main_v16) (V c main_v28) _ _ _ p q _ ?_ ?_ ?_
  · -- the aggregated entry: windows 0 and 3 sit at the same rows and lanes
    show V c main_v27 (((cfg1.win 0).blk t).view.emb (ix2 p q)) = V c main_v27 (((cfg1.win 3).blk t).view.emb (ix2 p q))
    refine congrArg (V c main_v27) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 64 + 1 * q.val = win1_3.index t (1 : Fin 2) * 64 + 1 * q.val; omega
  · -- the row's factor: window 1 sits at the same rows, its one lane is lane 0
    show V c main_v16 (((cfg1.win 1).blk t).view.emb (ix2 p (0 : Fin 1)))
      = V c main_v16 (ix2 ((((cfg1.win 3).blk t).view.emb (ix2 p q)) 0) (0 : Fin 1))
    refine congrArg (V c main_v16) (funext fun a => Fin.ext ?_)
    match a with
    | ⟨0, _⟩ => show win1_1.index t (0 : Fin 2) * 2000 + 1 * p.val = win1_3.index t (0 : Fin 2) * 2000 + 1 * p.val; omega
    | ⟨1, _⟩ => show win1_1.index t (1 : Fin 2) * 1 + 1 * 0 = 0; omega
  · -- the lane's bias: window 2 is the whole one-row array, the output's lanes start at lane 0
    show V c main_v28 (((cfg1.win 2).blk t).view.emb (ix2 (0 : Fin 1) q))
      = V c main_v28 (ix2 (0 : Fin 1) ((((cfg1.win 3).blk t).view.emb (ix2 p q)) 1))
    refine congrArg (V c main_v28) (funext fun a => Fin.ext ?_)
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega

/-- Every index of the output array lies in the block of the point its row falls in: row `r` in that of point `r / 2000`. -/
theorem covered1_3 (i : S100000x64.Idx) :
    ∃ t : Fin cfg1.N, (cfg1.win 3).flush t = true ∧ i ∈ ((cfg1.win 3).blk t).view.set := by
  have hN : cfg1.N = 50 := N_1
  have hi0 : (i 0).val < 100000 := (i 0).isLt
  have hi1 : (i 1).val < 64 := (i 1).isLt
  let t : Fin cfg1.N := ⟨(i 0).val / 2000, by rw [hN]; omega⟩
  obtain ⟨e00, e01, e10, e11, e20, e21, e30, e31⟩ := idx_facts1 t
  have ht : t.val = (i 0).val / 2000 := rfl
  refine ⟨t, flush1_3 t, ?_⟩
  show i ∈ ((View.whole main_v29).slice (win1_3.rect t)).set
  rw [View.set_slice_whole, Rect.mem_set_unit]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 64 ≤ (i 1).val ∧ (i 1).val < win1_3.index t (1 : Fin 2) * 64 + 64
    omega

/-- After its 50 points region 1's output array holds the layer: every aggregated entry times its row's factor, plus
    its lane's bias, clamped below at zero. -/
theorem arr1_3 (c : Dev nD) :
    ((dat1 (F := Ideal) V c).arrAt 3 cfg1.N : Vec Ideal S100000x64 .f32)
      = Cert.Spec.biasRelu (V c main_v27) (V c main_v16) (V c main_v28) :=
  (dat1 (F := Ideal) V c).arrAt_eq_of_cover 3 (Cert.Spec.biasRelu (V c main_v27) (V c main_v16) (V c main_v28))
    (fun t _ => flushed1_3_eq V c t) covered1_3

end Cert.KernelIdeal.Hand

end
-- ==== Proof.KI.Val2.lean ====
/-
  Region 2, read as one function of whole arrays: after its 50 points the output array holds, at row n and
  column q, the sum over k of the hidden table's entry (n, k) times the weight table's entry (k, q), times the
  row's factor. Point t works on rows 2000 t … 2000 t + 1999: it multiplies that block of rows by the whole
  64 by 64 weight table into a zero accumulator (narrowing to sixteen bits is the identity over the extended
  reals), spreads the rows' factor column along the 64 lanes, multiplies entry by entry and writes the block
  back. The 50 row blocks tile the 100000 rows, so every entry of the array is some point's.
-/
import proofs.«404283_j8701603742240_1_alg».proof.Proof.KI.R2
import proofs.«404283_j8701603742240_1_alg».proof.Proof.Spec
import proofs.«404283_j8701603742240_1_alg».proof.Proof.LibDot
import proofs.«404283_j8701603742240_1_alg».proof.Proof.LibRowsCols
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The zero offsets of a whole-block rectangle, however they are spelt. -/
theorem zeroOffsets2 : (![0, 0] : Fin 2 → Nat) = fun _ => 0 := funext fun a => by fin_cases a <;> rfl

/-- The product's dimension record contracts the left operand's columns against the right operand's rows. -/
theorem rowsCols2 : Cert.Lib.Dot.IsRowsCols dot_S2000x64_S64x64_S2000x64_1_0_0_1_n_n :=
  ⟨rfl, rfl, rfl, rfl, rfl, rfl⟩

/-- The body's payload at row `r`, column `q` of its block: the row of the first operand (recast to its own
    shape, which changes nothing) times the column of the weights, summed over the 64 shared coordinates, times
    the row's factor. -/
theorem pay2_apply (x0 : Vec Ideal S2000x64 .f32) (x1 : Vec Ideal S64x64 .f32) (x2 : Vec Ideal S2000x1 .f32)
    (r : Fin 2000) (q : Fin 64) :
    k2_pay1 x0 x1 x2 (ix2 r q) = (∑ k : Fin 64, x0 (ix2 r k) * x1 (ix2 k q)) * x2 (ix2 r (0 : Fin 1)) := by
  unfold k2_pay1
  rw [mulf_apply, shapeCast_self, shapeCast_self]
  refine congrArg₂ (· * ·) ?_ ?_
  · exact Cert.Lib.Dot.matmul0_rc dot_S2000x64_S64x64_S2000x64_1_0_0_1_n_n rowsCols2 _ _ r q
  · exact Idealize.ShloMosaic.RowsCols.broadcastTo_a1_ab_apply x2 broadcasts_S2000x1_S2000x64 r q

/-! ## Where a point's blocks sit in their arrays -/

/-- The printed index maps over the 50 points: the two row-blocked inputs and the output sit at block row `t`,
    block column 0; the weight table is one block. -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Point `t`'s block of the hidden table is its rows 2000 t … 2000 t + 1999. -/
theorem iblk2_0_apply (c : Dev nD) (t : Fin cfg2.N) (x : S2000x64.Idx) (k : S100000x64.Idx)
    (hk0 : (k 0).val = t.val * 2000 + (x 0).val) (hk1 : (k 1).val = (x 1).val) :
    (iblk2 (F := Ideal) V c 0 t : Vec Ideal S2000x64 .f32) x = (V c main_v29 : S100000x64.Idx → Elt Ideal .f32) k := by
  obtain ⟨e0, e1, -⟩ := blockIdx2 t
  unfold iblk2
  rw [View.read_apply]
  show V c main_v29 _ = V c main_v29 _
  congr 1
  funext a
  apply Fin.ext
  match a with
  | ⟨0, _⟩ => show win2_0.index t 0 * 2000 + 1 * (x 0).val = (k 0).val; rw [e0, hk0]; omega
  | ⟨1, _⟩ => show win2_0.index t 1 * 64 + 1 * (x 1).val = (k 1).val; rw [e1, hk1]; omega

/-- Every point's block of the weight table is the table. -/
theorem iblk2_1_apply (c : Dev nD) (t : Fin cfg2.N) (x : S64x64.Idx) :
    (iblk2 (F := Ideal) V c 1 t : Vec Ideal S64x64 .f32) x = (V c main_arg5 : S64x64.Idx → Elt Ideal .f32) x := by
  obtain ⟨-, -, e0, e1, -⟩ := blockIdx2 t
  unfold iblk2
  rw [View.read_apply]
  show V c main_arg5 _ = V c main_arg5 _
  congr 1
  funext a
  apply Fin.ext
  match a with
  | ⟨0, _⟩ => show win2_1.index t 0 * 64 + 1 * (x 0).val = (x 0).val; rw [e0]; omega
  | ⟨1, _⟩ => show win2_1.index t 1 * 64 + 1 * (x 1).val = (x 1).val; rw [e1]; omega

/-- Point `t`'s block of the factor column is its rows 2000 t … 2000 t + 1999. -/
theorem iblk2_2_apply (c : Dev nD) (t : Fin cfg2.N) (x : S2000x1.Idx) (k : S100000x1.Idx)
    (hk0 : (k 0).val = t.val * 2000 + (x 0).val) (hk1 : (k 1).val = (x 1).val) :
    (iblk2 (F := Ideal) V c 2 t : Vec Ideal S2000x1 .f32) x = (V c main_v14 : S100000x1.Idx → Elt Ideal .f32) k := by
  obtain ⟨-, -, -, -, e0, e1, -⟩ := blockIdx2 t
  unfold iblk2
  rw [View.read_apply]
  show V c main_v14 _ = V c main_v14 _
  congr 1
  funext a
  apply Fin.ext
  match a with
  | ⟨0, _⟩ => show win2_2.index t 0 * 2000 + 1 * (x 0).val = (k 0).val; rw [e0, hk0]; omega
  | ⟨1, _⟩ => show win2_2.index t 1 * 1 + 1 * (x 1).val = (k 1).val; rw [e1, hk1]; omega

/-! ## What a point writes back, and the array after the last point -/

/-- The projection of whole arrays, read at an entry. -/
theorem projScale64_apply (A : Cert.Spec.M 100000 64) (W : Cert.Spec.M 64 64) (S : Cert.Spec.M 100000 1)
    (i : S100000x64.Idx) :
    Cert.Spec.projScale64 A W S i
      = (∑ k : Fin 64, A (ix2 (i 0) k) * W (ix2 k (i 1))) * S (ix2 (i 0) (0 : Fin 1)) := rfl

/-- WHAT POINT `t` WRITES BACK is block `t` of the projection of the whole arrays: at row `r`, column `q` of the
    block, the payload is the sum over the shared coordinate of the block's row times the weights' column, times
    the block's factor; the block's row `r` is the array's row 2000 t + r, which is where the output's rectangle
    puts (r, q). -/
theorem flushed2_3_eq (c : Dev nD) (t : Fin cfg2.N) :
    (dat2 (F := Ideal) V c).flushed 3 t
      = ((cfg2.win 3).blk t).view.read (Elt Ideal)
          (Cert.Spec.projScale64 (V c main_v29) (V c main_arg5) (V c main_v14)) := by
  show (cfg2.win 3).cut (grid2.coords t) ((dat2 (F := Ideal) V c).after 3 t) = _
  rw [after2_3]
  unfold out2_3
  rw [View.canon_unit_zero zeroOffsets2]
  simp only [View.ld_unit_zero (S := S2000x64) zeroOffsets2, View.ld_unit_zero (S := S64x64) zeroOffsets2,
    View.ld_unit_zero (S := S2000x1) zeroOffsets2]
  obtain ⟨-, -, -, -, -, -, e0, e1⟩ := blockIdx2 t
  funext j
  obtain ⟨r, q, rfl⟩ : ∃ (r : Fin 2000) (q : Fin 64), j = ix2 r q := ⟨j 0, j 1, eq_ix2 j⟩
  refine (pay2_apply _ _ _ r q).trans ?_
  -- where the output's rectangle puts (r, q)
  have p0 : ((((cfg2.win 3).blk t).view.emb (ix2 r q) : S100000x64.Idx) 0).val = t.val * 2000 + r.val := by
    show win2_3.index t 0 * 2000 + 1 * r.val = _; rw [e0]; omega
  have p1 : ((((cfg2.win 3).blk t).view.emb (ix2 r q) : S100000x64.Idx) 1).val = q.val := by
    show win2_3.index t 1 * 64 + 1 * q.val = _; rw [e1]; omega
  refine Eq.trans ?_ (projScale64_apply _ _ _ (((cfg2.win 3).blk t).view.emb (ix2 r q))).symm
  refine congrArg₂ (· * ·) (Finset.sum_congr rfl fun k _ => congrArg₂ (· * ·) ?_ ?_) ?_
  · exact iblk2_0_apply V c t (ix2 r k) _ p0 rfl
  · refine (iblk2_1_apply V c t (ix2 k q)).trans (congrArg _ ?_)
    funext a; apply Fin.ext
    match a with
    | ⟨0, _⟩ => rfl
    | ⟨1, _⟩ => exact p1.symm
  · exact iblk2_2_apply V c t (ix2 r (0 : Fin 1)) _ p0 rfl

/-- An entry of the output array is in point `t`'s block iff each coordinate is in the block's range on its axis. -/
theorem mem_blk2_3 (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v30).slice (win2_3.rect t)).set ↔ _
  rw [View.set_slice_whole, Rect.mem_set_unit]
  exact Iff.rfl

/-- Every entry of the output array is in the block of the point its row falls to: row `n` is point `n / 2000`'s. -/
theorem cover2_3_arr (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hlt : (i 0).val / 2000 < cfg2.N := by rw [show cfg2.N = 50 from N_2]; omega
  obtain ⟨-, -, -, -, -, -, e0, e1⟩ := blockIdx2 ⟨(i 0).val / 2000, hlt⟩
  refine ⟨⟨(i 0).val / 2000, hlt⟩, flush2_3 _, ?_⟩
  rw [mem_blk2_3]
  intro a
  match a with
  | ⟨0, _⟩ =>
    show win2_3.index ⟨(i 0).val / 2000, hlt⟩ 0 * 2000 ≤ (i 0).val
      ∧ (i 0).val < win2_3.index ⟨(i 0).val / 2000, hlt⟩ 0 * 2000 + 2000
    rw [e0]
    show (i 0).val / 2000 * 2000 ≤ (i 0).val ∧ (i 0).val < (i 0).val / 2000 * 2000 + 2000
    omega
  | ⟨1, _⟩ =>
    show win2_3.index ⟨(i 0).val / 2000, hlt⟩ 1 * 64 ≤ (i 1).val
      ∧ (i 1).val < win2_3.index ⟨(i 0).val / 2000, hlt⟩ 1 * 64 + 64
    rw [e1]
    omega

/-- THE OUTPUT ARRAY after the region's 50 points: the second layer's projection of the whole arrays. -/
theorem arr2_3 (c : Dev nD) :
    ((dat2 (F := Ideal) V c).arrAt 3 cfg2.N : Vec Ideal S100000x64 .f32)
      = Cert.Spec.projScale64 (V c main_v29) (V c main_arg5) (V c main_v14) :=
  (dat2 (F := Ideal) V c).arrAt_eq_of_cover 3
    (Cert.Spec.projScale64 (V c main_v29) (V c main_arg5) (V c main_v14))
    (fun t _ => flushed2_3_eq V c t) cover2_3_arr

end Cert.KernelIdeal.Hand

end
-- ==== Proof.KI.Val3.lean ====
/-
  What region 3 leaves in its output array. It is the second layer's copy of region 1: the same body (every aggregated
  row times its row's factor, plus the bias row, clamped below at zero) on the second layer's aggregated rows and bias
  row, over the same 50 row blocks of 2000 rows. So the array ends holding the same function of its three whole input
  arrays at every index.
-/
import proofs.«404283_j8701603742240_1_alg».proof.Proof.KI.R3
import proofs.«404283_j8701603742240_1_alg».proof.Proof.KI.Val1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- Region 3's body stores the same function of its three loaded blocks as region 1's. -/
theorem k3_pay1_eq (x0 : Vec Ideal S2000x64 .f32) (x1 : Vec Ideal S2000x1 .f32) (x2 : Vec Ideal S1x64 .f32) :
    k3_pay1 (F := Ideal) x0 x1 x2 = k1_pay1 (F := Ideal) x0 x1 x2 := rfl

/-- The printed index maps over the 50 points: windows 0, 1 and the output sit at row block `t`, lane block 0; the
    bias row's window does not move. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point `t` writes back is block `t` of the layer's value on the three whole input arrays. -/
theorem flushed3_3_eq (c : Dev nD) (t : Fin cfg3.N) :
    (dat3 (F := Ideal) V c).flushed 3 t
      = ((cfg3.win 3).blk t).view.read (Elt Ideal) (Cert.Spec.biasRelu (V c main_v40) (V c main_v16) (V c main_v41)) := by
  show (cfg3.win 3).cut (grid3.coords t) ((dat3 (F := Ideal) V c).after 3 t) = _
  rw [after3_3]
  unfold out3_3
  rw [View.canon_unit_zero zero_offsets2]
  simp only [View.ld_unit_zero (S := S2000x64) zero_offsets2, View.ld_unit_zero (S := S2000x1) zero_offsets2,
    View.ld_unit_zero (S := S1x64) zero_offsets2]
  rw [k3_pay1_eq]
  obtain ⟨e00, e01, e10, e11, e20, e21, e30, e31⟩ := idx_facts3 t
  funext j
  obtain ⟨p, q, rfl⟩ : ∃ (p : Fin 2000) (q : Fin 64), j = ix2 p q := ⟨j 0, j 1, eq_ix2 j⟩
  show k1_pay1 (F := Ideal) (iblk3 V c 0 t) (iblk3 V c 1 t) (iblk3 V c 2 t) (ix2 p q)
    = Cert.Spec.biasRelu (V c main_v40) (V c main_v16) (V c main_v41) (((cfg3.win 3).blk t).view.emb (ix2 p q))
  refine biasRelu_point (V c main_v40) (V c main_v16) (V c main_v41) _ _ _ p q _ ?_ ?_ ?_
  · -- the aggregated entry: windows 0 and 3 sit at the same rows and lanes
    show V c main_v40 (((cfg3.win 0).blk t).view.emb (ix2 p q)) = V c main_v40 (((cfg3.win 3).blk t).view.emb (ix2 p q))
    refine congrArg (V c main_v40) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 64 + 1 * q.val = win3_3.index t (1 : Fin 2) * 64 + 1 * q.val; omega
  · -- the row's factor: window 1 sits at the same rows, its one lane is lane 0
    show V c main_v16 (((cfg3.win 1).blk t).view.emb (ix2 p (0 : Fin 1)))
      = V c main_v16 (ix2 ((((cfg3.win 3).blk t).view.emb (ix2 p q)) 0) (0 : Fin 1))
    refine congrArg (V c main_v16) (funext fun a => Fin.ext ?_)
    match a with
    | ⟨0, _⟩ => show win3_1.index t (0 : Fin 2) * 2000 + 1 * p.val = win3_3.index t (0 : Fin 2) * 2000 + 1 * p.val; omega
    | ⟨1, _⟩ => show win3_1.index t (1 : Fin 2) * 1 + 1 * 0 = 0; omega
  · -- the lane's bias: window 2 is the whole one-row array, the output's lanes start at lane 0
    show V c main_v41 (((cfg3.win 2).blk t).view.emb (ix2 (0 : Fin 1) q))
      = V c main_v41 (ix2 (0 : Fin 1) ((((cfg3.win 3).blk t).view.emb (ix2 p q)) 1))
    refine congrArg (V c main_v41) (funext fun a => Fin.ext ?_)
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega

/-- Every index of the output array lies in the block of the point its row falls in: row `r` in that of point `r / 2000`. -/
theorem covered3_3 (i : S100000x64.Idx) :
    ∃ t : Fin cfg3.N, (cfg3.win 3).flush t = true ∧ i ∈ ((cfg3.win 3).blk t).view.set := by
  have hN : cfg3.N = 50 := N_3
  have hi0 : (i 0).val < 100000 := (i 0).isLt
  have hi1 : (i 1).val < 64 := (i 1).isLt
  let t : Fin cfg3.N := ⟨(i 0).val / 2000, by rw [hN]; omega⟩
  obtain ⟨e00, e01, e10, e11, e20, e21, e30, e31⟩ := idx_facts3 t
  have ht : t.val = (i 0).val / 2000 := rfl
  refine ⟨t, flush3_3 t, ?_⟩
  show i ∈ ((View.whole main_v42).slice (win3_3.rect t)).set
  rw [View.set_slice_whole, Rect.mem_set_unit]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 64 ≤ (i 1).val ∧ (i 1).val < win3_3.index t (1 : Fin 2) * 64 + 64
    omega

/-- After its 50 points region 3's output array holds the layer: every aggregated entry times its row's factor, plus
    its lane's bias, clamped below at zero. -/
theorem arr3_3 (c : Dev nD) :
    ((dat3 (F := Ideal) V c).arrAt 3 cfg3.N : Vec Ideal S100000x64 .f32)
      = Cert.Spec.biasRelu (V c main_v40) (V c main_v16) (V c main_v41) :=
  (dat3 (F := Ideal) V c).arrAt_eq_of_cover 3 (Cert.Spec.biasRelu (V c main_v40) (V c main_v16) (V c main_v41))
    (fun t _ => flushed3_3_eq V c t) covered3_3

end Cert.KernelIdeal.Hand

end
-- ==== Proof.KI.Val4.lean ====
/-
  Region 4 of the program, read as values: what its two output arrays hold after the region's 50 points.
  The gate array, at row n, holds the logistic function of the sum over the 64 lanes of row n of the node table times the
  gate's weight row, plus the gate's bias; the gated table, at (n, q), holds the node table's entry times row n's gate.
  Each point writes back rows 2000 t … 2000 t + 1999 of both; the 50 row blocks tile the 100000 rows.
-/
import proofs.«404283_j8701603742240_1_alg».proof.Proof.KI.R4
import proofs.«404283_j8701603742240_1_alg».proof.Proof.Spec
import proofs.«404283_j8701603742240_1_alg».proof.Proof.LibRowsCols
import Idealize.ShloMosaic.Lib.Pipeline.Value
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.RowsCols
open Idealize.SL.Sem
open Idealize.ShloMosaic.Pipeline (Dat Cfg Window)

variable (V : (c : Dev nD) → (b : Ref sig .tc) → Buf (Elt Ideal) ((c : Thread nD τ).loc b))

/-! ## The body's two stored values at an index of the block -/

/-- A `[1, b]` row spread down `a` rows reads, at `(i, j)`, the row's entry `j`. -/
theorem rowSpread4_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The logistic function of a vector reads, at an index, the logistic function of the entry. -/
theorem logistic4_apply {s : Shape} {φ : FTy} (v : FVec Ideal s φ) (i : s.Idx) : logistic v i = Ideal.logistic (v i) := rfl

/-- The gate of row `p` of the block: the logistic function of the lane sum of the row times the weight row, plus the bias. -/
theorem gate_pay_apply (x0 : Vec Ideal S2000x64 .f32) (x1 : Vec Ideal S1x64 .f32) (x2 : Vec Ideal S1x1 .f32) (p : Fin 2000) (u : Fin 1) :
    k4_pay2 x0 x1 x2 (ix2 p u)
      = Ideal.logistic ((∑ k : Fin 64, x0 (ix2 p k) * x1 (ix2 (0 : Fin 1) k)) + x2 (ix2 (0 : Fin 1) (0 : Fin 1))) := by
  obtain rfl : u = 0 := Subsingleton.elim _ _
  unfold k4_pay2 k4_pay1
  rw [logistic4_apply, addf_apply]
  refine congrArg Ideal.logistic (congrArg₂ (· + ·) ?_ ?_)
  · refine (shapeCast_a_a1_apply _ _ p (0 : Fin 1)).trans ?_
    refine (laneSum_apply _ _ _ _ _ p).trans ?_
    refine Finset.sum_congr rfl fun k _ => ?_
    rw [mulf_apply, shapeCast_self, shapeCast_self, rowSpread4_apply]
  · rw [shapeCast_self]
    exact rowSpread4_apply _ _ p (0 : Fin 1)

/-- The gated entry `(p, q)` of the block: the block's entry times row `p`'s gate. -/
theorem gated_pay_apply (x0 : Vec Ideal S2000x64 .f32) (x1 : Vec Ideal S1x64 .f32) (x2 : Vec Ideal S1x1 .f32) (p : Fin 2000) (q : Fin 64) :
    k4_pay3 x0 x1 x2 (ix2 p q) = x0 (ix2 p q) * k4_pay2 x0 x1 x2 (ix2 p (0 : Fin 1)) := by
  unfold k4_pay3 k4_pay1
  rw [mulf_apply, shapeCast_self, broadcastTo_a1_ab_apply]

/-! ## The blocks as rows of their arrays -/

theorem hz4 : (![0, 0] : Fin 2 → Nat) = fun _ => 0 := funext fun a => by fin_cases a <;> rfl

/-- The printed index maps over the grid: a row-blocked window sits at block row `t`, a whole one at block 0. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Row `2000 t + p` is a row of the table. -/
theorem row_lt4 (t : Fin cfg4.N) (p : Fin 2000) : 2000 * t.val + p.val < 100000 := by
  have ht : t.val < 50 := lt_of_lt_of_eq t.isLt N_4
  have hp := p.isLt
  omega

/-- The node table's block at point `t` is its rows `2000 t … 2000 t + 1999`. -/
theorem iblk4_0_apply (c : Dev nD) (t : Fin cfg4.N) (p : Fin 2000) (k : Fin 64) :
    (iblk4 V c 0 t : Vec Ideal S2000x64 .f32) (ix2 p k)
      = (V c main_v42 : S100000x64.Idx → Elt Ideal .f32) (ix2 (⟨2000 * t.val + p.val, row_lt4 t p⟩ : Fin 100000) k) := by
  obtain ⟨e0, e1, -⟩ := idx_facts4 t
  unfold iblk4
  rw [View.read_apply]
  show V c main_v42 _ = V c main_v42 _
  congr 1
  funext a; apply Fin.ext
  match a with
  | ⟨0, _⟩ => show win4_0.index t (0 : Fin 2) * 2000 + 1 * p.val = 2000 * t.val + p.val; rw [e0]; omega
  | ⟨1, _⟩ => show win4_0.index t (1 : Fin 2) * 64 + 1 * k.val = k.val; rw [e1]; omega

/-- The weight row's block at every point is the whole row. -/
theorem iblk4_1_eq (c : Dev nD) (t : Fin cfg4.N) : (iblk4 V c 1 t : Vec Ideal S1x64 .f32) = V c main_v43 := by
  obtain ⟨-, -, e0, e1, -⟩ := idx_facts4 t
  unfold iblk4
  funext y
  rw [View.read_apply]
  show V c main_v43 _ = V c main_v43 y
  congr 1
  funext a; apply Fin.ext
  match a with
  | ⟨0, _⟩ => show win4_1.index t (0 : Fin 2) * 1 + 1 * (y 0).val = (y 0).val; rw [e0]; omega
  | ⟨1, _⟩ => show win4_1.index t (1 : Fin 2) * 64 + 1 * (y 1).val = (y 1).val; rw [e1]; omega

/-- The bias's block at every point is the whole one-entry table. -/
theorem iblk4_2_eq (c : Dev nD) (t : Fin cfg4.N) : (iblk4 V c 2 t : Vec Ideal S1x1 .f32) = V c main_v44 := by
  obtain ⟨-, -, -, -, e0, e1, -⟩ := idx_facts4 t
  unfold iblk4
  funext y
  rw [View.read_apply]
  show V c main_v44 _ = V c main_v44 y
  congr 1
  funext a; apply Fin.ext
  match a with
  | ⟨0, _⟩ => show win4_2.index t (0 : Fin 2) * 1 + 1 * (y 0).val = (y 0).val; rw [e0]; omega
  | ⟨1, _⟩ => show win4_2.index t (1 : Fin 2) * 1 + 1 * (y 1).val = (y 1).val; rw [e1]; omega

/-- Entry `(p, u)` of the gate array's block at point `t` is the array's entry `(2000 t + p, u)`. -/
theorem emb4_3 (t : Fin cfg4.N) (p : Fin 2000) (u : Fin 1) :
    ((cfg4.win 3).blk t).view.emb (ix2 p u) = (ix2 (⟨2000 * t.val + p.val, row_lt4 t p⟩ : Fin 100000) u : S100000x1.Idx) := by
  obtain ⟨-, -, -, -, -, -, e0, e1, -⟩ := idx_facts4 t
  funext a; apply Fin.ext
  match a with
  | ⟨0, _⟩ => show win4_3.index t (0 : Fin 2) * 2000 + 1 * p.val = 2000 * t.val + p.val; rw [e0]; omega
  | ⟨1, _⟩ => show win4_3.index t (1 : Fin 2) * 1 + 1 * u.val = u.val; rw [e1]; omega

/-- Entry `(p, q)` of the gated table's block at point `t` is the table's entry `(2000 t + p, q)`. -/
theorem emb4_4 (t : Fin cfg4.N) (p : Fin 2000) (q : Fin 64) :
    ((cfg4.win 4).blk t).view.emb (ix2 p q) = (ix2 (⟨2000 * t.val + p.val, row_lt4 t p⟩ : Fin 100000) q : S100000x64.Idx) := by
  obtain ⟨-, -, -, -, -, -, -, -, e0, e1⟩ := idx_facts4 t
  funext a; apply Fin.ext
  match a with
  | ⟨0, _⟩ => show win4_4.index t (0 : Fin 2) * 2000 + 1 * p.val = 2000 * t.val + p.val; rw [e0]; omega
  | ⟨1, _⟩ => show win4_4.index t (1 : Fin 2) * 64 + 1 * q.val = q.val; rw [e1]; omega

/-! ## What each point writes back -/

/-- The gate of a block's row whose entries are a table row's is that table row's gate. -/
theorem gate_of_rows (A : Cert.Spec.M 100000 64) (W : Cert.Spec.M 1 64) (B : Cert.Spec.M 1 1) (x0 : Vec Ideal S2000x64 .f32)
    (p : Fin 2000) (u : Fin 1) (n : Fin 100000) (v : Fin 1) (hx : ∀ k : Fin 64, x0 (ix2 p k) = A (ix2 n k)) :
    k4_pay2 x0 W B (ix2 p u) = Cert.Spec.gateW A W B (ix2 n v) := by
  rw [gate_pay_apply]
  unfold Cert.Spec.gateW
  refine congrArg Ideal.logistic (congrArg₂ (· + ·) (Finset.sum_congr rfl fun k _ => ?_) rfl)
  rw [hx k]

/-- Point `t` writes back, to the gate array, its rows `2000 t … 2000 t + 1999` of the gates of the node table's rows. -/
theorem flushed4_3_eq (c : Dev nD) (t : Fin cfg4.N) :
    (dat4 V c).flushed 3 t
      = ((cfg4.win 3).blk t).view.read (Elt Ideal) (Cert.Spec.gateW (V c main_v42) (V c main_v43) (V c main_v44)) := by
  show (cfg4.win 3).cut (grid4.coords t) ((dat4 V c).after 3 t) = _
  rw [after4_3]
  unfold out4_3
  rw [View.canon_unit_zero hz4]
  simp only [View.ld_unit_zero (S := S2000x64) hz4, View.ld_unit_zero (S := S1x64) hz4, View.ld_unit_zero (S := S1x1) hz4]
  funext j
  obtain ⟨p, u, rfl⟩ : ∃ (p : Fin 2000) (u : Fin 1), j = ix2 p u := ⟨j 0, j 1, eq_ix2 j⟩
  rw [View.read_apply]
  show k4_pay2 (iblk4 V c 0 t) (iblk4 V c 1 t) (iblk4 V c 2 t) (ix2 p u)
    = Cert.Spec.gateW (V c main_v42) (V c main_v43) (V c main_v44) (((cfg4.win 3).blk t).view.emb (ix2 p u))
  rw [emb4_3, iblk4_1_eq, iblk4_2_eq]
  exact gate_of_rows _ _ _ _ p u _ u fun k => iblk4_0_apply V c t p k

/-- A gated entry of a block whose row is a table row's, gated by that row's gate, is the gated table's entry. -/
theorem gated_of_rows (A : Cert.Spec.M 100000 64) (W : Cert.Spec.M 1 64) (B : Cert.Spec.M 1 1) (x0 : Vec Ideal S2000x64 .f32)
    (p : Fin 2000) (q : Fin 64) (n : Fin 100000) (hx : ∀ k : Fin 64, x0 (ix2 p k) = A (ix2 n k)) :
    k4_pay3 x0 W B (ix2 p q) = Cert.Spec.gated A (Cert.Spec.gateW A W B) (ix2 n q) := by
  rw [gated_pay_apply, gate_of_rows A W B x0 p (0 : Fin 1) n (0 : Fin 1) hx, hx q]
  rfl

/-- Point `t` writes back, to the gated table, its rows `2000 t … 2000 t + 1999` of the node table's rows times their gates. -/
theorem flushed4_4_eq (c : Dev nD) (t : Fin cfg4.N) :
    (dat4 V c).flushed 4 t
      = ((cfg4.win 4).blk t).view.read (Elt Ideal)
          (Cert.Spec.gated (V c main_v42) (Cert.Spec.gateW (V c main_v42) (V c main_v43) (V c main_v44))) := by
  show (cfg4.win 4).cut (grid4.coords t) ((dat4 V c).after 4 t) = _
  rw [after4_4]
  unfold out4_4
  rw [View.canon_unit_zero hz4]
  simp only [View.ld_unit_zero (S := S2000x64) hz4, View.ld_unit_zero (S := S1x64) hz4, View.ld_unit_zero (S := S1x1) hz4]
  funext j
  obtain ⟨p, q, rfl⟩ : ∃ (p : Fin 2000) (q : Fin 64), j = ix2 p q := ⟨j 0, j 1, eq_ix2 j⟩
  rw [View.read_apply]
  show k4_pay3 (iblk4 V c 0 t) (iblk4 V c 1 t) (iblk4 V c 2 t) (ix2 p q)
    = Cert.Spec.gated (V c main_v42) (Cert.Spec.gateW (V c main_v42) (V c main_v43) (V c main_v44)) (((cfg4.win 4).blk t).view.emb (ix2 p q))
  rw [emb4_4, iblk4_1_eq, iblk4_2_eq]
  exact gated_of_rows _ _ _ _ p q _ fun k => iblk4_0_apply V c t p k

/-! ## The row blocks tile the arrays -/

/-- Row `r` of the gate array is in the block of point `r / 2000`. -/
theorem rows_cover4_3 (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  have hN : cfg4.N = 50 := N_4
  have ht : (i 0).val / 2000 < cfg4.N := by rw [hN]; omega
  obtain ⟨-, -, -, -, -, -, e0, e1, -⟩ := idx_facts4 ⟨(i 0).val / 2000, ht⟩
  refine ⟨⟨(i 0).val / 2000, ht⟩, flush4_3 _, ?_⟩
  show i ∈ ((View.whole main_v45_0).slice (win4_3.rect ⟨(i 0).val / 2000, ht⟩)).set
  rw [View.set_slice_whole, Rect.mem_set_unit]
  intro a
  match a with
  | ⟨0, _⟩ =>
    show win4_3.index ⟨(i 0).val / 2000, ht⟩ (0 : Fin 2) * 2000 ≤ (i 0).val
      ∧ (i 0).val < win4_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_3.index ⟨(i 0).val / 2000, ht⟩ (1 : Fin 2) * 1 ≤ (i 1).val
      ∧ (i 1).val < win4_3.index ⟨(i 0).val / 2000, ht⟩ (1 : Fin 2) * 1 + 1
    rw [e1]; omega

/-- Row `r` of the gated table is in the block of point `r / 2000`. -/
theorem rows_cover4_4 (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 50 := N_4
  have ht : (i 0).val / 2000 < cfg4.N := by rw [hN]; omega
  obtain ⟨-, -, -, -, -, -, -, -, e0, e1⟩ := idx_facts4 ⟨(i 0).val / 2000, ht⟩
  refine ⟨⟨(i 0).val / 2000, ht⟩, flush4_4 _, ?_⟩
  show i ∈ ((View.whole main_v45_1).slice (win4_4.rect ⟨(i 0).val / 2000, ht⟩)).set
  rw [View.set_slice_whole, Rect.mem_set_unit]
  intro a
  match a with
  | ⟨0, _⟩ =>
    show win4_4.index ⟨(i 0).val / 2000, ht⟩ (0 : Fin 2) * 2000 ≤ (i 0).val
      ∧ (i 0).val < win4_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_4.index ⟨(i 0).val / 2000, ht⟩ (1 : Fin 2) * 64 ≤ (i 1).val
      ∧ (i 1).val < win4_4.index ⟨(i 0).val / 2000, ht⟩ (1 : Fin 2) * 64 + 64
    rw [e1]; omega

/-! ## The two arrays after the region -/

/-- The gate array after the region's 50 points: the gate of every row of the node table. -/
theorem arr4_3 (c : Dev nD) :
    ((dat4 (F := Ideal) V c).arrAt 3 cfg4.N : Vec Ideal S100000x1 .f32)
      = Cert.Spec.gateW (V c main_v42) (V c main_v43) (V c main_v44) :=
  (dat4 V c).arrAt_eq_of_cover 3 (Cert.Spec.gateW (V c main_v42) (V c main_v43) (V c main_v44))
    (fun t _ => flushed4_3_eq V c t) rows_cover4_3

/-- The gated table after the region's 50 points: every row of the node table times its gate. -/
theorem arr4_4 (c : Dev nD) :
    ((dat4 (F := Ideal) V c).arrAt 4 cfg4.N : Vec Ideal S100000x64 .f32)
      = Cert.Spec.gated (V c main_v42) (Cert.Spec.gateW (V c main_v42) (V c main_v43) (V c main_v44)) :=
  (dat4 V c).arrAt_eq_of_cover 4
    (Cert.Spec.gated (V c main_v42) (Cert.Spec.gateW (V c main_v42) (V c main_v43) (V c main_v44)))
    (fun t _ => flushed4_4_eq V c t) rows_cover4_4

end Cert.KernelIdeal.Hand

end
-- ==== Proof.KI.Val5.lean ====
/-
  What region 5 leaves in its output array. The output window's one block is the whole 64 x 10 array; it is idle
  until the last of the 50 points, which divides each graph's row of accumulated sums by the graph's node count (a
  one-entry column spread across the 64 lanes), multiplies by the classifier's weights, adds the bias row (spread
  down the 64 sublanes) and stores the block; only that point writes the block back. So the array ends holding the
  classifier applied to whatever the accumulator holds after the last point, with the three small operands read
  whole off their arrays.
-/
import proofs.«404283_j8701603742240_1_alg».proof.Proof.KI.R5
import proofs.«404283_j8701603742240_1_alg».proof.Proof.Spec
import proofs.«404283_j8701603742240_1_alg».proof.Proof.LibDot
import proofs.«404283_j8701603742240_1_alg».proof.Proof.LibRowsCols
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The dimension record of the classifier's product: rows by columns, no batch axis. -/
theorem classifierDot_rowsCols : Cert.Lib.Dot.IsRowsCols dot_S64x64_S64x10_S64x10_1_0_0_1_n_n :=
  ⟨rfl, rfl, rfl, rfl, rfl, rfl⟩

/-- The last point's stored value at graph `g`, class `k`: the sum over the 64 hidden entries of the graph's
    accumulated entry divided by the graph's node count, times the classifier's weight, plus the class's bias. -/
theorem k5_pay3_apply (s : Vec Ideal S64x64 .f32) (cnt : Vec Ideal S64x1 .f32) (cw : Vec Ideal S64x10 .f32)
    (cb : Vec Ideal S1x10 .f32) (g : Fin 64) (k : Fin 10) :
    k5_pay3 (F := Ideal) s cnt cw cb (ix2 g k)
      = (∑ d : Fin 64, Ideal.div (s (ix2 g d)) (cnt (ix2 g (0 : Fin 1))) * cw (ix2 d k)) + cb (ix2 (0 : Fin 1) k) := by
  unfold k5_pay3
  show matmul (F := Ideal) dot_S64x64_S64x10_S64x10_1_0_0_1_n_n none
        (truncf .bf16 (divf s (broadcastTo S64x64 (shapeCast S64x1 cnt shapeCasts_S64x1_S64x1) broadcasts_S64x1_S64x64))
          bitsLt_bf16_f32)
        (truncf .bf16 cw bitsLt_bf16_f32) (constant S64x10 .f32 0x00000000#32) (ix2 g k)
      + (broadcastTo S64x10 (shapeCast S1x10 cb shapeCasts_S1x10_S1x10) broadcasts_S1x10_S64x10) (ix2 g k) = _
  rw [shapeCast_self, shapeCast_self]
  refine congrArg₂ (· + ·) ?_ ?_
  · refine (Cert.Lib.Dot.matmul0_rc dot_S64x64_S64x10_S64x10_1_0_0_1_n_n classifierDot_rowsCols _ _ g k).trans ?_
    refine Finset.sum_congr rfl fun d _ => ?_
    show Ideal.div (s (ix2 g d)) (broadcastTo S64x64 cnt broadcasts_S64x1_S64x64 (ix2 g d)) * cw (ix2 d k) = _
    rw [RowsCols.broadcastTo_a1_ab_apply cnt broadcasts_S64x1_S64x64 g d]
  · exact broadcastTo_1b_ab_apply cb broadcasts_S1x10_S64x10 g k

/-- One entry of the block against the whole arrays: if the block entries the last point reads for graph `g`, class
    `k` are the arrays' entries for array index `i` (row `i 0` of the sums and of the counts, column `i 1` of the
    weights and of the bias), then what it stores there is the classifier's value at `i`. -/
theorem classify_point (S : Cert.Spec.M 64 64) (A2 : Cert.Spec.M 64 1) (A3 : Cert.Spec.M 64 10) (A4 : Cert.Spec.M 1 10)
    (s : Vec Ideal S64x64 .f32) (cnt : Vec Ideal S64x1 .f32) (cw : Vec Ideal S64x10 .f32) (cb : Vec Ideal S1x10 .f32)
    (g : Fin 64) (k : Fin 10) (i : S64x10.Idx)
    (hs : ∀ d : Fin 64, s (ix2 g d) = S (ix2 (i 0) d))
    (hc : cnt (ix2 g (0 : Fin 1)) = A2 (ix2 (i 0) (0 : Fin 1)))
    (hw : ∀ d : Fin 64, cw (ix2 d k) = A3 (ix2 d (i 1)))
    (hb : cb (ix2 (0 : Fin 1) k) = A4 (ix2 (0 : Fin 1) (i 1))) :
    k5_pay3 (F := Ideal) s cnt cw cb (ix2 g k) = Cert.Spec.classify S A2 A3 A4 i := by
  rw [k5_pay3_apply, hc, hb]
  show _ = (∑ d : Fin 64, Ideal.div (S (ix2 (i 0) d)) (A2 (ix2 (i 0) (0 : Fin 1))) * A3 (ix2 d (i 1)))
    + A4 (ix2 (0 : Fin 1) (i 1))
  refine congrArg (· + A4 (ix2 (0 : Fin 1) (i 1))) (Finset.sum_congr rfl fun d _ => ?_)
  rw [hs d, hw d]

/-- The printed index maps of the four small windows over the 50 points: none of them moves. -/
theorem smallWindows_fixed5 : ∀ t : Fin cfg5.N,
    win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

variable (V : (c : Dev nD) → (b : Ref sig .tc) → Buf (Elt Ideal) ((c : Thread nD τ).loc b))

/-- What any point would write back — the output block does not depend on the point, and the output's one block is
    the whole array — is the classifier's value on the accumulator after the last point and the three whole small
    arrays. -/
theorem flushed5_5_eq (c : Dev nD) (S : Cert.Spec.M 64 64)
    (hS : (sAt5 (F := Ideal) V c 49 : Vec Ideal S64x64 .f32) = S) (t : Fin cfg5.N) :
    (dat5 (F := Ideal) V c).flushed 5 t
      = ((cfg5.win 5).blk t).view.read (Elt Ideal)
          (Cert.Spec.classify S (V c main_v58) (V c main_arg9) (V c main_v59)) := by
  show (cfg5.win 5).cut (grid5.coords t) ((dat5 (F := Ideal) V c).after 5 t) = _
  rw [after5_5, out5_eq]
  obtain ⟨-, -, -, -, -, -, e50, e51⟩ := smallWindows_fixed5 t
  obtain ⟨e20, e21, e30, e31, e40, e41, -, -⟩ := smallWindows_fixed5 t49
  funext j
  obtain ⟨g, k, rfl⟩ : ∃ (g : Fin 64) (k : Fin 10), j = ix2 g k := ⟨j 0, j 1, eq_ix2 j⟩
  show k5_pay3 (F := Ideal) (sAt5 V c 49) (iblk5 V c 2 t49) (iblk5 V c 3 t49) (iblk5 V c 4 t49) (ix2 g k)
    = Cert.Spec.classify S (V c main_v58) (V c main_arg9) (V c main_v59) (((cfg5.win 5).blk t).view.emb (ix2 g k))
  refine classify_point S (V c main_v58) (V c main_arg9) (V c main_v59) _ _ _ _ g k _ (fun d => ?_) ?_ (fun d => ?_) ?_
  · -- the accumulated entry: the output's rows start at row 0
    rw [hS]
    refine congrArg S (funext fun a => Fin.ext ?_)
    match a with
    | ⟨0, _⟩ => show g.val = win5_5.index t (0 : Fin 2) * 64 + 1 * g.val; omega
    | ⟨1, _⟩ => rfl
  · -- the graph's node count: window 2 is the whole one-column array
    show V c main_v58 (((cfg5.win 2).blk t49).view.emb (ix2 g (0 : Fin 1)))
      = V c main_v58 (ix2 ((((cfg5.win 5).blk t).view.emb (ix2 g k)) 0) (0 : Fin 1))
    refine congrArg (V c main_v58) (funext fun a => Fin.ext ?_)
    match a with
    | ⟨0, _⟩ => show win5_2.index t49 (0 : Fin 2) * 64 + 1 * g.val = win5_5.index t (0 : Fin 2) * 64 + 1 * g.val; omega
    | ⟨1, _⟩ => show win5_2.index t49 (1 : Fin 2) * 1 + 1 * 0 = 0; omega
  · -- the classifier's weight: window 3 is the whole weight array, the output's columns start at column 0
    show V c main_arg9 (((cfg5.win 3).blk t49).view.emb (ix2 d k))
      = V c main_arg9 (ix2 d ((((cfg5.win 5).blk t).view.emb (ix2 g k)) 1))
    refine congrArg (V c main_arg9) (funext fun a => Fin.ext ?_)
    match a with
    | ⟨0, _⟩ => show win5_3.index t49 (0 : Fin 2) * 64 + 1 * d.val = d.val; omega
    | ⟨1, _⟩ => show win5_3.index t49 (1 : Fin 2) * 10 + 1 * k.val = win5_5.index t (1 : Fin 2) * 10 + 1 * k.val; omega
  · -- the class's bias: window 4 is the whole one-row array
    show V c main_v59 (((cfg5.win 4).blk t49).view.emb (ix2 (0 : Fin 1) k))
      = V c main_v59 (ix2 (0 : Fin 1) ((((cfg5.win 5).blk t).view.emb (ix2 g k)) 1))
    refine congrArg (V c main_v59) (funext fun a => Fin.ext ?_)
    match a with
    | ⟨0, _⟩ => show win5_4.index t49 (0 : Fin 2) * 1 + 1 * 0 = 0; omega
    | ⟨1, _⟩ => show win5_4.index t49 (1 : Fin 2) * 10 + 1 * k.val = win5_5.index t (1 : Fin 2) * 10 + 1 * k.val; omega

/-- Every index of the output array lies in the block of the last point, the one point that writes it back. -/
theorem covered5_5 (i : S64x10.Idx) :
    ∃ t : Fin cfg5.N, (cfg5.win 5).flush t = true ∧ i ∈ ((cfg5.win 5).blk t).view.set := by
  have hi0 : (i 0).val < 64 := (i 0).isLt
  have hi1 : (i 1).val < 10 := (i 1).isLt
  obtain ⟨-, -, -, -, -, -, e50, e51⟩ := smallWindows_fixed5 t49
  refine ⟨t49, (flush5_5 t49).mpr (by decide), ?_⟩
  show i ∈ ((View.whole main_v60).slice (win5_5.rect t49)).set
  rw [View.set_slice_whole, Rect.mem_set_unit]
  intro a
  match a with
  | ⟨0, _⟩ =>
    show win5_5.index t49 (0 : Fin 2) * 64 ≤ (i 0).val ∧ (i 0).val < win5_5.index t49 (0 : Fin 2) * 64 + 64
    omega
  | ⟨1, _⟩ =>
    show win5_5.index t49 (1 : Fin 2) * 10 ≤ (i 1).val ∧ (i 1).val < win5_5.index t49 (1 : Fin 2) * 10 + 10
    omega

/-- After its 50 points region 5's output array holds the classifier's value: each graph's accumulated row divided
    by the graph's node count, times the weights, plus the bias row — on whatever the accumulator holds after the last
    point. -/
theorem arr5_5 (c : Dev nD) (S : Cert.Spec.M 64 64)
    (hS : (sAt5 (F := Ideal) V c 49 : Vec Ideal S64x64 .f32) = S) :
    ((dat5 (F := Ideal) V c).arrAt 5 cfg5.N : Vec Ideal S64x10 .f32)
      = Cert.Spec.classify S (V c main_v58) (V c main_arg9) (V c main_v59) :=
  (dat5 (F := Ideal) V c).arrAt_eq_of_cover 5 (Cert.Spec.classify S (V c main_v58) (V c main_arg9) (V c main_v59))
    (fun t _ => flushed5_5_eq V c S hS t) covered5_5

end Cert.KernelIdeal.Hand

end
-- ==== Proof.KI.Val5Sum.lean ====
/-
  What region 5's accumulator holds after the last of its 50 points. Each point takes 2000 rows of the membership
  table (node against graph) and the same 2000 rows of the gated node table, and adds to the 64x64 accumulator the
  product of the membership block, transposed, with the row block: entry (g, d) grows by the sum over the block's rows
  of membership (row, g) times value (row, d). The first point adds to zeros. The 50 row blocks tile the 100000 nodes,
  so after the last point entry (g, d) is the sum over ALL nodes of membership times value: the per-graph sums.

  The sum over the nodes is built up as a sum over an initial stretch of the naturals, the summand extended by zero
  past the last node, so that one more block is one more stretch of 2000.
-/
import proofs.«404283_j8701603742240_1_alg».proof.Proof.KI.R5
import proofs.«404283_j8701603742240_1_alg».proof.Proof.Spec
import proofs.«404283_j8701603742240_1_alg».proof.Proof.LibDot
import Idealize.ShloMosaic.Lib.Pipeline.Value
import Idealize.ShloMosaic.Lib.ValueIdx
import Idealize.ShloMosaic.PureOps.Ideal
import Idealize.ShloMosaic.PureOps.Ideal.Laws
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The value the first point adds to: zero at every entry. -/
theorem k5_pay1_apply (i : S64x64.Idx) : k5_pay1 (F := Ideal) i = 0 := by
  unfold k5_pay1
  show (shapeCast S64x64 (broadcast S64x64 (Scalar.ofBits (F := Ideal) .f32 0x00000000#32)) shapeCasts_S64x64_S64x64) i = 0
  rw [shapeCast_self]
  exact Ideal.ofBits_zero_f32

/-- What a point stores at entry (g, d): the accumulator's entry plus, over the 2000 rows of the two blocks, the
    membership of the row in graph g times the row's value in lane d. Both operands of the product are contracted on
    their first axis; narrowing the row block's format changes nothing on the extended reals. -/
theorem k5_pay2_apply (oh : Vec Ideal S2000x64 .bf16) (hb : Vec Ideal S2000x64 .f32) (acc : Vec Ideal S64x64 .f32)
    (g d : Fin 64) :
    k5_pay2 (F := Ideal) oh hb acc (ix2 g d) = acc (ix2 g d) + ∑ r : Fin 2000, oh (ix2 r g) * hb (ix2 r d) := by
  unfold k5_pay2
  show (shapeCast S64x64 (addf (F := Ideal) acc (matmul (F := Ideal) dot_S2000x64_S2000x64_S64x64_0_0_1_1_n_n none
      (shapeCast S2000x64 oh shapeCasts_S2000x64_S2000x64)
      (truncf (F := Ideal) .bf16 (shapeCast S2000x64 hb shapeCasts_S2000x64_S2000x64) bitsLt_bf16_f32)
      (constant (F := Ideal) S64x64 .f32 0x00000000#32))) shapeCasts_S64x64_S64x64) (ix2 g d) = _
  rw [shapeCast_self, shapeCast_self, shapeCast_self]
  refine congrArg (acc (ix2 g d) + ·) ?_
  exact Cert.Lib.Dot.matmul0_cc dot_S2000x64_S2000x64_S64x64_0_0_1_1_n_n ⟨rfl, rfl, rfl, rfl, rfl, rfl⟩ oh
    (truncf (F := Ideal) .bf16 hb bitsLt_bf16_f32) g d

/-- The printed index maps over the 50 points: both tables' windows sit at row block t, lane block 0. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

variable (V : (c : Dev nD) → (b : Ref sig .tc) → Buf (Elt Ideal) ((c : Thread nD τ).loc b))

/-- Row r of the membership table's block at point t is row 2000 t + r of the table. -/
theorem iblk5_0_apply (c : Dev nD) (t : Fin cfg5.N) (r : Fin 2000) (g : Fin 64) (n : Fin 100000)
    (hn : n.val = 2000 * t.val + r.val) :
    (iblk5 (F := Ideal) V c 0 t : Vec Ideal S2000x64 .bf16) (ix2 r g) = (V c main_v52 : Vec Ideal S100000x64 .bf16) (ix2 n g) := by
  obtain ⟨e00, e01, e10, e11⟩ := idx_facts5 t
  show V c main_v52 (((cfg5.win 0).blk t).view.emb (ix2 r g)) = V c main_v52 (ix2 n g)
  refine congrArg (V c main_v52) (funext fun a => Fin.ext ?_)
  match a with
  | ⟨0, _⟩ => show win5_0.index t (0 : Fin 2) * 2000 + 1 * r.val = n.val; omega
  | ⟨1, _⟩ => show win5_0.index t (1 : Fin 2) * 64 + 1 * g.val = g.val; omega

/-- Row r of the node table's block at point t is row 2000 t + r of the table. -/
theorem iblk5_1_apply (c : Dev nD) (t : Fin cfg5.N) (r : Fin 2000) (d : Fin 64) (n : Fin 100000)
    (hn : n.val = 2000 * t.val + r.val) :
    (iblk5 (F := Ideal) V c 1 t : Vec Ideal S2000x64 .f32) (ix2 r d) = (V c main_v45_1 : Vec Ideal S100000x64 .f32) (ix2 n d) := by
  obtain ⟨e00, e01, e10, e11⟩ := idx_facts5 t
  show V c main_v45_1 (((cfg5.win 1).blk t).view.emb (ix2 r d)) = V c main_v45_1 (ix2 n d)
  refine congrArg (V c main_v45_1) (funext fun a => Fin.ext ?_)
  match a with
  | ⟨0, _⟩ => show win5_1.index t (0 : Fin 2) * 2000 + 1 * r.val = n.val; omega
  | ⟨1, _⟩ => show win5_1.index t (1 : Fin 2) * 64 + 1 * d.val = d.val; omega

/-- A summand over the 100000 nodes, extended by zero to every natural number. -/
def ext0 (f : Fin 100000 → EReal) (n : ℕ) : EReal := if h : n < 100000 then f ⟨n, h⟩ else 0

/-- The summand of entry (g, d) of the per-graph sums: the membership of node n in graph g times the node's value
    in lane d. -/
def poolTerm (oh hg : Cert.Spec.M 100000 64) (g d : Fin 64) (n : Fin 100000) : EReal :=
  oh (ix2 n g) * hg (ix2 n d)

/-- One point: entry (g, d) grows by the summand over the 2000 nodes of the point's row block. -/
theorem step5 (c : Dev nD) (t : ℕ) (ht : t < cfg5.N) (acc : Vec Ideal S64x64 .f32) (g d : Fin 64) :
    k5_pay2 (F := Ideal) (iblk5 (F := Ideal) V c 0 ⟨t, ht⟩) (iblk5 (F := Ideal) V c 1 ⟨t, ht⟩) acc (ix2 g d)
      = acc (ix2 g d)
        + ∑ x ∈ Finset.range 2000, ext0 (poolTerm (V c main_v52) (V c main_v45_1) g d) (2000 * t + x) := by
  have hN : cfg5.N = 50 := N_5
  refine (k5_pay2_apply (iblk5 (F := Ideal) V c 0 ⟨t, ht⟩) (iblk5 (F := Ideal) V c 1 ⟨t, ht⟩) acc g d).trans ?_
  refine congrArg (acc (ix2 g d) + ·) ?_
  rw [Finset.sum_range]
  refine Finset.sum_congr rfl fun r _ => ?_
  have hlt : 2000 * t + r.val < 100000 := by have := r.isLt; omega
  rw [ext0, dif_pos hlt]
  exact congrArg₂ (fun a b : EReal => a * b) (iblk5_0_apply V c ⟨t, ht⟩ r g ⟨2000 * t + r.val, hlt⟩ rfl)
    (iblk5_1_apply V c ⟨t, ht⟩ r d ⟨2000 * t + r.val, hlt⟩ rfl)

/-- After point t the accumulator's entry (g, d) is the summand summed over the first 2000 (t + 1) nodes. -/
theorem sAt5_prefix (c : Dev nD) (g d : Fin 64) : ∀ t : ℕ, t < 50 →
    (sAt5 (F := Ideal) V c t : Vec Ideal S64x64 .f32) (ix2 g d)
      = ∑ n ∈ Finset.range (2000 * (t + 1)), ext0 (poolTerm (V c main_v52) (V c main_v45_1) g d) n
  | 0, _ => by
    rw [sAt5_zero]
    refine (step5 V c 0 (by decide) (k5_pay1 (F := Ideal)) g d).trans ?_
    rw [k5_pay1_apply, zero_add]
    simp only [Nat.mul_zero, Nat.zero_add, Nat.mul_one]
  | t + 1, h => by
    have hN : cfg5.N = 50 := N_5
    have h' : t + 1 < cfg5.N := by omega
    rw [sAt5_succ V c t h']
    refine (step5 V c (t + 1) h' (sAt5 (F := Ideal) V c t) g d).trans ?_
    rw [sAt5_prefix c g d t (by omega), show 2000 * (t + 1 + 1) = 2000 * (t + 1) + 2000 by omega,
      Finset.sum_range_add]

/-- After the last point the accumulator holds the per-graph sums over all the nodes. -/
theorem sAt5_last (c : Dev nD) :
    (sAt5 (F := Ideal) V c 49 : Vec Ideal S64x64 .f32) = Cert.Spec.poolSum (V c main_v52) (V c main_v45_1) := by
  funext i
  obtain ⟨g, d, rfl⟩ : ∃ (g : Fin 64) (d : Fin 64), i = ix2 g d := ⟨i 0, i 1, eq_ix2 i⟩
  rw [sAt5_prefix V c g d 49 (by decide), Finset.sum_range]
  show ∑ n : Fin 100000, ext0 (poolTerm (V c main_v52) (V c main_v45_1) g d) n.val
    = ∑ n : Fin 100000, poolTerm (V c main_v52) (V c main_v45_1) g d n
  refine Finset.sum_congr rfl fun n _ => ?_
  rw [ext0, dif_pos n.isLt]

end Cert.KernelIdeal.Hand

end
-- ==== Proof.KI.HostA.lean ====
/-
  The host operations that run before the first kernel region, read as the reference's values.

  Both programs slice the edge list into its source row and its destination row, count each node's
  out-degree and in-degree by scattering a one per edge onto a zero vector, clamp each count below at one,
  and take the reciprocal square root. The kernel's program then views each of the two factors as a
  one-column table; the reference keeps them as vectors.

  Each stretch of operations is computed from an arbitrary starting valuation `W`. A buffer the stretch reads
  is either an argument of the program or carries the reference's value by hypothesis. The two clamps read the
  constant one from a buffer that the stretch before them writes last, so each takes that buffer's value as a
  hypothesis too, and the constant is read off the stretch that writes it.
-/
import proofs.«404283_j8701603742240_1_alg».proof.Proof.Gen.KernelIdeal.Launch
import proofs.«404283_j8701603742240_1_alg».proof.Proof.Gen.ReferenceIdeal.Read
import proofs.«404283_j8701603742240_1_alg».proof.Proof.Spec
import proofs.«404283_j8701603742240_1_alg».proof.Proof.LibRowsCols
import Idealize.ShloMosaic.Lib.StableHlo.Run
set_option maxRecDepth 16384
noncomputable section
namespace Cert.KernelIdeal.Hand
open Cert.KernelIdeal Cert.KernelIdeal.Gen
open Idealize.ShloMosaic Idealize.ShloMosaic.TcCoe Idealize.SL.Sem Idealize.ShloMosaic.StableHlo
variable (W : Valuation τ sig (Elt Ideal))

/-! ## The first stretch: the two rows of the edge list, the ones, the out-degree -/

/-- The source row of the edge list, flattened to a vector. -/
theorem hA_v1 : StableHlo.after hostOps0 W (Proc.devRef .tc main_v1) = Cert.ReferenceIdeal.Read.val_main_v1 (F := Ideal) (W (Proc.devRef .tc main_arg1)) := by
  after_results_simp
  unfold Cert.ReferenceIdeal.Read.val_main_v1 Cert.ReferenceIdeal.Read.val_main_v0
  rfl

/-- The destination row of the edge list, flattened to a vector. -/
theorem hA_v3 : StableHlo.after hostOps0 W (Proc.devRef .tc main_v3) = Cert.ReferenceIdeal.Read.val_main_v3 (F := Ideal) (W (Proc.devRef .tc main_arg1)) := by
  after_results_simp
  unfold Cert.ReferenceIdeal.Read.val_main_v3 Cert.ReferenceIdeal.Read.val_main_v2
  rfl

/-- A one for every edge. -/
theorem hA_v4 : StableHlo.after hostOps0 W (Proc.devRef .tc main_v4) = Cert.ReferenceIdeal.Read.val_main_v4 (F := Ideal) := by
  after_results_simp
  unfold Cert.ReferenceIdeal.Read.val_main_v4 Cert.ReferenceIdeal.Read.val_main_cst
  rfl

/-- The out-degree: the ones scattered onto zeros at the source nodes. Both sides are the same scatter of the
    same three operands once the reference's operands are spelled out down to the argument. -/
theorem hA_v7 : StableHlo.after hostOps0 W (Proc.devRef .tc main_v7) = Cert.ReferenceIdeal.Read.val_main_v7 (F := Ideal) (W (Proc.devRef .tc main_arg1)) := by
  after_results_simp
  unfold Cert.ReferenceIdeal.Read.val_main_v7 Cert.ReferenceIdeal.Read.val_main_v5 Cert.ReferenceIdeal.Read.val_main_v6 Cert.ReferenceIdeal.Read.val_main_v4 Cert.ReferenceIdeal.Read.val_main_v1 Cert.ReferenceIdeal.Read.val_main_v0 Cert.ReferenceIdeal.Read.val_main_cst Cert.ReferenceIdeal.Read.val_main_cst_0
  rfl

/-- The constant one that the first clamp reads: the first stretch writes it last. -/
theorem hA_cst_1 : StableHlo.after hostOps0 W (Proc.devRef .tc main_cst_1) = Cert.ReferenceIdeal.Read.val_main_cst_1 (F := Ideal) := by
  after_results_simp
  unfold Cert.ReferenceIdeal.Read.val_main_cst_1
  rfl

/-! ## The first clamp: the out-degree, at least one -/

/-- The maximum of one and the out-degree. The stretch reads the out-degree and the constant one. -/
theorem hA_v8 (x1 : (⟨Cert.ReferenceIdeal.S2x1600000, .i32⟩ : BufTy).Contents (Elt Ideal))
    (h7 : W (Proc.devRef .tc main_v7) = Cert.ReferenceIdeal.Read.val_main_v7 (F := Ideal) x1)
    (hc1 : W (Proc.devRef .tc main_cst_1) = Cert.ReferenceIdeal.Read.val_main_cst_1 (F := Ideal)) :
    StableHlo.after hostOps0_1 W (Proc.devRef .tc main_v8) = Cert.ReferenceIdeal.Read.val_main_v8 (F := Ideal) x1 := by
  after_results_simp
  simp only [TRef.toBuf, TRef.ofBuf, cast_eq]
  rw [h7, hc1]
  unfold Cert.ReferenceIdeal.Read.val_main_v8 Cert.ReferenceIdeal.Read.val_main_call0_v1 Cert.ReferenceIdeal.Read.val_main_call0_v0
  rfl

/-! ## The second stretch: the in-degree -/

/-- The in-degree: the ones scattered onto zeros at the destination nodes. -/
theorem hA_v11 (x1 : (⟨Cert.ReferenceIdeal.S2x1600000, .i32⟩ : BufTy).Contents (Elt Ideal))
    (h3 : W (Proc.devRef .tc main_v3) = Cert.ReferenceIdeal.Read.val_main_v3 (F := Ideal) x1)
    (h4 : W (Proc.devRef .tc main_v4) = Cert.ReferenceIdeal.Read.val_main_v4 (F := Ideal)) :
    StableHlo.after hostOps0_2 W (Proc.devRef .tc main_v11) = Cert.ReferenceIdeal.Read.val_main_v11 (F := Ideal) x1 := by
  after_results_simp
  rw [h3, h4]
  unfold Cert.ReferenceIdeal.Read.val_main_v11 Cert.ReferenceIdeal.Read.val_main_v9 Cert.ReferenceIdeal.Read.val_main_v10 Cert.ReferenceIdeal.Read.val_main_cst_2
  rfl

/-- The constant one that the second clamp reads: the second stretch writes it last. -/
theorem hA_cst_3 : StableHlo.after hostOps0_2 W (Proc.devRef .tc main_cst_3) = Cert.ReferenceIdeal.Read.val_main_cst_3 (F := Ideal) := by
  after_results_simp
  unfold Cert.ReferenceIdeal.Read.val_main_cst_3
  rfl

/-! ## The second clamp: the in-degree, at least one -/

/-- The maximum of one and the in-degree. -/
theorem hA_v12 (x1 : (⟨Cert.ReferenceIdeal.S2x1600000, .i32⟩ : BufTy).Contents (Elt Ideal))
    (h11 : W (Proc.devRef .tc main_v11) = Cert.ReferenceIdeal.Read.val_main_v11 (F := Ideal) x1)
    (hc3 : W (Proc.devRef .tc main_cst_3) = Cert.ReferenceIdeal.Read.val_main_cst_3 (F := Ideal)) :
    StableHlo.after hostOps0_3 W (Proc.devRef .tc main_v12) = Cert.ReferenceIdeal.Read.val_main_v12 (F := Ideal) x1 := by
  after_results_simp
  simp only [TRef.toBuf, TRef.ofBuf, cast_eq]
  rw [h11, hc3]
  unfold Cert.ReferenceIdeal.Read.val_main_v12 Cert.ReferenceIdeal.Read.val_main_call1_v1 Cert.ReferenceIdeal.Read.val_main_call1_v0
  rfl

/-! ## The two factors as one-column tables

  The reciprocal square root is taken entry by entry, and the reshape of a vector of `a` entries to an
  `a × 1` table reads, at `(i, 0)`, the vector's entry `i`: that is the one-column table of the vector. -/

/-- The reciprocal square root of the clamped out-degree, as a column. -/
theorem hA_v14 (x1 : (⟨Cert.ReferenceIdeal.S2x1600000, .i32⟩ : BufTy).Contents (Elt Ideal))
    (h8 : W (Proc.devRef .tc main_v8) = Cert.ReferenceIdeal.Read.val_main_v8 (F := Ideal) x1) :
    StableHlo.after hostOps0_4 W (Proc.devRef .tc main_v14) = Cert.Spec.col (Cert.ReferenceIdeal.Read.val_main_v13 (F := Ideal) x1) := by
  after_results_simp
  rw [h8]
  unfold Cert.ReferenceIdeal.Read.val_main_v13
  generalize Cert.ReferenceIdeal.Read.val_main_v8 (F := Ideal) x1 = z
  funext i
  rw [ValueIdx.eq_ix2 i]
  exact RowsCols.shapeCast_a_a1_apply _ _ (i 0) (i 1)

/-- The reciprocal square root of the clamped in-degree, as a column. -/
theorem hA_v16 (x1 : (⟨Cert.ReferenceIdeal.S2x1600000, .i32⟩ : BufTy).Contents (Elt Ideal))
    (h12 : W (Proc.devRef .tc main_v12) = Cert.ReferenceIdeal.Read.val_main_v12 (F := Ideal) x1) :
    StableHlo.after hostOps0_4 W (Proc.devRef .tc main_v16) = Cert.Spec.col (Cert.ReferenceIdeal.Read.val_main_v14 (F := Ideal) x1) := by
  after_results_simp
  rw [h12]
  unfold Cert.ReferenceIdeal.Read.val_main_v14
  generalize Cert.ReferenceIdeal.Read.val_main_v12 (F := Ideal) x1 = z
  funext i
  rw [ValueIdx.eq_ix2 i]
  exact RowsCols.shapeCast_a_a1_apply _ _ (i 0) (i 1)

end Cert.KernelIdeal.Hand
end
-- ==== Proof.KI.HostB.lean ====
/-
  What the host operations between the kernel regions leave behind, read as the reference's values: the two edge
  aggregations and the reshapes of the bias and gate vectors.

  An edge aggregation takes the table of projected node rows, wraps a negative source id by adding the node count,
  gathers the table's rows at the source ids, and adds each gathered row into a table of zeros at the edge's
  destination id. The reference does the same operations on the same operands, so once the three operands (source
  ids, destination ids, projected table) are known to be the reference's, the result is the reference's aggregation.

  A vector of `b` entries reshaped to one row reads, at `(0, j)`, its entry `j`; a one-column table reshaped to one
  row reads, at `(0, j)`, the column's entry `(j, 0)`; a one-entry vector reshaped to a one-by-one table reads its
  entry.
-/
import proofs.«404283_j8701603742240_1_alg».proof.Proof.Gen.KernelIdeal.Launch
import proofs.«404283_j8701603742240_1_alg».proof.Proof.Gen.ReferenceIdeal.Read
import proofs.«404283_j8701603742240_1_alg».proof.Proof.Spec
import Idealize.ShloMosaic.Lib.StableHlo.Run
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.SL.Sem Idealize.ShloMosaic.StableHlo
open Idealize.ShloMosaic.ValueIdx

/-- A one-column table of `b` rows cast to one row reads, at `(u, j)`, the column at `(j, 0)`: both sit at
    row-major position `j`. -/
private theorem shapeCast_b1_1b_apply {α : Type} {b : ℕ} (x : (⟨2, ![b, 1]⟩ : Shape).Idx → α)
    (h : (⟨2, ![b, 1]⟩ : Shape).ShapeCasts ⟨2, ![1, b]⟩) (u : Fin 1) (j : Fin b) :
    shapeCast ⟨2, ![1, b]⟩ x h (ix2 u j) = x (ix2 j (0 : Fin 1)) :=
  shapeCast_apply x h _ _ (by
    have hu : u.val = 0 := by omega
    rw [Shape.rowMajor_val_two, Shape.rowMajor_val_two]
    show j.val * 1 + 0 = u.val * b + j.val
    rw [hu, Nat.zero_mul, Nat.zero_add, Nat.mul_one, Nat.add_zero])

variable (W : Valuation τ sig (Elt Ideal))

/-! ## The first layer's edge aggregation and its bias row -/

/-- The first aggregation: from the reference's source ids, destination ids and scaled projection, the reference's
    aggregated table. Both sides are the same scatter-add of the same gather at the same wrapped ids. -/
theorem hB_v27 (x0 : (⟨S100000x128, .f32⟩ : BufTy).Contents (Elt Ideal))
    (x1 : (⟨S2x1600000, .i32⟩ : BufTy).Contents (Elt Ideal)) (x3 : (⟨S128x64, .f32⟩ : BufTy).Contents (Elt Ideal))
    (h1 : W (Proc.devRef .tc main_v1) = Cert.ReferenceIdeal.Read.val_main_v1 (F := Ideal) x1)
    (h3 : W (Proc.devRef .tc main_v3) = Cert.ReferenceIdeal.Read.val_main_v3 (F := Ideal) x1)
    (h17 : W (Proc.devRef .tc main_v17) = Cert.ReferenceIdeal.Read.val_main_v18 (F := Ideal) x0 x1 x3) :
    StableHlo.after hostOps1 W (Proc.devRef .tc main_v27) = Cert.ReferenceIdeal.Read.val_main_v28 (F := Ideal) x0 x1 x3 := by
  after_results_simp
  rw [h1, h3, h17]
  unfold Cert.ReferenceIdeal.Read.val_main_v28 Cert.ReferenceIdeal.Read.val_main_v26 Cert.ReferenceIdeal.Read.val_main_v27 Cert.ReferenceIdeal.Read.val_main_v25 Cert.ReferenceIdeal.Read.val_main_cst_5
    Cert.ReferenceIdeal.Read.val_main_v24 Cert.ReferenceIdeal.Read.val_main_v23 Cert.ReferenceIdeal.Read.val_main_v20 Cert.ReferenceIdeal.Read.val_main_v22 Cert.ReferenceIdeal.Read.val_main_v19
    Cert.ReferenceIdeal.Read.val_main_v21 Cert.ReferenceIdeal.Read.val_main_c Cert.ReferenceIdeal.Read.val_main_c_4
  rfl

/-- The first layer's bias as one row. -/
theorem hB_v28 : StableHlo.after hostOps1 W (Proc.devRef .tc main_v28) = Cert.Spec.row (W (Proc.devRef .tc main_arg4)) := by
  after_results_simp
  funext i
  obtain ⟨u, j, rfl⟩ : ∃ (u : Fin 1) (j : Fin 64), i = ix2 u j := ⟨_, _, eq_ix2 i⟩
  exact shapeCast_a_1a_apply (W (Proc.devRef .tc main_arg4)) shapeCasts_S64_S1x64 u j

/-! ## The second layer's edge aggregation and its bias row -/

/-- The second aggregation, the same operations on the second layer's scaled projection. -/
theorem hB_v40 (x0 : (⟨S100000x128, .f32⟩ : BufTy).Contents (Elt Ideal))
    (x1 : (⟨S2x1600000, .i32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (h1 : W (Proc.devRef .tc main_v1) = Cert.ReferenceIdeal.Read.val_main_v1 (F := Ideal) x1)
    (h3 : W (Proc.devRef .tc main_v3) = Cert.ReferenceIdeal.Read.val_main_v3 (F := Ideal) x1)
    (h30 : W (Proc.devRef .tc main_v30) = Cert.ReferenceIdeal.Read.val_main_v39 (F := Ideal) x0 x1 x3 x4 x5) :
    StableHlo.after hostOps3 W (Proc.devRef .tc main_v40) = Cert.ReferenceIdeal.Read.val_main_v49 (F := Ideal) x0 x1 x3 x4 x5 := by
  after_results_simp
  rw [h1, h3, h30]
  unfold Cert.ReferenceIdeal.Read.val_main_v49 Cert.ReferenceIdeal.Read.val_main_v47 Cert.ReferenceIdeal.Read.val_main_v48 Cert.ReferenceIdeal.Read.val_main_v46 Cert.ReferenceIdeal.Read.val_main_cst_8
    Cert.ReferenceIdeal.Read.val_main_v45 Cert.ReferenceIdeal.Read.val_main_v44 Cert.ReferenceIdeal.Read.val_main_v41 Cert.ReferenceIdeal.Read.val_main_v43 Cert.ReferenceIdeal.Read.val_main_v40
    Cert.ReferenceIdeal.Read.val_main_v42 Cert.ReferenceIdeal.Read.val_main_c_6 Cert.ReferenceIdeal.Read.val_main_c_7
  rfl

/-- The second layer's bias as one row. -/
theorem hB_v41 : StableHlo.after hostOps3 W (Proc.devRef .tc main_v41) = Cert.Spec.row (W (Proc.devRef .tc main_arg6)) := by
  after_results_simp
  funext i
  obtain ⟨u, j, rfl⟩ : ∃ (u : Fin 1) (j : Fin 64), i = ix2 u j := ⟨_, _, eq_ix2 i⟩
  exact shapeCast_a_1a_apply (W (Proc.devRef .tc main_arg6)) shapeCasts_S64_S1x64 u j

/-! ## The gate's weights as one row and its bias as one entry -/

/-- The gate's weight column as one row. -/
theorem hB_v43 : StableHlo.after hostOps4 W (Proc.devRef .tc main_v43) = Cert.Spec.rowT (W (Proc.devRef .tc main_arg7)) := by
  after_results_simp
  funext i
  obtain ⟨u, j, rfl⟩ : ∃ (u : Fin 1) (j : Fin 64), i = ix2 u j := ⟨_, _, eq_ix2 i⟩
  exact shapeCast_b1_1b_apply (W (Proc.devRef .tc main_arg7)) shapeCasts_S64x1_S1x64 u j

/-- The gate's bias as a one-by-one table. -/
theorem hB_v44 : StableHlo.after hostOps4 W (Proc.devRef .tc main_v44) = Cert.Spec.one11 (W (Proc.devRef .tc main_arg8)) := by
  after_results_simp
  funext i
  obtain ⟨u, j, rfl⟩ : ∃ (u : Fin 1) (j : Fin 1), i = ix2 u j := ⟨_, _, eq_ix2 i⟩
  have hj : j = (0 : Fin 1) := Subsingleton.elim _ _
  subst hj
  exact shapeCast_a_1a_apply (W (Proc.devRef .tc main_arg8)) shapeCasts_S1_S1x1 u (0 : Fin 1)

end Cert.KernelIdeal.Hand
end
-- ==== Proof.KI.HostC.lean ====
/-
  The host operations before the last kernel region, read as the reference's values.

  From any valuation `W` the stretch of host operations that precedes the pooling region leaves
  * the membership table (node `n` against graph `g`): the graph id of node `n`, laid down the rows, compared for
    equality with the positions `0 … 63` laid along the columns, the bit converted to a number — one when node `n`
    belongs to graph `g`, zero otherwise;
  * the per-graph node counts: a scatter-add of ones along the graph ids, the reference's value of the same operation;
  * the counts clamped below at one (the reference's clamp), then viewed as a column;
  * the classifier's bias viewed as a row.
-/
import proofs.«404283_j8701603742240_1_alg».proof.Proof.Gen.KernelIdeal.Launch
import proofs.«404283_j8701603742240_1_alg».proof.Proof.Gen.ReferenceIdeal.Read
import proofs.«404283_j8701603742240_1_alg».proof.Proof.Spec
import proofs.«404283_j8701603742240_1_alg».proof.Proof.LibRowsCols
import Idealize.ShloMosaic.Lib.StableHlo.Run
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

namespace HostC

/-- The conversion of a one-bit word to a number is the bit itself. -/
theorem uitofp_bit (φ : FTy) (b : BitVec 1) : FloatOps.uitofp (F := Ideal) φ b = if b = 1#1 then (1 : EReal) else 0 := by
  rcases BitVec.eq_zero_or_eq_one b with rfl | rfl
  · show (((0#1 : BitVec 1).toNat : ℝ) : EReal) = _
    simp
  · show (((1#1 : BitVec 1).toNat : ℝ) : EReal) = _
    simp

/-- A signed 32-bit word equals the word of a small position exactly when its value is that position. -/
theorem eq_ofNat_iff_toInt (a : BitVec 32) (q : ℕ) (hq : q < 2 ^ 31) : a = BitVec.ofNat 32 q ↔ a.toInt = (q : ℤ) := by
  constructor
  · rintro rfl
    exact Predicate.toInt_ofNat_small q hq
  · intro h
    exact BitVec.eq_of_toInt_eq (h.trans (Predicate.toInt_ofNat_small q hq).symm)

/-- The membership table at any extents: a vector of `n` words laid down the rows, compared for equality with the
    positions `0 … m-1` laid along the columns, the bit converted to a number. At `(p, q)` it is one when the word
    at `p` has the value `q`, and zero otherwise. -/
theorem member_apply {n m : ℕ} (φ : FTy) (hm : m ≤ 2 ^ 31)
    (h₁ : (⟨1, ![n]⟩ : Shape).BroadcastsInDim ⟨2, ![n, 1]⟩ ![0])
    (h₂ : (⟨2, ![n, 1]⟩ : Shape).BroadcastsInDim ⟨2, ![n, m]⟩ ![0, 1])
    (h₃ : (⟨1, ![m]⟩ : Shape).BroadcastsInDim ⟨2, ![1, m]⟩ ![1])
    (h₄ : (⟨2, ![1, m]⟩ : Shape).BroadcastsInDim ⟨2, ![n, m]⟩ ![0, 1])
    (x : IVec ⟨1, ![n]⟩ 32) (p : Fin n) (q : Fin m) :
    (uitofp (F := Ideal) φ (cmpi .eq (broadcastInDim ⟨2, ![n, m]⟩ ![0, 1] h₂ (broadcastInDim ⟨2, ![n, 1]⟩ ![0] h₁ x))
        (broadcastInDim ⟨2, ![n, m]⟩ ![0, 1] h₄ (broadcastInDim ⟨2, ![1, m]⟩ ![1] h₃ (iotaInDim ⟨1, ![m]⟩ 32 0)))))
      (ValueIdx.ix2 p q) = if (x (ValueIdx.ix1 p)).toInt = (q.val : ℤ) then (1 : EReal) else 0 := by
  have hij : ValueIdx.ix2 p q = Predicate.ij p q := by
    funext d; match d with | ⟨0, _⟩ => rfl | ⟨1, _⟩ => rfl
  have h1 : ValueIdx.ix1 p = Shape.Idx.ofFin p := Shape.Idx.eq_ofFin _
  -- the conversion and the comparison act entry by entry
  show FloatOps.uitofp (F := Ideal) φ (IntOp.cmpi .eq
      (broadcastInDim ⟨2, ![n, m]⟩ ![0, 1] h₂ (broadcastInDim ⟨2, ![n, 1]⟩ ![0] h₁ x) (ValueIdx.ix2 p q))
      (broadcastInDim ⟨2, ![n, m]⟩ ![0, 1] h₄ (broadcastInDim ⟨2, ![1, m]⟩ ![1] h₃ (iotaInDim ⟨1, ![m]⟩ 32 0)) (ValueIdx.ix2 p q))) = _
  -- the row operand reads the vector at `p`, the column operand the position `q`
  rw [hij, Predicate.bcast_rows, Predicate.bcast_cols, Predicate.iota_apply, uitofp_bit, h1]
  have hq : q.val < 2 ^ 31 := lt_of_lt_of_le q.isLt hm
  exact if_congr (Predicate.cmpi_eq_iff.trans (eq_ofNat_iff_toInt _ _ hq)) rfl rfl

/-- A vector of `b` entries cast to a `1 × b` row reads, at `(u, j)`, the vector at `j`. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ValueIdx.ix2 u j) = x (ValueIdx.ix1 j) :=
  shapeCast_apply x h _ _ (by
    have hu : u.val = 0 := by omega
    rw [Shape.rowMajor_val_two, Shape.rowMajor_val_one]
    show j.val = u.val * b + j.val
    rw [hu, Nat.zero_mul, Nat.zero_add])

end HostC

variable (W : Valuation τ sig (Elt Ideal))

/-- The membership table: at `(n, g)` one when node `n`'s graph id is `g`, zero otherwise. -/
theorem hC_v52 (n : Fin 100000) (g : Fin 64) :
    (StableHlo.after hostOps5 W ↑main_v52 : Vec Ideal S100000x64 .bf16) (ValueIdx.ix2 n g)
      = if ((W ↑main_arg2 : IVec S100000 32) (ValueIdx.ix1 n)).toInt = (g.val : ℤ) then (1 : EReal) else 0 := by
  after_results_simp
  exact HostC.member_apply .bf16 (by norm_num) bcast_S100000_S100000x1_0 bcast_S100000x1_S100000x64_0_1 bcast_S64_S1x64_1
    bcast_S1x64_S100000x64_0_1 (W ↑main_arg2) n g

/-- The per-graph node counts: the same scatter-add of ones along the graph ids as the reference's. -/
theorem hC_v56 : StableHlo.after hostOps5 W ↑main_v56 = Cert.ReferenceIdeal.Read.val_main_v75 (F := Ideal) (W ↑main_arg2) := by
  after_results_simp
  unfold Cert.ReferenceIdeal.Read.val_main_v75 Cert.ReferenceIdeal.Read.val_main_v73 Cert.ReferenceIdeal.Read.val_main_v74 Cert.ReferenceIdeal.Read.val_main_v72 Cert.ReferenceIdeal.Read.val_main_cst_12 Cert.ReferenceIdeal.Read.val_main_cst_13
  rfl

/-- The constant one the clamp reads is written at the end of the same stretch. -/
theorem hC_cst11 : StableHlo.after hostOps5 W ↑main_cst_11 = Cert.ReferenceIdeal.Read.val_main_cst_14 (F := Ideal) := by
  after_results_simp
  unfold Cert.ReferenceIdeal.Read.val_main_cst_14
  rfl

/-- The counts clamped below at one: the maximum of the broadcast constant and the counts, as in the reference. -/
theorem hC_v57 (x2) (h56 : W ↑main_v56 = Cert.ReferenceIdeal.Read.val_main_v75 (F := Ideal) x2)
    (h11 : W ↑main_cst_11 = Cert.ReferenceIdeal.Read.val_main_cst_14 (F := Ideal)) :
    StableHlo.after hostOps5_1 W ↑main_v57 = Cert.ReferenceIdeal.Read.val_main_v76 (F := Ideal) x2 := by
  after_results_simp
  rw [h56, h11]
  unfold Cert.ReferenceIdeal.Read.val_main_v76 Cert.ReferenceIdeal.Read.val_main_call4_v1 Cert.ReferenceIdeal.Read.val_main_call4_v0
  simp only [TRef.toBuf, TRef.ofBuf, cast_eq]

/-- The clamped counts viewed as a column. -/
theorem hC_v58 (x2) (h57 : W ↑main_v57 = Cert.ReferenceIdeal.Read.val_main_v76 (F := Ideal) x2) :
    StableHlo.after hostOps5_2 W ↑main_v58 = Cert.Spec.col (Cert.ReferenceIdeal.Read.val_main_v76 (F := Ideal) x2) := by
  after_results_simp
  rw [h57]
  generalize Cert.ReferenceIdeal.Read.val_main_v76 (F := Ideal) x2 = y
  funext i
  rw [ValueIdx.eq_ix2 i]
  exact RowsCols.shapeCast_a_a1_apply y shapeCasts_S64_S64x1 (i 0) (i 1)

/-- The classifier's bias viewed as a row. -/
theorem hC_v59 : StableHlo.after hostOps5_2 W ↑main_v59 = Cert.Spec.row (W ↑main_arg10) := by
  after_results_simp
  funext i
  rw [ValueIdx.eq_ix2 i]
  exact HostC.shapeCast_b_1b_apply (W ↑main_arg10) shapeCasts_S10_S1x10 (i 0) (i 1)

end Cert.KernelIdeal.Hand

end
-- ==== Proof.Ref.StagesA.lean ====
/-
  The reference's two graph-convolution layers, read stage by stage as the layers of the specification.

  Each layer has two halves. The projection: a row of the node table times the layer's weights, then every entry of the
  row scaled by the row's outgoing-degree factor (the reciprocal square root of the clipped out-degree, a vector
  stretched first to a column and then along the 64 lanes). The activation: the rows summed over the incoming edges,
  every entry scaled by the row's incoming-degree factor, the bias row added to every row, and the result clamped
  below at zero (a maximum against a table of the zero word). The sums over the edges stay as the named stages they are.
-/
import proofs.«404283_j8701603742240_1_alg».proof.Proof.Gen.ReferenceIdeal.Read
import proofs.«404283_j8701603742240_1_alg».proof.Proof.Spec

noncomputable section

namespace Cert.ReferenceIdeal.Hand

open Cert.ReferenceIdeal Cert.ReferenceIdeal.Read Idealize.ShloMosaic Idealize.ShloMosaic.ValueIdx

variable (x0 : (⟨S100000x128, .f32⟩ : BufTy).Contents (Elt Ideal))
  (x1 : (⟨S2x1600000, .i32⟩ : BufTy).Contents (Elt Ideal))
  (x3 : (⟨S128x64, .f32⟩ : BufTy).Contents (Elt Ideal))
  (x4 : (⟨S64, .f32⟩ : BufTy).Contents (Elt Ideal))
  (x5 : (⟨S64x64, .f32⟩ : BufTy).Contents (Elt Ideal))
  (x6 : (⟨S64, .f32⟩ : BufTy).Contents (Elt Ideal))

/-- The first projection: entry (p, q) is the product of row p of the node table with column q of the weights,
    times the out-degree factor of node p. -/
theorem ref_t1 : val_main_v18 (F := Ideal) x0 x1 x3
    = Cert.Spec.projScale128 x0 x3 (Cert.Spec.col (val_main_v13 (F := Ideal) x1)) := by
  funext i
  obtain ⟨p, q, rfl⟩ : ∃ (p : Fin 100000) (q : Fin 64), i = ix2 p q := ⟨i 0, i 1, eq_ix2 i⟩
  have el : ∀ k : Fin 128, lidx_main_v15 (ix2 p q) k = ix2 p k := fun k =>
    funext fun a => Fin.ext (by match a with | ⟨0, _⟩ => rfl | ⟨1, _⟩ => rfl)
  have er : ∀ k : Fin 128, ridx_main_v15 (ix2 p q) k = ix2 k q := fun k =>
    funext fun a => Fin.ext (by match a with | ⟨0, _⟩ => rfl | ⟨1, _⟩ => rfl)
  have e17 : idx_main_v17 (ix2 p q) = ix2 p (0 : Fin 1) :=
    funext fun a => Fin.ext (by match a with | ⟨0, _⟩ => rfl | ⟨1, _⟩ => rfl)
  have e16 : idx_main_v16 (ix2 p (0 : Fin 1)) = ix1 p :=
    funext fun a => Fin.ext (by match a with | ⟨0, _⟩ => rfl)
  rw [val_main_v18_apply, val_main_v15_apply, val_main_v17_apply, e17, val_main_v16_apply, e16]
  simp only [el, er, Ideal.mulf_def]
  rfl

/-- The first activation: entry (p, q) of the rows summed over the incoming edges, times the in-degree factor of
    node p, plus entry q of the bias, clamped below at zero. The zero it is clamped against is the zero word. -/
theorem ref_h1 : val_main_v35 (F := Ideal) x0 x1 x3 x4
    = Cert.Spec.biasRelu (val_main_v28 (F := Ideal) x0 x1 x3) (Cert.Spec.col (val_main_v14 (F := Ideal) x1))
        (Cert.Spec.row x4) := by
  funext i
  obtain ⟨p, q, rfl⟩ : ∃ (p : Fin 100000) (q : Fin 64), i = ix2 p q := ⟨i 0, i 1, eq_ix2 i⟩
  have e30 : idx_main_v30 (ix2 p q) = ix2 p (0 : Fin 1) :=
    funext fun a => Fin.ext (by match a with | ⟨0, _⟩ => rfl | ⟨1, _⟩ => rfl)
  have e29 : idx_main_v29 (ix2 p (0 : Fin 1)) = ix1 p :=
    funext fun a => Fin.ext (by match a with | ⟨0, _⟩ => rfl)
  have e33 : idx_main_v33 (ix2 p q) = ix2 (0 : Fin 1) q :=
    funext fun a => Fin.ext (by match a with | ⟨0, _⟩ => rfl | ⟨1, _⟩ => rfl)
  have e32 : idx_main_v32 (ix2 (0 : Fin 1) q) = ix1 q :=
    funext fun a => Fin.ext (by match a with | ⟨0, _⟩ => rfl)
  rw [val_main_v35_apply, val_main_v34_apply, val_main_v31_apply, val_main_v30_apply, e30, val_main_v29_apply, e29,
    val_main_v33_apply, e33, val_main_v32_apply, e32, val_main_call2_v0_apply, val_main_call2_cst_apply]
  simp only [Ideal.maximumf_def, Ideal.addf_def, Ideal.mulf_def, Ideal.ofBits_def, Ideal.ofBits_zero_f32]
  rfl

/-- The second projection: entry (p, q) is the product of row p of the first layer's output with column q of the
    second layer's weights, times the out-degree factor of node p. -/
theorem ref_t2 : val_main_v39 (F := Ideal) x0 x1 x3 x4 x5
    = Cert.Spec.projScale64 (val_main_v35 (F := Ideal) x0 x1 x3 x4) x5
        (Cert.Spec.col (val_main_v13 (F := Ideal) x1)) := by
  funext i
  obtain ⟨p, q, rfl⟩ : ∃ (p : Fin 100000) (q : Fin 64), i = ix2 p q := ⟨i 0, i 1, eq_ix2 i⟩
  have el : ∀ k : Fin 64, lidx_main_v36 (ix2 p q) k = ix2 p k := fun k =>
    funext fun a => Fin.ext (by match a with | ⟨0, _⟩ => rfl | ⟨1, _⟩ => rfl)
  have er : ∀ k : Fin 64, ridx_main_v36 (ix2 p q) k = ix2 k q := fun k =>
    funext fun a => Fin.ext (by match a with | ⟨0, _⟩ => rfl | ⟨1, _⟩ => rfl)
  have e38 : idx_main_v38 (ix2 p q) = ix2 p (0 : Fin 1) :=
    funext fun a => Fin.ext (by match a with | ⟨0, _⟩ => rfl | ⟨1, _⟩ => rfl)
  have e37 : idx_main_v37 (ix2 p (0 : Fin 1)) = ix1 p :=
    funext fun a => Fin.ext (by match a with | ⟨0, _⟩ => rfl)
  rw [val_main_v39_apply, val_main_v36_apply, val_main_v38_apply, e38, val_main_v37_apply, e37]
  simp only [el, er, Ideal.mulf_def]
  rfl

/-- The second activation, as the first: the summed rows scaled by the in-degree factor, the second bias added,
    clamped below at zero. -/
theorem ref_h2 : val_main_v56 (F := Ideal) x0 x1 x3 x4 x5 x6
    = Cert.Spec.biasRelu (val_main_v49 (F := Ideal) x0 x1 x3 x4 x5) (Cert.Spec.col (val_main_v14 (F := Ideal) x1))
        (Cert.Spec.row x6) := by
  funext i
  obtain ⟨p, q, rfl⟩ : ∃ (p : Fin 100000) (q : Fin 64), i = ix2 p q := ⟨i 0, i 1, eq_ix2 i⟩
  have e51 : idx_main_v51 (ix2 p q) = ix2 p (0 : Fin 1) :=
    funext fun a => Fin.ext (by match a with | ⟨0, _⟩ => rfl | ⟨1, _⟩ => rfl)
  have e50 : idx_main_v50 (ix2 p (0 : Fin 1)) = ix1 p :=
    funext fun a => Fin.ext (by match a with | ⟨0, _⟩ => rfl)
  have e54 : idx_main_v54 (ix2 p q) = ix2 (0 : Fin 1) q :=
    funext fun a => Fin.ext (by match a with | ⟨0, _⟩ => rfl | ⟨1, _⟩ => rfl)
  have e53 : idx_main_v53 (ix2 (0 : Fin 1) q) = ix1 q :=
    funext fun a => Fin.ext (by match a with | ⟨0, _⟩ => rfl)
  rw [val_main_v56_apply, val_main_v55_apply, val_main_v52_apply, val_main_v51_apply, e51, val_main_v50_apply, e50,
    val_main_v54_apply, e54, val_main_v53_apply, e53, val_main_call3_v0_apply, val_main_call3_cst_apply]
  simp only [Ideal.maximumf_def, Ideal.addf_def, Ideal.mulf_def, Ideal.ofBits_def, Ideal.ofBits_zero_f32]
  rfl

end Cert.ReferenceIdeal.Hand

end
-- ==== Proof.LibScatter.lean ====
/-
  A host scatter-add read at one element, at the exact (extended-real) instance, for the two layouts of a
  segment sum: one number per edge added into a vector at the edge's index word, and one row per edge added into
  a table at the row its index word names. An index word outside the operand (read signed, not clipped) drops
  its update. And a host maximum over the rows of a table, read at a column, as the supremum over the rows.
-/
import Idealize.ShloMosaic.PureOps.Ideal
import Idealize.ShloMosaic.PureOps.Ideal.Laws
import Idealize.ShloMosaic.PureOps.Contract
import Idealize.ShloMosaic.PureOps.Reduce
import Idealize.ShloMosaic.Lib.ValueIdx
import Idealize.ShloMosaic.Lib.Pipeline.Value

noncomputable section

open scoped BigOperators

namespace Cert.LibScatter

open Idealize.ShloMosaic Idealize.ShloMosaic.ValueIdx

/-- An update lands on element `i` exactly when, on every operand axis, its window start plus its window
    coordinate is that axis's coordinate of `i`. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e' := Option.some.inj e
      have e2 := congrArg (fun f : s.Idx => (f a).val) e'
      simp only at e2
      have := h a
      omega
    · intro e
      congr 1
      funext a
      apply Fin.ext
      have := e a
      have := h a
      show (d.start j idx a + d.window j a).toNat = (i a).val
      omega
  · constructor
    · intro e; exact absurd e (by simp)
    · intro e; exfalso; apply h; intro a
      have := e a
      have := (i a).isLt
      omega

/-! ## The vector layout: one number per edge -/

/-- On the vector's one axis an update's window starts at its edge's index word, read signed. -/
private theorem vec_start {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (a : Fin 1) :
    d.start j idx a = (idx (ix2 (j 0) (0 : Fin 1))).toInt := by
  obtain ⟨uw, iw, sd, iv, wf⟩ := d
  dsimp only at h1 h2 h3 h4
  subst h1 h2 h3 h4
  fin_cases a
  unfold ScatterDims.start
  split_ifs with ha
  · refine congrArg (fun v => (idx v).toInt) ?_
    funext b
    apply Fin.ext
    fin_cases b <;> rfl
  · exact absurd (List.mem_singleton.2 rfl) ha

/-- The vector's one axis is an inserted one: the window coordinate there is zero. -/
private theorem vec_window {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (j : (⟨1, ![n]⟩ : Shape).Idx) (a : Fin 1) :
    d.window j a = 0 := by
  obtain ⟨uw, iw, sd, iv, wf⟩ := d
  dsimp only at h1 h2 h3 h4
  subst h1 h2 h3 h4
  fin_cases a
  unfold ScatterDims.window
  split_ifs with ha
  · exact absurd (show _ ∈ ([] : List (Fin 1)) from ha) List.not_mem_nil
  · rfl

/-- The vector scatter-add at element `c`: the operand's element plus the updates of the edges whose index
    word, read signed, is `c`. -/
theorem scatterAdd_vec_read {C n : Nat} {φ : FTy} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1)
    (x : (⟨1, ![C]⟩ : Shape).Idx → EReal) (idx : IVec ⟨2, ![n, 1]⟩ 32) (upd : (⟨1, ![n]⟩ : Shape).Idx → EReal) (c : Fin C) :
    Host.scatterAdd (F := Ideal) (φ := φ) d x idx upd (ix1 c)
      = x (ix1 c) + ∑ e ∈ Finset.univ.filter (fun e : Fin n => (idx (ix2 e (0 : Fin 1))).toInt = (c.val : ℤ)),
          upd (ix1 e) := by
  have key : ∀ j : (⟨1, ![n]⟩ : Shape).Idx,
      d.resultIdx? j idx = some (ix1 c) ↔ (idx (ix2 (j 0) (0 : Fin 1))).toInt = (c.val : ℤ) := by
    intro j
    rw [resultIdx?_eq_some_iff]
    constructor
    · intro e
      have e0 : d.start j idx 0 + (d.window j 0 : ℤ) = (c.val : ℤ) := e 0
      rw [vec_start d h1 h2 h3 h4, vec_window d h1 h2 h3 h4] at e0
      simpa using e0
    · intro e a
      have ea : d.start j idx a + (d.window j a : ℤ) = (c.val : ℤ) := by
        rw [vec_start d h1 h2 h3 h4, vec_window d h1 h2 h3 h4]
        simpa using e
      match a with
      | ⟨0, _⟩ => exact ea
  show Ideal.hostScatterAdd d x idx upd (ix1 c) = _
  unfold Ideal.hostScatterAdd
  congr 1
  refine Finset.sum_nbij' (fun j : (⟨1, ![n]⟩ : Shape).Idx => (j 0 : Fin n)) (fun e => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j _; exact (eq_ix1 j).symm
  · intro e _; rfl
  · intro j _; exact congrArg upd (eq_ix1 j)

/-! ## The table layout: one row per edge -/

/-- On the table's row axis an update's window starts at its edge's index word, read signed. -/
private theorem rows_start0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (List.mem_singleton.2 rfl) ha

/-- The table's column axis is not a scattered one: the window starts at zero there. -/
private theorem rows_start1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 1 = 0 := by
  obtain ⟨uw, iw, sd, iv, wf⟩ := d
  dsimp only at h1 h2 h3 h4
  subst h1 h2 h3 h4
  unfold ScatterDims.start
  split_ifs with ha
  · exact absurd (congrArg Fin.val (List.mem_singleton.1 ha)) Nat.one_ne_zero
  · rfl

/-- The table's row axis is an inserted one: the window coordinate there is zero. -/
private theorem rows_window0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 0 = 0 := by
  obtain ⟨uw, iw, sd, iv, wf⟩ := d
  dsimp only at h1 h2 h3 h4
  subst h1 h2 h3 h4
  unfold ScatterDims.window
  split_ifs with ha
  · exact absurd (show (0 : Fin 2) ∈ ([1] : List (Fin 2)) from ha) (by decide)
  · rfl

/-- On the table's column axis the window coordinate is the update's column. -/
private theorem rows_window1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 1 = (j 1).val := by
  obtain ⟨uw, iw, sd, iv, wf⟩ := d
  dsimp only at h1 h2 h3 h4
  subst h1 h2 h3 h4
  unfold ScatterDims.window
  split_ifs with ha
  · rfl
  · exact absurd (show (1 : Fin 2) ∈ ([1] : List (Fin 2)) from List.mem_singleton.2 rfl) ha

/-- The row scatter-add at element `(c, k)`: the operand's element plus the updates `(e, k)` of the edges `e`
    whose index word, read signed, is `c`. -/
theorem scatterAdd_rows_read {C D n : Nat} {φ : FTy} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1)
    (x : (⟨2, ![C, D]⟩ : Shape).Idx → EReal) (idx : IVec ⟨2, ![n, 1]⟩ 32) (upd : (⟨2, ![n, D]⟩ : Shape).Idx → EReal)
    (c : Fin C) (k : Fin D) :
    Host.scatterAdd (F := Ideal) (φ := φ) d x idx upd (ix2 c k)
      = x (ix2 c k) + ∑ e ∈ Finset.univ.filter (fun e : Fin n => (idx (ix2 e (0 : Fin 1))).toInt = (c.val : ℤ)),
          upd (ix2 e k) := by
  have key : ∀ j : (⟨2, ![n, D]⟩ : Shape).Idx,
      d.resultIdx? j idx = some (ix2 c k)
        ↔ ((idx (ix2 (j 0) (0 : Fin 1))).toInt = (c.val : ℤ) ∧ (j 1).val = k.val) := by
    intro j
    rw [resultIdx?_eq_some_iff]
    constructor
    · intro e
      have e0 : d.start j idx 0 + (d.window j 0 : ℤ) = (c.val : ℤ) := e 0
      have e1 : d.start j idx 1 + (d.window j 1 : ℤ) = (k.val : ℤ) := e 1
      rw [rows_start0 d h1 h2 h3 h4, rows_window0 d h1 h2 h3 h4] at e0
      rw [rows_start1 d h1 h2 h3 h4, rows_window1 d h1 h2 h3 h4] at e1
      refine ⟨by simpa using e0, ?_⟩
      omega
    · rintro ⟨e0, e1⟩ a
      match a with
      | ⟨0, _⟩ =>
        show d.start j idx 0 + (d.window j 0 : ℤ) = (c.val : ℤ)
        rw [rows_start0 d h1 h2 h3 h4, rows_window0 d h1 h2 h3 h4]
        simpa using e0
      | ⟨1, _⟩ =>
        show d.start j idx 1 + (d.window j 1 : ℤ) = (k.val : ℤ)
        rw [rows_start1 d h1 h2 h3 h4, rows_window1 d h1 h2 h3 h4]
        omega
  have back : ∀ j : (⟨2, ![n, D]⟩ : Shape).Idx, (j 1).val = k.val → ix2 (j 0 : Fin n) k = j := by
    intro j hk
    funext a
    match a with
    | ⟨0, _⟩ => rfl
    | ⟨1, _⟩ => exact Fin.ext hk.symm
  show Ideal.hostScatterAdd d x idx upd (ix2 c k) = _
  unfold Ideal.hostScatterAdd
  congr 1
  refine Finset.sum_nbij' (fun j : (⟨2, ![n, D]⟩ : Shape).Idx => (j 0 : Fin n)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    exact back j ((key j).1 (Finset.mem_filter.1 hj).2).2
  · intro e _; rfl
  · intro j hj
    exact congrArg upd (back j ((key j).1 (Finset.mem_filter.1 hj).2).2).symm

/-! ## The maximum over the rows -/

/-- The column index `c` with row `k` put back is `(k, c)`. -/
private theorem lift_rows {R C : Nat} (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- The host's maximum over the rows of a table, started at −∞, read at column `c`: the supremum over the rows. -/
theorem reduce_max_rows {R C : Nat} (x : (⟨2, ![R, C]⟩ : Shape).Idx → EReal) (init : (⟨0, ![]⟩ : Shape).Idx → EReal)
    (hinit : ∀ i, init i = ⊥) (h : (⟨2, ![R, C]⟩ : Shape).ReducesTo [0] ⟨1, ![C]⟩) (hu : 0 < (⟨0, ![]⟩ : Shape).numel)
    (c : Fin C) :
    Host.reduce (FloatOps.maximumf (F := Ideal) (φ := .f32)) x init h hu (ix1 c)
      = Finset.univ.sup fun r : Fin R => x (ix2 r c) := by
  -- the rank-one result has an axis, so the reduction is one the single-axis fold law covers
  have hr : (⟨2, ![R, C]⟩ : Shape).Reduces [0] ⟨1, ![C]⟩ := ⟨h.1, Nat.one_pos, h.2⟩
  rw [Host.reduce_eq_fold_single (FloatOps.maximumf (F := Ideal) (φ := .f32)) x init h hr hu, hinit]
  have hf : (x ∘ hr.lift (ix1 c)) = fun r : Fin R => x (ix2 r c) := funext fun k => congrArg x (lift_rows hr c k)
  rw [hf]
  -- a supremum over a finite set is by definition the fold of the binary supremum from the bottom element
  rfl

end Cert.LibScatter

end
-- ==== Proof.Ref.StagesB.lean ====
/-
  The reference's last stages against the network's layers. The attention gate of a node is the logistic function of
  its hidden row's product with the gate's weights plus the gate's bias (the reference spells it 1 / (1 + exp (−t)));
  the gated row is the hidden row times its gate; the per-graph sums add the gated rows of the nodes whose graph id is
  that graph; the result divides each sum by the graph's node count, multiplies by the classifier's weights and adds
  its bias. Last, the same per-graph sums written through a membership table of zeros and ones: a zero entry
  contributes nothing and a one entry the row itself, for every extended real, the infinities included.
-/
import proofs.«404283_j8701603742240_1_alg».proof.Proof.Gen.ReferenceIdeal.Read
import proofs.«404283_j8701603742240_1_alg».proof.Proof.Spec
import proofs.«404283_j8701603742240_1_alg».proof.Proof.LibScatter
import Idealize.ShloMosaic.Lib.IdealHost

noncomputable section

open scoped BigOperators

namespace Cert.ReferenceIdeal.Hand

open Cert.ReferenceIdeal Cert.ReferenceIdeal.Read Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x1, .f32⟩ : BufTy).Contents (Elt Ideal))
  (x8 : (⟨S1, .f32⟩ : BufTy).Contents (Elt Ideal)) (x9 : (⟨S64x10, .f32⟩ : BufTy).Contents (Elt Ideal))
  (x10 : (⟨S10, .f32⟩ : BufTy).Contents (Elt Ideal))

/-- The gate of every node: the logistic function of the hidden row times the gate's weights plus the gate's bias. -/
theorem ref_hw : val_main_v66 (F := Ideal) x0 x1 x3 x4 x5 x6 x7 x8
    = Cert.Spec.gateW (val_main_v56 (F := Ideal) x0 x1 x3 x4 x5 x6) (Cert.Spec.rowT x7) (Cert.Spec.one11 x8) := by
  funext i
  obtain ⟨n, u, rfl⟩ : ∃ (n : Fin 100000) (u : Fin 1), i = ix2 n u := ⟨i 0, i 1, eq_ix2 i⟩
  obtain rfl : u = 0 := Subsingleton.elim _ _
  have el : ∀ k : Fin 64, lidx_main_v57 (ix2 n (0 : Fin 1)) k = ix2 n k := fun k =>
    funext fun a => Fin.ext (by match a with | ⟨0, _⟩ => rfl | ⟨1, _⟩ => rfl)
  have er : ∀ k : Fin 64, ridx_main_v57 (ix2 n (0 : Fin 1)) k = ix2 k (0 : Fin 1) := fun k =>
    funext fun a => Fin.ext (by match a with | ⟨0, _⟩ => rfl | ⟨1, _⟩ => rfl)
  have eb : idx_main_v58 (idx_main_v59 (ix2 n (0 : Fin 1))) = ix1 (0 : Fin 1) :=
    funext fun a => Fin.ext (by match a with | ⟨0, _⟩ => rfl)
  rw [val_main_v66_apply, val_main_v65_apply, val_main_cst_10_apply, val_main_v64_apply, val_main_v63_apply,
    val_main_cst_9_apply, val_main_v62_apply, val_main_v61_apply, val_main_v60_apply, val_main_v57_apply,
    val_main_v59_apply, val_main_v58_apply]
  simp only [el, er, eb, Ideal.hostDivf_def, Ideal.addf_def, Ideal.hostUnary_exp_def, Ideal.hostNegf_def,
    Ideal.negf_def, Ideal.ofBits_def, Ideal.ofBits_one_f32]
  rfl

/-- The gated rows: each hidden row times its node's gate. -/
theorem ref_hg : val_main_v68 (F := Ideal) x0 x1 x3 x4 x5 x6 x7 x8
    = Cert.Spec.gated (val_main_v56 (F := Ideal) x0 x1 x3 x4 x5 x6) (val_main_v66 (F := Ideal) x0 x1 x3 x4 x5 x6 x7 x8) := by
  funext i
  obtain ⟨n, d, rfl⟩ : ∃ (n : Fin 100000) (d : Fin 64), i = ix2 n d := ⟨i 0, i 1, eq_ix2 i⟩
  have e : idx_main_v67 (ix2 n d) = ix2 n (0 : Fin 1) :=
    funext fun a => Fin.ext (by match a with | ⟨0, _⟩ => rfl | ⟨1, _⟩ => rfl)
  rw [val_main_v68_apply, val_main_v67_apply, e]
  rfl

/-- The result: each per-graph sum divided by the graph's node count, times the classifier's weights, plus its bias. -/
theorem ref_out : val_main_v83 (F := Ideal) x0 x1 x2 x3 x4 x5 x6 x7 x8 x9 x10
    = Cert.Spec.classify (val_main_v71 (F := Ideal) x0 x1 x2 x3 x4 x5 x6 x7 x8)
        (Cert.Spec.col (val_main_v76 (F := Ideal) x2)) x9 (Cert.Spec.row x10) := by
  funext i
  obtain ⟨g, c, rfl⟩ : ∃ (g : Fin 64) (c : Fin 10), i = ix2 g c := ⟨i 0, i 1, eq_ix2 i⟩
  have el : ∀ k : Fin 64, lidx_main_v80 (ix2 g c) k = ix2 g k := fun k =>
    funext fun a => Fin.ext (by match a with | ⟨0, _⟩ => rfl | ⟨1, _⟩ => rfl)
  have er : ∀ k : Fin 64, ridx_main_v80 (ix2 g c) k = ix2 k c := fun k =>
    funext fun a => Fin.ext (by match a with | ⟨0, _⟩ => rfl | ⟨1, _⟩ => rfl)
  have ec : ∀ k : Fin 64, idx_main_v77 (idx_main_v78 (ix2 g k)) = ix1 g := fun k =>
    funext fun a => Fin.ext (by match a with | ⟨0, _⟩ => rfl)
  have eb : idx_main_v81 (idx_main_v82 (ix2 g c)) = ix1 c :=
    funext fun a => Fin.ext (by match a with | ⟨0, _⟩ => rfl)
  rw [val_main_v83_apply, val_main_v80_apply, val_main_v82_apply, val_main_v81_apply]
  simp only [el, er, eb, val_main_v79_apply, val_main_v78_apply, val_main_v77_apply, ec, Ideal.hostDivf_def,
    Ideal.addf_def]
  rfl

/-- The per-graph sums: entry (g, d) adds the gated rows' entry d over the nodes whose graph id, read signed, is g. -/
theorem ref_sums (g : Fin 64) (d : Fin 64) : val_main_v71 (F := Ideal) x0 x1 x2 x3 x4 x5 x6 x7 x8 (ix2 g d)
    = ∑ e ∈ Finset.univ.filter (fun e : Fin 100000 => (x2 (ix1 e)).toInt = (g.val : ℤ)),
        val_main_v68 (F := Ideal) x0 x1 x3 x4 x5 x6 x7 x8 (ix2 e d) := by
  have ei : ∀ e : Fin 100000, val_main_v70 (F := Ideal) x2 (ix2 e (0 : Fin 1)) = x2 (ix1 e) := fun e => by
    rw [val_main_v70_apply]
    exact congrArg x2 (funext fun a => Fin.ext (by match a with | ⟨0, _⟩ => rfl))
  unfold val_main_v71
  refine (Cert.LibScatter.scatterAdd_rows_read scatter_S64x64_S100000x1_S100000x64_1_0_0_1 rfl rfl rfl rfl
    _ _ _ g d).trans ?_
  rw [val_main_v69_apply, val_main_cst_11_apply]
  simp only [ei, Ideal.ofBits_def, Ideal.ofBits_zero_f32, zero_add]

/-- The per-graph sums through a membership table of zeros and ones are the sums over each graph's own nodes. -/
theorem poolSum_onehot (gid : (⟨1, ![100000]⟩ : Shape).Idx → BitVec 32) (oh hg : Cert.Spec.M 100000 64)
    (hoh : ∀ (n : Fin 100000) (g : Fin 64), oh (ix2 n g) = if (gid (ix1 n)).toInt = (g.val : ℤ) then 1 else 0)
    (g d : Fin 64) :
    Cert.Spec.poolSum oh hg (ix2 g d)
      = ∑ e ∈ Finset.univ.filter (fun e : Fin 100000 => (gid (ix1 e)).toInt = (g.val : ℤ)), hg (ix2 e d) := by
  show ∑ n : Fin 100000, oh (ix2 n g) * hg (ix2 n d) = _
  rw [Finset.sum_filter]
  refine Finset.sum_congr rfl fun n _ => ?_
  rw [hoh n g]
  split_ifs with h
  · exact one_mul _
  · exact zero_mul _

end Cert.ReferenceIdeal.Hand

end
-- ==== Proof.KI.Bridge.lean ====
/-
  The kernel's program against the reference's, stage by stage, at the extended reals: every buffer the regions read
  holds the reference's value of the same name in the network — the degree factors, the projected rows, the aggregated
  rows, the hidden rows of both layers, the gate, the gated rows, the node counts —, so the two results agree. The host
  operations between the regions are the reference's own; each region computes its layer block by block; the last
  region's per-graph sums through the membership table are the reference's scatter-add over the graph ids.
-/
import proofs.«404283_j8701603742240_1_alg».proof.Proof.KI.Fold
import proofs.«404283_j8701603742240_1_alg».proof.Proof.KI.Val0
import proofs.«404283_j8701603742240_1_alg».proof.Proof.KI.Val1
import proofs.«404283_j8701603742240_1_alg».proof.Proof.KI.Val2
import proofs.«404283_j8701603742240_1_alg».proof.Proof.KI.Val3
import proofs.«404283_j8701603742240_1_alg».proof.Proof.KI.Val4
import proofs.«404283_j8701603742240_1_alg».proof.Proof.KI.Val5
import proofs.«404283_j8701603742240_1_alg».proof.Proof.KI.Val5Sum
import proofs.«404283_j8701603742240_1_alg».proof.Proof.KI.HostA
import proofs.«404283_j8701603742240_1_alg».proof.Proof.KI.HostB
import proofs.«404283_j8701603742240_1_alg».proof.Proof.KI.HostC
import proofs.«404283_j8701603742240_1_alg».proof.Proof.Ref.StagesA
import proofs.«404283_j8701603742240_1_alg».proof.Proof.Ref.StagesB

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read (val_main_v1 val_main_v3 val_main_v4 val_main_v7 val_main_v8 val_main_v11 val_main_v12 val_main_v13 val_main_v14
  val_main_v18 val_main_v28 val_main_v35 val_main_v39 val_main_v49 val_main_v56 val_main_v66 val_main_v68 val_main_v71 val_main_v75 val_main_v76 val_main_v83)
open Cert.ReferenceIdeal.Hand (ref_t1 ref_h1 ref_t2 ref_h2 ref_hw ref_hg ref_out ref_sums poolSum_onehot)

variable (m : (ℓ : Loc nD τ sig) → Buf (Elt Ideal) ℓ) (c : Dev nD)

/-! ## The degree factors and the edge lists (the host operations before the first region) -/

theorem b1_v1 : B1 m c (Proc.devRef .tc main_v1) = val_main_v1 (F := Ideal) (m ((c.tc : Thread nD τ).loc main_arg1)) := hA_v1 (B0 m c)
theorem b1_v3 : B1 m c (Proc.devRef .tc main_v3) = val_main_v3 (F := Ideal) (m ((c.tc : Thread nD τ).loc main_arg1)) := hA_v3 (B0 m c)
theorem b1_v4 : B1 m c (Proc.devRef .tc main_v4) = val_main_v4 (F := Ideal) := hA_v4 (B0 m c)
theorem b1_v7 : B1 m c (Proc.devRef .tc main_v7) = val_main_v7 (F := Ideal) (m ((c.tc : Thread nD τ).loc main_arg1)) := hA_v7 (B0 m c)
theorem b2_v8 : B2 m c (Proc.devRef .tc main_v8) = val_main_v8 (F := Ideal) (m ((c.tc : Thread nD τ).loc main_arg1)) := hA_v8 (B1 m c) _ (b1_v7 m c) (hA_cst_1 (B0 m c))
theorem b3_v11 : B3 m c (Proc.devRef .tc main_v11) = val_main_v11 (F := Ideal) (m ((c.tc : Thread nD τ).loc main_arg1)) :=
  hA_v11 (B2 m c) _ ((B2_keep m c main_v3 (by decide)).trans <| b1_v3 m c) ((B2_keep m c main_v4 (by decide)).trans <| b1_v4 m c)
theorem b4_v12 : B4 m c (Proc.devRef .tc main_v12) = val_main_v12 (F := Ideal) (m ((c.tc : Thread nD τ).loc main_arg1)) := hA_v12 (B3 m c) _ (b3_v11 m c) (hA_cst_3 (B2 m c))
/-- The out-degree factors, as a column. -/
theorem b5_v14 : B5 m c (Proc.devRef .tc main_v14) = Cert.Spec.col (val_main_v13 (F := Ideal) (m ((c.tc : Thread nD τ).loc main_arg1))) :=
  hA_v14 (B4 m c) _ ((B4_keep m c main_v8 (by decide)).trans <| (B3_keep m c main_v8 (by decide)).trans <| b2_v8 m c)
/-- The in-degree factors, as a column. -/
theorem b5_v16 : B5 m c (Proc.devRef .tc main_v16) = Cert.Spec.col (val_main_v14 (F := Ideal) (m ((c.tc : Thread nD τ).loc main_arg1))) :=
  hA_v16 (B4 m c) _ (b4_v12 m c)
theorem b6_v1 : B6 m c (Proc.devRef .tc main_v1) = val_main_v1 (F := Ideal) (m ((c.tc : Thread nD τ).loc main_arg1)) := (B6_keep m c main_v1 (by decide)).trans <| (B5_keep m c main_v1 (by decide)).trans <| (B4_keep m c main_v1 (by decide)).trans <| (B3_keep m c main_v1 (by decide)).trans <| (B2_keep m c main_v1 (by decide)).trans <| b1_v1 m c
theorem b6_v3 : B6 m c (Proc.devRef .tc main_v3) = val_main_v3 (F := Ideal) (m ((c.tc : Thread nD τ).loc main_arg1)) := (B6_keep m c main_v3 (by decide)).trans <| (B5_keep m c main_v3 (by decide)).trans <| (B4_keep m c main_v3 (by decide)).trans <| (B3_keep m c main_v3 (by decide)).trans <| (B2_keep m c main_v3 (by decide)).trans <| b1_v3 m c
theorem b9_v1 : B9 m c (Proc.devRef .tc main_v1) = val_main_v1 (F := Ideal) (m ((c.tc : Thread nD τ).loc main_arg1)) := (B9_keep m c main_v1 (by decide)).trans <| (B8_keep m c main_v1 (by decide)).trans <| (B7_keep m c main_v1 (by decide)).trans <| b6_v1 m c
theorem b9_v3 : B9 m c (Proc.devRef .tc main_v3) = val_main_v3 (F := Ideal) (m ((c.tc : Thread nD τ).loc main_arg1)) := (B9_keep m c main_v3 (by decide)).trans <| (B8_keep m c main_v3 (by decide)).trans <| (B7_keep m c main_v3 (by decide)).trans <| b6_v3 m c

/-! ## The first layer -/

/-- Region 0 leaves the reference's projected and scaled rows. -/
theorem b6_v17 : B6 m c (Proc.devRef .tc main_v17) = val_main_v18 (F := Ideal) (m ((c.tc : Thread nD τ).loc main_arg0)) (m ((c.tc : Thread nD τ).loc main_arg1)) (m ((c.tc : Thread nD τ).loc main_arg3)) := by
  refine (B6_arr m c 3).trans ((arr0_3 (A5 m) c).trans ?_)
  rw [show A5 m c main_arg0 = (m ((c.tc : Thread nD τ).loc main_arg0)) from (B5_keep m c main_arg0 (by decide)).trans <| (B4_keep m c main_arg0 (by decide)).trans <| (B3_keep m c main_arg0 (by decide)).trans <| (B2_keep m c main_arg0 (by decide)).trans <| (B1_keep m c main_arg0 (by decide)).trans <| rfl,
    show A5 m c main_arg3 = (m ((c.tc : Thread nD τ).loc main_arg3)) from (B5_keep m c main_arg3 (by decide)).trans <| (B4_keep m c main_arg3 (by decide)).trans <| (B3_keep m c main_arg3 (by decide)).trans <| (B2_keep m c main_arg3 (by decide)).trans <| (B1_keep m c main_arg3 (by decide)).trans <| rfl,
    show A5 m c main_v14 = _ from b5_v14 m c]
  exact (ref_t1 _ _ _).symm
/-- The host aggregation over the edges is the reference's. -/
theorem b7_v27 : B7 m c (Proc.devRef .tc main_v27) = val_main_v28 (F := Ideal) (m ((c.tc : Thread nD τ).loc main_arg0)) (m ((c.tc : Thread nD τ).loc main_arg1)) (m ((c.tc : Thread nD τ).loc main_arg3)) :=
  hB_v27 (B6 m c) _ _ _ (b6_v1 m c) (b6_v3 m c) (b6_v17 m c)
theorem b7_v28 : B7 m c (Proc.devRef .tc main_v28) = Cert.Spec.row (m ((c.tc : Thread nD τ).loc main_arg4)) :=
  (hB_v28 (B6 m c)).trans (congrArg Cert.Spec.row ((B6_keep m c main_arg4 (by decide)).trans <| (B5_keep m c main_arg4 (by decide)).trans <| (B4_keep m c main_arg4 (by decide)).trans <| (B3_keep m c main_arg4 (by decide)).trans <| (B2_keep m c main_arg4 (by decide)).trans <| (B1_keep m c main_arg4 (by decide)).trans <| rfl))
theorem b7_v16 : B7 m c (Proc.devRef .tc main_v16) = Cert.Spec.col (val_main_v14 (F := Ideal) (m ((c.tc : Thread nD τ).loc main_arg1))) := (B7_keep m c main_v16 (by decide)).trans <| (B6_keep m c main_v16 (by decide)).trans <| b5_v16 m c
/-- Region 1 leaves the reference's first hidden rows. -/
theorem b8_v29 : B8 m c (Proc.devRef .tc main_v29) = val_main_v35 (F := Ideal) (m ((c.tc : Thread nD τ).loc main_arg0)) (m ((c.tc : Thread nD τ).loc main_arg1)) (m ((c.tc : Thread nD τ).loc main_arg3)) (m ((c.tc : Thread nD τ).loc main_arg4)) := by
  refine (B8_arr m c 3).trans ((arr1_3 (A7 m) c).trans ?_)
  rw [show A7 m c main_v27 = _ from b7_v27 m c, show A7 m c main_v16 = _ from b7_v16 m c, show A7 m c main_v28 = _ from b7_v28 m c]
  exact (ref_h1 _ _ _ _).symm

/-! ## The second layer -/

theorem b8_v14 : B8 m c (Proc.devRef .tc main_v14) = Cert.Spec.col (val_main_v13 (F := Ideal) (m ((c.tc : Thread nD τ).loc main_arg1))) := (B8_keep m c main_v14 (by decide)).trans <| (B7_keep m c main_v14 (by decide)).trans <| (B6_keep m c main_v14 (by decide)).trans <| b5_v14 m c
/-- Region 2 leaves the reference's second projected and scaled rows. -/
theorem b9_v30 : B9 m c (Proc.devRef .tc main_v30) = val_main_v39 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (B9_arr m c 3).trans ((arr2_3 (A8 m) c).trans ?_)
  rw [show A8 m c main_v29 = _ from b8_v29 m c,
    show A8 m c main_arg5 = (m ((c.tc : Thread nD τ).loc main_arg5)) from (B8_keep m c main_arg5 (by decide)).trans <| (B7_keep m c main_arg5 (by decide)).trans <| (B6_keep m c main_arg5 (by decide)).trans <| (B5_keep m c main_arg5 (by decide)).trans <| (B4_keep m c main_arg5 (by decide)).trans <| (B3_keep m c main_arg5 (by decide)).trans <| (B2_keep m c main_arg5 (by decide)).trans <| (B1_keep m c main_arg5 (by decide)).trans <| rfl,
    show A8 m c main_v14 = _ from b8_v14 m c]
  exact (ref_t2 _ _ _ _ _).symm
theorem b10_v40 : B10 m c (Proc.devRef .tc main_v40) = val_main_v49 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  hB_v40 (B9 m c) _ _ _ _ _ (b9_v1 m c) (b9_v3 m c) (b9_v30 m c)
theorem b10_v41 : B10 m c (Proc.devRef .tc main_v41) = Cert.Spec.row (m ((c.tc : Thread nD τ).loc main_arg6)) :=
  (hB_v41 (B9 m c)).trans (congrArg Cert.Spec.row ((B9_keep m c main_arg6 (by decide)).trans <| (B8_keep m c main_arg6 (by decide)).trans <| (B7_keep m c main_arg6 (by decide)).trans <| (B6_keep m c main_arg6 (by decide)).trans <| (B5_keep m c main_arg6 (by decide)).trans <| (B4_keep m c main_arg6 (by decide)).trans <| (B3_keep m c main_arg6 (by decide)).trans <| (B2_keep m c main_arg6 (by decide)).trans <| (B1_keep m c main_arg6 (by decide)).trans <| rfl))
theorem b10_v16 : B10 m c (Proc.devRef .tc main_v16) = Cert.Spec.col (val_main_v14 (F := Ideal) (m ((c.tc : Thread nD τ).loc main_arg1))) := (B10_keep m c main_v16 (by decide)).trans <| (B9_keep m c main_v16 (by decide)).trans <| (B8_keep m c main_v16 (by decide)).trans <| b7_v16 m c
/-- Region 3 leaves the reference's second hidden rows. -/
theorem b11_v42 : B11 m c (Proc.devRef .tc main_v42) = val_main_v56 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (B11_arr m c 3).trans ((arr3_3 (A10 m) c).trans ?_)
  rw [show A10 m c main_v40 = _ from b10_v40 m c, show A10 m c main_v16 = _ from b10_v16 m c, show A10 m c main_v41 = _ from b10_v41 m c]
  exact (ref_h2 _ _ _ _ _ _).symm

/-! ## The attention gate -/

theorem b12_v42 : B12 m c (Proc.devRef .tc main_v42) = val_main_v56 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := (B12_keep m c main_v42 (by decide)).trans <| b11_v42 m c
theorem b12_v43 : B12 m c (Proc.devRef .tc main_v43) = Cert.Spec.rowT (m ((c.tc : Thread nD τ).loc main_arg7)) :=
  (hB_v43 (B11 m c)).trans (congrArg Cert.Spec.rowT ((B11_keep m c main_arg7 (by decide)).trans <| (B10_keep m c main_arg7 (by decide)).trans <| (B9_keep m c main_arg7 (by decide)).trans <| (B8_keep m c main_arg7 (by decide)).trans <| (B7_keep m c main_arg7 (by decide)).trans <| (B6_keep m c main_arg7 (by decide)).trans <| (B5_keep m c main_arg7 (by decide)).trans <| (B4_keep m c main_arg7 (by decide)).trans <| (B3_keep m c main_arg7 (by decide)).trans <| (B2_keep m c main_arg7 (by decide)).trans <| (B1_keep m c main_arg7 (by decide)).trans <| rfl))
theorem b12_v44 : B12 m c (Proc.devRef .tc main_v44) = Cert.Spec.one11 (m ((c.tc : Thread nD τ).loc main_arg8)) :=
  (hB_v44 (B11 m c)).trans (congrArg Cert.Spec.one11 ((B11_keep m c main_arg8 (by decide)).trans <| (B10_keep m c main_arg8 (by decide)).trans <| (B9_keep m c main_arg8 (by decide)).trans <| (B8_keep m c main_arg8 (by decide)).trans <| (B7_keep m c main_arg8 (by decide)).trans <| (B6_keep m c main_arg8 (by decide)).trans <| (B5_keep m c main_arg8 (by decide)).trans <| (B4_keep m c main_arg8 (by decide)).trans <| (B3_keep m c main_arg8 (by decide)).trans <| (B2_keep m c main_arg8 (by decide)).trans <| (B1_keep m c main_arg8 (by decide)).trans <| rfl))
/-- Region 4's first output is the reference's gate. -/
theorem b13_v45_0 : B13 m c (Proc.devRef .tc main_v45_0) = val_main_v66 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (B13_arr m c 3).trans ((arr4_3 (A12 m) c).trans ?_)
  rw [show A12 m c main_v42 = _ from b12_v42 m c, show A12 m c main_v43 = _ from b12_v43 m c, show A12 m c main_v44 = _ from b12_v44 m c]
  exact (ref_hw _ _ _ _ _ _ _ _).symm
/-- Region 4's second output is the reference's gated rows. -/
theorem b13_v45_1 : B13 m c (Proc.devRef .tc main_v45_1) = val_main_v68 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (B13_arr m c 4).trans ((arr4_4 (A12 m) c).trans ?_)
  rw [show A12 m c main_v42 = _ from b12_v42 m c, show A12 m c main_v43 = _ from b12_v43 m c, show A12 m c main_v44 = _ from b12_v44 m c,
    ← ref_hw (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))]
  exact (ref_hg _ _ _ _ _ _ _ _).symm

/-! ## The pooling and the classifier -/

theorem b14_v56 : B14 m c (Proc.devRef .tc main_v56) = val_main_v75 (F := Ideal) (m ((c.tc : Thread nD τ).loc main_arg2)) :=
  (hC_v56 (B13 m c)).trans (congrArg (val_main_v75 (F := Ideal)) ((B13_keep m c main_arg2 (by decide)).trans <| (B12_keep m c main_arg2 (by decide)).trans <| (B11_keep m c main_arg2 (by decide)).trans <| (B10_keep m c main_arg2 (by decide)).trans <| (B9_keep m c main_arg2 (by decide)).trans <| (B8_keep m c main_arg2 (by decide)).trans <| (B7_keep m c main_arg2 (by decide)).trans <| (B6_keep m c main_arg2 (by decide)).trans <| (B5_keep m c main_arg2 (by decide)).trans <| (B4_keep m c main_arg2 (by decide)).trans <| (B3_keep m c main_arg2 (by decide)).trans <| (B2_keep m c main_arg2 (by decide)).trans <| (B1_keep m c main_arg2 (by decide)).trans <| rfl))
theorem b15_v57 : B15 m c (Proc.devRef .tc main_v57) = val_main_v76 (F := Ideal) (m ((c.tc : Thread nD τ).loc main_arg2)) := hC_v57 (B14 m c) _ (b14_v56 m c) (hC_cst11 (B13 m c))
theorem b16_v58 : B16 m c (Proc.devRef .tc main_v58) = Cert.Spec.col (val_main_v76 (F := Ideal) (m ((c.tc : Thread nD τ).loc main_arg2))) := hC_v58 (B15 m c) _ (b15_v57 m c)
theorem b16_v59 : B16 m c (Proc.devRef .tc main_v59) = Cert.Spec.row (m ((c.tc : Thread nD τ).loc main_arg10)) :=
  (hC_v59 (B15 m c)).trans (congrArg Cert.Spec.row ((B15_keep m c main_arg10 (by decide)).trans <| (B14_keep m c main_arg10 (by decide)).trans <| (B13_keep m c main_arg10 (by decide)).trans <| (B12_keep m c main_arg10 (by decide)).trans <| (B11_keep m c main_arg10 (by decide)).trans <| (B10_keep m c main_arg10 (by decide)).trans <| (B9_keep m c main_arg10 (by decide)).trans <| (B8_keep m c main_arg10 (by decide)).trans <| (B7_keep m c main_arg10 (by decide)).trans <| (B6_keep m c main_arg10 (by decide)).trans <| (B5_keep m c main_arg10 (by decide)).trans <| (B4_keep m c main_arg10 (by decide)).trans <| (B3_keep m c main_arg10 (by decide)).trans <| (B2_keep m c main_arg10 (by decide)).trans <| (B1_keep m c main_arg10 (by decide)).trans <| rfl))
theorem b16_v45_1 : B16 m c (Proc.devRef .tc main_v45_1) = val_main_v68 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (B16_keep m c main_v45_1 (by decide)).trans <| (B15_keep m c main_v45_1 (by decide)).trans <| (B14_keep m c main_v45_1 (by decide)).trans <| b13_v45_1 m c
/-- The membership table: node `n` against graph `g`. -/
theorem b16_v52 (n : Fin 100000) (g : Fin 64) :
    (B16 m c (Proc.devRef .tc main_v52) : Vec Ideal S100000x64 .bf16) (ix2 n g)
      = if (((m ((c.tc : Thread nD τ).loc main_arg2)) : IVec S100000 32) (ix1 n)).toInt = (g.val : ℤ) then (1 : EReal) else 0 := by
  have h := hC_v52 (B13 m c) n g
  rw [show B13 m c (Proc.devRef .tc main_arg2) = (m ((c.tc : Thread nD τ).loc main_arg2)) from (B13_keep m c main_arg2 (by decide)).trans <| (B12_keep m c main_arg2 (by decide)).trans <| (B11_keep m c main_arg2 (by decide)).trans <| (B10_keep m c main_arg2 (by decide)).trans <| (B9_keep m c main_arg2 (by decide)).trans <| (B8_keep m c main_arg2 (by decide)).trans <| (B7_keep m c main_arg2 (by decide)).trans <| (B6_keep m c main_arg2 (by decide)).trans <| (B5_keep m c main_arg2 (by decide)).trans <| (B4_keep m c main_arg2 (by decide)).trans <| (B3_keep m c main_arg2 (by decide)).trans <| (B2_keep m c main_arg2 (by decide)).trans <| (B1_keep m c main_arg2 (by decide)).trans <| rfl] at h
  exact (congrFun ((B16_keep m c main_v52 (by decide)).trans <| (B15_keep m c main_v52 (by decide)).trans <| rfl : B16 m c (Proc.devRef .tc main_v52) = B14 m c (Proc.devRef .tc main_v52)) (ix2 n g)).trans h
/-- The per-graph sums through the membership table are the reference's scatter-add over the graph ids. -/
theorem pool_eq : Cert.Spec.poolSum (A16 m c main_v52) (A16 m c main_v45_1) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨g, d, rfl⟩ : ∃ (g : Fin 64) (d : Fin 64), i = ix2 g d := ⟨i 0, i 1, eq_ix2 i⟩
  rw [show A16 m c main_v45_1 = _ from b16_v45_1 m c]
  rw [poolSum_onehot (m ((c.tc : Thread nD τ).loc main_arg2)) (A16 m c main_v52) _ (fun n g => b16_v52 m c n g) g d]
  exact (ref_sums _ _ _ _ _ _ _ _ _ g d).symm
/-- Region 5 leaves the reference's class scores. -/
theorem b17_v60 : B17 m c (Proc.devRef .tc main_v60) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (B17_arr m c 5).trans ((arr5_5 (A16 m) c _ (sAt5_last (A16 m) c)).trans ?_)
  rw [pool_eq m c, show A16 m c main_v58 = _ from b16_v58 m c,
    show A16 m c main_arg9 = (m ((c.tc : Thread nD τ).loc main_arg9)) from (B16_keep m c main_arg9 (by decide)).trans <| (B15_keep m c main_arg9 (by decide)).trans <| (B14_keep m c main_arg9 (by decide)).trans <| (B13_keep m c main_arg9 (by decide)).trans <| (B12_keep m c main_arg9 (by decide)).trans <| (B11_keep m c main_arg9 (by decide)).trans <| (B10_keep m c main_arg9 (by decide)).trans <| (B9_keep m c main_arg9 (by decide)).trans <| (B8_keep m c main_arg9 (by decide)).trans <| (B7_keep m c main_arg9 (by decide)).trans <| (B6_keep m c main_arg9 (by decide)).trans <| (B5_keep m c main_arg9 (by decide)).trans <| (B4_keep m c main_arg9 (by decide)).trans <| (B3_keep m c main_arg9 (by decide)).trans <| (B2_keep m c main_arg9 (by decide)).trans <| (B1_keep m c main_arg9 (by decide)).trans <| rfl,
    show A16 m c main_v59 = _ from b16_v59 m c]
  exact (ref_out _ _ _ _ _ _ _ _ _ _ _).symm
/-- The gate, at the end. -/
theorem b17_v45_0 : B17 m c (Proc.devRef .tc main_v45_0) = val_main_v66 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (B17_keep m c main_v45_0 (by decide)).trans <| (B16_keep m c main_v45_0 (by decide)).trans <| (B15_keep m c main_v45_0 (by decide)).trans <| (B14_keep m c main_v45_0 (by decide)).trans <| b13_v45_0 m c

end Cert.KernelIdeal.Hand

end
-- ==== Proof.lean ====
/-
  The certificate of the graph network's forward pass: two graph-convolution layers (project a node's row and scale
  it by its out-degree factor; sum the scaled rows over the incoming edges; scale by the in-degree factor, add a bias,
  clamp at zero), an attention gate (the logistic function of a row's product with the gate's weights), mean pooling
  of the gated rows per graph, and a linear classifier — six kernel regions among stretches of host operations —
  against the reference that computes the same network with whole-array operations.

  The frames: each program runs to the end, faults nowhere and leaves its arguments as launched. The kernel's two
  (at words, and at the extended reals) are one argument, generic in the float instance: the program is a list of
  host stretches and regions; each region's body is run once per control case, the pooling region carrying its
  accumulator in the region invariant. The reference's is its run with the results dropped.

  The equivalence, over the extended reals: what each region leaves is its layer applied to what it was handed
  (row block by row block; the matrix products are sums over the contracted axis, the changes of float format are
  the identity), the host operations in between are literally the reference's, and the last region's pooled sums
  through the membership table (node against graph: one where the node's graph id is the graph, zero elsewhere)
  are the reference's scatter-add over the graph ids, since zero times anything is zero and one times anything is
  itself, at the infinities too. No step moves a factor across a sum, so the inputs' finiteness is never used.
-/
import proofs.«404283_j8701603742240_1_alg».proof.Defs
import proofs.«404283_j8701603742240_1_alg».proof.Proof.Gen.Kernel
import proofs.«404283_j8701603742240_1_alg».proof.Proof.Gen.KernelIdeal
import proofs.«404283_j8701603742240_1_alg».proof.Proof.Gen.ReferenceIdeal
import proofs.«404283_j8701603742240_1_alg».proof.Proof.Gen.Pre_finite_inputs
import proofs.«404283_j8701603742240_1_alg».proof.Proof.Gen.ReferenceIdeal.Run
import proofs.«404283_j8701603742240_1_alg».proof.Proof.Gen.ReferenceIdeal.Read
import proofs.«404283_j8701603742240_1_alg».proof.Proof.K.Segs
import proofs.«404283_j8701603742240_1_alg».proof.Proof.KI.Segs
import proofs.«404283_j8701603742240_1_alg».proof.Proof.KI.Bridge
import Idealize.ShloMosaic.Adequacy
import Idealize.ShloMosaic.Init

noncomputable section

namespace Cert.Proof

open Idealize.ShloMosaic Idealize.SL.Sem

/-- The kernel's program at words runs to the end and leaves its arguments as launched. -/
theorem frame_k : Cert.frame_Kernel (hKernel := Cert.Kernel.Gen.facts) (hPre_finite_inputs := Cert.Pre_finite_inputs.Gen.facts) :=
  fun m ρ _ => Cert.Kernel.Hand.frameH m ρ

/-- The same program read at the extended reals does too. -/
theorem frame_ki : Cert.frame_KernelIdeal (hKernelIdeal := Cert.KernelIdeal.Gen.facts) (hPre_finite_inputs := Cert.Pre_finite_inputs.Gen.facts) :=
  fun m ρ _ => Cert.KernelIdeal.Hand.frameH m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the arguments both programs end with the class scores and the gate the kernel's
    last boundary holds: the kernel by its run, the reference because its two result terms are those buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.B17 m c (Proc.devRef .tc Cert.KernelIdeal.main_v60),
    fun c => Cert.KernelIdeal.Hand.B17 m c (Proc.devRef .tc Cert.KernelIdeal.main_v45_0), ?_, ?_⟩
  · refine (θ_run Cert.KernelIdeal.defs _ _).mono (fun r h c => ?_) (Cert.KernelIdeal.Hand.run_all m ρ)
    exact ⟨h c _ (Cert.KernelIdeal.Hand.mem_uc Cert.KernelIdeal.main_v60 (by decide)),
      h c _ (Cert.KernelIdeal.Hand.mem_uc Cert.KernelIdeal.main_v45_0 (by decide)),
      (h c _ (Cert.KernelIdeal.Hand.mem_uc Cert.KernelIdeal.main_arg0 (by decide))).trans (Cert.KernelIdeal.Hand.B17_main_arg0 m c),
      (h c _ (Cert.KernelIdeal.Hand.mem_uc Cert.KernelIdeal.main_arg1 (by decide))).trans (Cert.KernelIdeal.Hand.B17_main_arg1 m c),
      (h c _ (Cert.KernelIdeal.Hand.mem_uc Cert.KernelIdeal.main_arg2 (by decide))).trans (Cert.KernelIdeal.Hand.B17_main_arg2 m c),
      (h c _ (Cert.KernelIdeal.Hand.mem_uc Cert.KernelIdeal.main_arg3 (by decide))).trans (Cert.KernelIdeal.Hand.B17_main_arg3 m c),
      (h c _ (Cert.KernelIdeal.Hand.mem_uc Cert.KernelIdeal.main_arg4 (by decide))).trans (Cert.KernelIdeal.Hand.B17_main_arg4 m c),
      (h c _ (Cert.KernelIdeal.Hand.mem_uc Cert.KernelIdeal.main_arg5 (by decide))).trans (Cert.KernelIdeal.Hand.B17_main_arg5 m c),
      (h c _ (Cert.KernelIdeal.Hand.mem_uc Cert.KernelIdeal.main_arg6 (by decide))).trans (Cert.KernelIdeal.Hand.B17_main_arg6 m c),
      (h c _ (Cert.KernelIdeal.Hand.mem_uc Cert.KernelIdeal.main_arg7 (by decide))).trans (Cert.KernelIdeal.Hand.B17_main_arg7 m c),
      (h c _ (Cert.KernelIdeal.Hand.mem_uc Cert.KernelIdeal.main_arg8 (by decide))).trans (Cert.KernelIdeal.Hand.B17_main_arg8 m c),
      (h c _ (Cert.KernelIdeal.Hand.mem_uc Cert.KernelIdeal.main_arg9 (by decide))).trans (Cert.KernelIdeal.Hand.B17_main_arg9 m c),
      (h c _ (Cert.KernelIdeal.Hand.mem_uc Cert.KernelIdeal.main_arg10 (by decide))).trans (Cert.KernelIdeal.Hand.B17_main_arg10 m c)⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8, e9, e10⟩ := hagree c
    refine ⟨h0.trans ?_, h1.trans ?_, hargs⟩
    · rw [Cert.ReferenceIdeal.Read.val_main_v83_eq, e0, e1, e2, e3, e4, e5, e6, e7, e8, e9, e10]
      exact (Cert.KernelIdeal.Hand.b17_v60 m c).symm
    · rw [Cert.ReferenceIdeal.Read.val_main_v66_eq, e0, e1, e3, e4, e5, e6, e7, e8]
      exact (Cert.KernelIdeal.Hand.b17_v45_0 m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
